-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v55_0)) (v2 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v55_0) = v1 c
          ∧ r.2.mem ((c.tc : Thread Cert.KernelIdeal.nD Cert.KernelIdeal.τ).loc Cert.KernelIdeal.main_v55_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![0, 0] · slices_S2x800000_S1x800000_0_0) main_arg1
  let main_v70 : IVec S800000 32 := shapeCast S800000 main_v69 shapeCasts_S1x800000_S800000
  let main_c_26 : IVec S_ 32 := constantI S_ 32 0#32
  let main_v71 : IVec S800000 32 := broadcastInDim S800000 ![] bcast_S_S800000 main_c_26
  let main_v72 : IVec S800000 1 := cmpi .sge main_v70 main_v71
  let main_v73 : IVec S1x800000 32 := (extractStridedSlice S1x800000 ![0, 0] · slices_S2x800000_S1x800000_0_0) main_arg1
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg1 : IVec S2x800000 32) (main_arg12 : FVec F S128 .f32) (main_arg13 : FVec F S128x128 .f32) (main_arg14 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x800000 32) (main_arg8 : FVec F S64 .f32) (main_arg9 : FVec F S64x64 .f32) (main_arg10 : FVec F S64 .f32) (main_arg11 : FVec F S64x128 .f32) (main_arg12 : FVec F S128 .f32) (main_arg13 : FVec F S128x128 .f32) (main_arg14 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg1 main_arg12 main_arg13 main_arg14 main_v48 main_v49 main_v50

def fn_part1 {F : FTy → Type} [FloatOps F] (main_arg1 : IVec S2x800000 32) (main_arg5 : FVec F S128x64 .f32) (main_arg6 : FVec F S64 .f32) (main_arg7 : FVec F S64x64 .f32) (main_arg8 : FVec F S64 .f32) (main_arg9 : FVec F S64x64 .f32) (main_arg10 : FVec F S64 .f32) (main_arg11 : FVec F S64x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x128 .f32) (main_arg1 : IVec S2x800000 32) (main_arg2 : FVec F S50000x64 .f32) (main_arg3 : FVec F S128x128 .f32) (main_arg4 : FVec F S128 .f32) (main_arg5 : FVec F S128x64 .f32) (main_arg6 : FVec F S64 .f32) (main_arg7 : FVec F S64x64 .f32) (main_arg8 : FVec F S64 .f32) (main_arg9 : FVec F S64x64 .f32) (main_arg10 : FVec F S64 .f32) (main_arg11 : FVec F S64x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S1 : Shape := ⟨1, ![1]⟩
abbrev S1x1 : Shape := ⟨2, ![1, 1]⟩
abbrev S850000x128 : Shape := ⟨2, ![850000, 128]⟩
abbrev S1x128 : Shape := ⟨2, ![1, 128]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 196
  | .vmem => 64
  | .smem => 0
  | _ => 0

abbrev hbmTy0_0 (i : Nat) : BufTy := match i % 128 with
  | 0 => ⟨S50000x128, .f32⟩
  | 1 => ⟨S2x800000, .i32⟩
  | 2 => ⟨S50000x64, .f32⟩
  | 3 => ⟨S128x128, .f32⟩
  | 4 => ⟨S128, .f32⟩
  | 5 => ⟨S128x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x128, .f32⟩
  | 12 => ⟨S128, .f32⟩
  | 13 => ⟨S128x128, .f32⟩
  | 14 => ⟨S128, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S1, .i32⟩
  | 67 => ⟨S_, .i32⟩
  | 68 => ⟨S850000x1, .i32⟩
  | 69 => ⟨S850000x1, .i1⟩
  | 70 => ⟨S1x1, .i32⟩
  | 71 => ⟨S850000x1, .i32⟩
  | 72 => ⟨S850000x1, .i1⟩
  | 73 => ⟨S850000x1, .i1⟩
  | 74 => ⟨S_, .i1⟩
  | 75 => ⟨S850000, .i1⟩
  | 76 => ⟨S850000x128, .f32⟩
  | 77 => ⟨S850000x128, .i1⟩
  | 78 => ⟨S_, .f32⟩
  | 79 => ⟨S850000x128, .f32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x64, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S1, .i32⟩
  | 100 => ⟨S_, .i32⟩
  | 101 => ⟨S850000x1, .i32⟩
  | 102 => ⟨S850000x1, .i1⟩
  | 103 => ⟨S1x1, .i32⟩
  | 104 => ⟨S850000x1, .i32⟩
  | 105 => ⟨S850000x1, .i1⟩
  | 106 => ⟨S850000x1, .i1⟩
  | 107 => ⟨S_, .i1⟩
  | 108 => ⟨S850000, .i1⟩
  | 109 => ⟨S850000x64, .f32⟩
  | 110 => ⟨S850000x64, .i1⟩
  | 111 => ⟨S_, .f32⟩
  | 112 => ⟨S850000x64, .f32⟩
  | 113 => ⟨S850000x64, .f32⟩
  | 114 => ⟨S850000x1, .f32⟩
  | 115 => ⟨S850000x64, .f32⟩
  | 116 => ⟨S850000x64, .f32⟩
  | 117 => ⟨S_, .f32⟩
  | 118 => ⟨S50000x64, .f32⟩
  | 119 => ⟨S850000x1, .i32⟩
  | 120 => ⟨S50000x64, .f32⟩
  | 121 => ⟨S1x64, .f32⟩
  | 122 => ⟨S50000x64, .f32⟩
  | 123 => ⟨S50000x64, .f32⟩
  | 124 => ⟨S50000x64, .f32⟩
  | 125 => ⟨S1x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S50000x128, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S1, .i32⟩
  | 12 => ⟨S_, .i32⟩
  | 13 => ⟨S850000x1, .i32⟩
  | 14 => ⟨S850000x1, .i1⟩
  | 15 => ⟨S1x1, .i32⟩
  | 16 => ⟨S850000x1, .i32⟩
  | 17 => ⟨S850000x1, .i1⟩
  | 18 => ⟨S850000x1, .i1⟩
  | 19 => ⟨S_, .i1⟩
  | 20 => ⟨S850000, .i1⟩
  | 21 => ⟨S850000x128, .f32⟩
  | 22 => ⟨S850000x128, .i1⟩
  | 23 => ⟨S_, .f32⟩
  | 24 => ⟨S850000x128, .f32⟩
  | 25 => ⟨S850000x128, .f32⟩
  | 26 => ⟨S850000x1, .f32⟩
  | 27 => ⟨S850000x128, .f32⟩
  | 28 => ⟨S850000x128, .f32⟩
  | 29 => ⟨S_, .f32⟩
  | 30 => ⟨S50000x128, .f32⟩
  | 31 => ⟨S850000x1, .i32⟩
  | 32 => ⟨S50000x128, .f32⟩
  | 33 => ⟨S1x128, .f32⟩
  | 34 => ⟨S50000x128, .f32⟩
  | 35 => ⟨S50000x128, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S1, .i32⟩
  | 45 => ⟨S_, .i32⟩
  | 46 => ⟨S850000x1, .i32⟩
  | 47 => ⟨S850000x1, .i1⟩
  | 48 => ⟨S1x1, .i32⟩
  | 49 => ⟨S850000x1, .i32⟩
  | 50 => ⟨S850000x1, .i1⟩
  | 51 => ⟨S850000x1, .i1⟩
  | 52 => ⟨S_, .i1⟩
  | 53 => ⟨S850000, .i1⟩
  | 54 => ⟨S850000x128, .f32⟩
  | 55 => ⟨S850000x128, .i1⟩
  | 56 => ⟨S_, .f32⟩
  | 57 => ⟨S850000x128, .f32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_7 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_cst_8 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55_0 : Ref sig .tc := ⟨.hbm, 127, rfl⟩
abbrev main_v55_1 : Ref sig .tc := ⟨.hbm, 128, rfl⟩
abbrev main_v55_2 : Ref sig .tc := ⟨.hbm, 129, rfl⟩
abbrev main_v56 : Ref sig .tc := ⟨.hbm, 130, rfl⟩
abbrev main_call3_c : Ref sig .tc := ⟨.hbm, 131, rfl⟩
abbrev main_call3_v0 : Ref sig .tc := ⟨.hbm, 132, rfl⟩
abbrev main_call3_v1 : Ref sig .tc := ⟨.hbm, 133, rfl⟩
abbrev main_call3_c_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_c_1 : Ref sig .tc := ⟨.hbm, 139, rfl⟩
abbrev main_call3_c_2 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_c_3 : Ref sig .tc := ⟨.hbm, 147, rfl⟩
abbrev main_call3_v12 : Ref sig .tc := ⟨.hbm, 148, rfl⟩
abbrev main_call3_v13 : Ref sig .tc := ⟨.hbm, 149, rfl⟩
abbrev main_call3_v14 : Ref sig .tc := ⟨.hbm, 150, rfl⟩
abbrev main_call3_cst : Ref sig .tc := ⟨.hbm, 151, rfl⟩
abbrev main_call3_v15 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_cst_9 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_call4_c : Ref sig .tc := ⟨.hbm, 164, rfl⟩
abbrev main_call4_v0 : Ref sig .tc := ⟨.hbm, 165, rfl⟩
abbrev main_call4_v1 : Ref sig .tc := ⟨.hbm, 166, rfl⟩
abbrev main_call4_c_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_c_1 : Ref sig .tc := ⟨.hbm, 172, rfl⟩
abbrev main_call4_c_2 : Ref sig .tc := ⟨.hbm, 173, rfl⟩
abbrev main_call4_v6 : Ref sig .tc := ⟨.hbm, 174, rfl⟩
abbrev main_call4_v7 : Ref sig .tc := ⟨.hbm, 175, rfl⟩
abbrev main_call4_v8 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_c_3 : Ref sig .tc := ⟨.hbm, 180, rfl⟩
abbrev main_call4_v12 : Ref sig .tc := ⟨.hbm, 181, rfl⟩
abbrev main_call4_v13 : Ref sig .tc := ⟨.hbm, 182, rfl⟩
abbrev main_call4_v14 : Ref sig .tc := ⟨.hbm, 183, rfl⟩
abbrev main_call4_cst : Ref sig .tc := ⟨.hbm, 184, rfl⟩
abbrev main_call4_v15 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_cst_10 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg4_1 : Ref sig .tc := ⟨.vmem, 37, rfl⟩
abbrev cc6_stg5_0 : Ref sig .tc := ⟨.vmem, 38, rfl⟩
abbrev cc6_stg5_1 : Ref sig .tc := ⟨.vmem, 39, rfl⟩
abbrev cc6_stg6_0 : Ref sig .tc := ⟨.vmem, 40, rfl⟩
abbrev cc6_stg6_1 : Ref sig .tc := ⟨.vmem, 41, rfl⟩
abbrev cc6_stg7_0 : Ref sig .tc := ⟨.vmem, 42, rfl⟩
abbrev cc6_stg7_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg2_0 : Ref sig .tc := ⟨.vmem, 62, rfl⟩
abbrev cc10_stg2_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc6_sem3_0 : DmaSem sig := 35
abbrev cc6_sem4_0 : DmaSem sig := 36
abbrev cc6_sem4_1 : DmaSem sig := 37
abbrev cc6_sem5_0 : DmaSem sig := 38
abbrev cc6_sem5_1 : DmaSem sig := 39
abbrev cc6_sem6_0 : DmaSem sig := 40
abbrev cc6_sem6_1 : DmaSem sig := 41
abbrev cc6_sem7_0 : DmaSem sig := 42
abbrev cc6_sem7_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000_S850000x64_0 : S850000.BroadcastsInDim S850000x64 (![0] : Fin 1 → Fin S850000x64.rank)
  bcast_S_S850000x64 : S_.BroadcastsInDim S850000x64 (![] : Fin 0 → Fin S850000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S50000x64.size a
  hwx6_7 : ∀ i : grid6.Coords, EltTy.bits .f32 = 32 ∨ (Rect.block (s := S50000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v52) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v51) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v54) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg2) S5000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v55_0) S5000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v55_1) S5000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v55_2) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v55_2) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v56) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v63) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v64) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v65) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v65) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v66) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v73) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v74) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v75) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x800000, .i32⟩
  | 2 => ⟨S50000x64, .f32⟩
  | 3 => ⟨S128x128, .f32⟩
  | 4 => ⟨S128, .f32⟩
  | 5 => ⟨S128x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x128, .f32⟩
  | 12 => ⟨S128, .f32⟩
  | 13 => ⟨S128x128, .f32⟩
  | 14 => ⟨S128, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x64, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x64, .f32⟩
  | 90 => ⟨S850000x1, .f32⟩
  | 91 => ⟨S850000x64, .f32⟩
  | 92 => ⟨S850000x64, .f32⟩
  | 93 => ⟨S_, .f32⟩
  | 94 => ⟨S50000x64, .f32⟩
  | 95 => ⟨S850000x1, .i32⟩
  | 96 => ⟨S50000x64, .f32⟩
  | 97 => ⟨S1x64, .f32⟩
  | 98 => ⟨S50000x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S50000x64, .f32⟩
  | 113 => ⟨S50000x64, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x128, .f32⟩
  | 19 => ⟨S850000x1, .f32⟩
  | 20 => ⟨S850000x128, .f32⟩
  | 21 => ⟨S850000x128, .f32⟩
  | 22 => ⟨S_, .f32⟩
  | 23 => ⟨S50000x128, .f32⟩
  | 24 => ⟨S850000x1, .i32⟩
  | 25 => ⟨S50000x128, .f32⟩
  | 26 => ⟨S1x128, .f32⟩
  | 27 => ⟨S50000x128, .f32⟩
  | 28 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_cst : Ref sig .tc := ⟨.hbm, 77, rfl⟩
abbrev main_call1_v0 : Ref sig .tc := ⟨.hbm, 78, rfl⟩
abbrev main_v48 : Ref sig .tc := ⟨.hbm, 79, rfl⟩
abbrev main_v49 : Ref sig .tc := ⟨.hbm, 80, rfl⟩
abbrev main_c_10 : Ref sig .tc := ⟨.hbm, 81, rfl⟩
abbrev main_v50 : Ref sig .tc := ⟨.hbm, 82, rfl⟩
abbrev main_v51 : Ref sig .tc := ⟨.hbm, 83, rfl⟩
abbrev main_c_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_14 : Ref sig .tc := ⟨.hbm, 115, rfl⟩
abbrev main_v80 : Ref sig .tc := ⟨.hbm, 116, rfl⟩
abbrev main_v81 : Ref sig .tc := ⟨.hbm, 117, rfl⟩
abbrev main_c_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call2_cst : Ref sig .tc := ⟨.hbm, 134, rfl⟩
abbrev main_call2_v0 : Ref sig .tc := ⟨.hbm, 135, rfl⟩
abbrev main_v96 : Ref sig .tc := ⟨.hbm, 136, rfl⟩
abbrev main_v97 : Ref sig .tc := ⟨.hbm, 137, rfl⟩
abbrev main_c_17 : Ref sig .tc := ⟨.hbm, 138, rfl⟩
abbrev main_v98 : Ref sig .tc := ⟨.hbm, 139, rfl⟩
abbrev main_v99 : Ref sig .tc := ⟨.hbm, 140, rfl⟩
abbrev main_c_18 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_19 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.Model.lean ====
/-
  A two-layer graph-convolution encoder with mean and log-variance heads, the reparameterised sample, and a two-layer
  graph-convolution decoder, written with the host operations of the reference program.

  Every node gets a self loop: the edge list's sources and destinations are each followed by 0, 1, ..., 49999. The degree
  of a node is the number of (extended) edges that end in it; an edge's weight is the product of deg^(-1/2) at its two ends
  (zero where the degree is zero). One graph convolution of node features h with weight matrix W and bias b is

      conv(h, W, b) = segment_sum over destinations of ( (h W)[source row] * weight ) + b ,

  negative node numbers counting from the end. The encoder is h1 = max(conv(x, W_e1, b_e1), 0), h2 = conv(h1, W_e2, b_e2),
  mu = h2 W_mu + b_mu, logvar = h2 W_lv + b_lv; the sample is z = mu + eps * exp(logvar / 2); the decoder is
  d1 = max(conv(z, W_d1, b_d1), 0), d = conv(d1, W_d2, b_d2). The results are d, mu and logvar.
-/
import proofs.«411271_j79216376808060_2_alg».proof.Proof.Gen.ReferenceIdeal

noncomputable section

namespace Cert.Gcn

open Cert.ReferenceIdeal Cert.ReferenceIdeal.Gen Idealize.ShloMosaic

variable {F : FTy → Type} [FloatOps F]

/-- The sources of the extended edge list: row 0 of the edge array, then every node's own number. -/
def src (a1 : IVec S2x800000 32) : IVec S850000 32 :=
  concatenate S850000 0 [⟨S800000, (shapeCast _ (extractStridedSlice S1x800000 ![0, 0] a1 slices_S2x800000_S1x800000_0_0) shapeCasts_S1x800000_S800000)⟩, ⟨S50000, (iotaInDim S50000 32 0)⟩] concatenates_S800000_S50000_S850000_d0

/-- The destinations of the extended edge list: row 1 of the edge array, then every node's own number. -/
def dst (a1 : IVec S2x800000 32) : IVec S850000 32 :=
  concatenate S850000 0 [⟨S800000, (shapeCast _ (extractStridedSlice S1x800000 ![1, 0] a1 slices_S2x800000_S1x800000_1_0) shapeCasts_S1x800000_S800000)⟩, ⟨S50000, (iotaInDim S50000 32 0)⟩] concatenates_S800000_S50000_S850000_d0

/-- Node numbers as a column of row indices, a negative number counting from the end (50000 added). -/
def wrap (s : IVec S850000 32) : IVec S850000x1 32 :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- A node's degree: how many extended edges end in it. -/
def deg (a1 : IVec S2x800000 32) : FVec F S50000 .f32 :=
  Host.scatterAdd scatter_S50000_S850000x1_S850000_n_0_0_1 (broadcastInDim S50000 ![] bcast_S_S50000 (constant (F := F) S_ .f32 0x00000000#32)) (broadcastInDim S850000x1 ![0] bcast_S850000_S850000x1_0 (dst a1)) (broadcastInDim S850000 ![] bcast_S_S850000 (constant (F := F) S_ .f32 0x3F800000#32))

/-- deg^(-1/2), and zero where the degree is not positive. -/
def dinv (a1 : IVec S2x800000 32) : FVec F S50000 .f32 :=
  select (cmpf .ogt (deg a1) (broadcastInDim S50000 ![] bcast_S_S50000 (constant (F := F) S_ .f32 0x00000000#32))) (Host.powf (deg a1) (broadcastInDim S50000 ![] bcast_S_S50000 (constant (F := F) S_ .f32 0xBF000000#32))) (broadcastInDim S50000 ![] bcast_S_S50000 (id (constant (F := F) S_ .f32 0x00000000#32)))

/-- An edge's weight: the product of deg^(-1/2) at its source and at its destination. -/
def norm (a1 : IVec S2x800000 32) : FVec F S850000 .f32 :=
  mulf (Host.gather gather_S50000_S850000x1_S850000_n_0_n_n_0_1_1 (dinv a1) (wrap (src a1))) (Host.gather gather_S50000_S850000x1_S850000_n_0_n_n_0_1_1 (dinv a1) (wrap (dst a1)))

/-- Message passing over 128 channels: each edge carries its source's row scaled by the edge's weight, and every node
    sums what arrives. -/
def agg128 (a1 : IVec S2x800000 32) (lin : FVec F S50000x128 .f32) : FVec F S50000x128 .f32 :=
  Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 (dst a1)) (mulf (Host.gather gather_S50000x128_S850000x1_S850000x128_1_0_n_n_0_1_1128 lin (wrap (src a1))) (broadcastInDim S850000x128 ![0, 1] bcast_S850000x1_S850000x128_0_1 (broadcastInDim S850000x1 ![0] bcast_S850000_S850000x1_0 (norm a1))))

/-- Message passing over 64 channels. -/
def agg64 (a1 : IVec S2x800000 32) (lin : FVec F S50000x64 .f32) : FVec F S50000x64 .f32 :=
  Host.scatterAdd scatter_S50000x64_S850000x1_S850000x64_1_0_0_1 (broadcastInDim S50000x64 ![] bcast_S_S50000x64 (constant (F := F) S_ .f32 0x00000000#32)) (broadcastInDim S850000x1 ![0] bcast_S850000_S850000x1_0 (dst a1)) (mulf (Host.gather gather_S50000x64_S850000x1_S850000x64_1_0_n_n_0_1_164 lin (wrap (src a1))) (broadcastInDim S850000x64 ![0, 1] bcast_S850000x1_S850000x64_0_1 (broadcastInDim S850000x1 ![0] bcast_S850000_S850000x1_0 (norm a1))))

/-- The four matrix products of node features with a weight matrix. -/
def dot128x128 (x : FVec F S50000x128 .f32) (w : FVec F S128x128 .f32) : FVec F S50000x128 .f32 :=
  Host.dotGeneral dot_S50000x128_S128x128_S50000x128_1_0_0_1_n_n none x w
def dot128x64 (x : FVec F S50000x128 .f32) (w : FVec F S128x64 .f32) : FVec F S50000x64 .f32 :=
  Host.dotGeneral dot_S50000x128_S128x64_S50000x64_1_0_0_1_n_n none x w
def dot64x64 (x : FVec F S50000x64 .f32) (w : FVec F S64x64 .f32) : FVec F S50000x64 .f32 :=
  Host.dotGeneral dot_S50000x64_S64x64_S50000x64_1_0_0_1_n_n none x w
def dot64x128 (x : FVec F S50000x64 .f32) (w : FVec F S64x128 .f32) : FVec F S50000x128 .f32 :=
  Host.dotGeneral dot_S50000x64_S64x128_S50000x128_1_0_0_1_n_n none x w

/-- A bias vector added to every row. -/
def addb128 (x : FVec F S50000x128 .f32) (b : FVec F S128 .f32) : FVec F S50000x128 .f32 :=
  addf x (broadcastInDim S50000x128 ![0, 1] bcast_S1x128_S50000x128_0_1 (broadcastInDim S1x128 ![1] bcast_S128_S1x128_1 b))
def addb64 (x : FVec F S50000x64 .f32) (b : FVec F S64 .f32) : FVec F S50000x64 .f32 :=
  addf x (broadcastInDim S50000x64 ![0, 1] bcast_S1x64_S50000x64_0_1 (broadcastInDim S1x64 ![1] bcast_S64_S1x64_1 b))

/-- The positive part, entry by entry. -/
def relu128 (x : FVec F S50000x128 .f32) : FVec F S50000x128 .f32 :=
  maximumf x (broadcastInDim S50000x128 ![] bcast_S_S50000x128 (constant (F := F) S_ .f32 0x00000000#32))

variable (a0 : FVec F S50000x128 .f32) (a1 : IVec S2x800000 32) (a2 : FVec F S50000x64 .f32) (a3 : FVec F S128x128 .f32) (a4 : FVec F S128 .f32)
  (a5 : FVec F S128x64 .f32) (a6 : FVec F S64 .f32) (a7 : FVec F S64x64 .f32) (a8 : FVec F S64 .f32) (a9 : FVec F S64x64 .f32) (a10 : FVec F S64 .f32)
  (a11 : FVec F S64x128 .f32) (a12 : FVec F S128 .f32) (a13 : FVec F S128x128 .f32) (a14 : FVec F S128 .f32)

/-- The encoder's first layer. -/
def h1 : FVec F S50000x128 .f32 := relu128 (addb128 (agg128 a1 (dot128x128 a0 a3)) a4)
/-- The encoder's second layer. -/
def h2 : FVec F S50000x64 .f32 := addb64 (agg64 a1 (dot128x64 (h1 a0 a1 a3 a4) a5)) a6
/-- The mean head. -/
def mu : FVec F S50000x64 .f32 := addb64 (dot64x64 (h2 a0 a1 a3 a4 a5 a6) a7) a8
/-- The log-variance head. -/
def logvar : FVec F S50000x64 .f32 := addb64 (dot64x64 (h2 a0 a1 a3 a4 a5 a6) a9) a10
/-- The sample: mean plus noise times exp(logvar / 2). -/
def z : FVec F S50000x64 .f32 :=
  addf (mu a0 a1 a3 a4 a5 a6 a7 a8) (mulf a2 (Host.exp (mulf (broadcastInDim S50000x64 ![] bcast_S_S50000x64 (constant (F := F) S_ .f32 0x3F000000#32)) (logvar a0 a1 a3 a4 a5 a6 a9 a10))))
/-- The decoder's first layer. -/
def d1 : FVec F S50000x128 .f32 := relu128 (addb128 (agg128 a1 (dot64x128 (z a0 a1 a2 a3 a4 a5 a6 a7 a8 a9 a10) a11)) a12)
/-- The decoder's second layer: the reconstruction. -/
def d : FVec F S50000x128 .f32 := addb128 (agg128 a1 (dot128x128 (d1 a0 a1 a2 a3 a4 a5 a6 a7 a8 a9 a10 a11 a12) a13)) a14

end Cert.Gcn

end
-- ==== Proof.LibTakeMask.lean ====
/-
  A row gather guarded by a validity mask ("take, filling what is out of range").

  Such a take wraps negative indices (a word that is negative as a signed number has the axis's extent added), tests
  the wrapped word against the bounds 0 and extent − 1, gathers, and keeps the gathered row only where the test passed,
  putting a fill value elsewhere. When every index word is a row number already, the wrap is the identity, every test
  passes, and the take is the plain gather. The lemmas here are the pieces of that argument: words in range compare
  as expected, an "and"-reduction of all-ones is one, and a selection under an all-ones mask is its first branch.
-/
import Idealize.ShloMosaic.Lib.ReduceAll
import Idealize.ShloMosaic.Lib.StableHlo.Predicate
import Idealize.ShloMosaic.Lib.Pipeline.Value
import Idealize.ShloMosaic.Lib.ValueIdx

noncomputable section

namespace Cert.TakeMask

open Idealize.ShloMosaic Idealize.ShloMosaic.ValueIdx

/-- A left fold by "and" from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) fun n hn => hl n (List.mem_cons_of_mem _ hn)

/-- An "and"-reduction whose operand is all ones, started from one, is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit fun n _ => hx n

/-- A selection under a mask that is one everywhere is its first branch. -/
theorem select_of_all {s : Shape} {α : Type} (c : IVec s 1) (a b : s.Idx → α) (hc : ∀ i, c i = 1#1) : select c a b = a := by
  funext i
  show Scalar.select (c i) (a i) (b i) = a i
  rw [hc i]; rfl

/-- A word that is, signed, at least 0 and below a bound `N` is the number it spells, below `N`. -/
theorem toNat_lt_of_cmp (N : ℕ) (hN : N < 2 ^ 31) (w : BitVec 32) (h0 : IntOp.cmpi .sge w 0#32 = 1#1)
    (h1 : IntOp.cmpi .slt w (BitVec.ofNat 32 N) = 1#1) : w.toNat < N := by
  have e0 : BitVec.ofBool ((0#32).sle w) = 1#1 := h0
  have e0' : (0#32).sle w = true := (StableHlo.Predicate.ofBool_eq_one_iff _).1 e0
  have hw : w.toNat < 2 ^ 31 := by
    have e : (0#32).toInt ≤ w.toInt := by simpa [BitVec.sle] using e0'
    have z : (0#32).toInt = 0 := rfl
    rw [z, BitVec.toInt_eq_msb_cond] at e
    cases hm : w.msb with
    | false => have := BitVec.msb_eq_false_iff_two_mul_lt.mp hm; omega
    | true => rw [hm] at e; simp at e; have := w.isLt; omega
  have hN' : N % 2 ^ 32 = N := Nat.mod_eq_of_lt (by omega)
  have hb : (BitVec.ofNat 32 N).toNat < 2 ^ 31 := by rw [BitVec.toNat_ofNat, hN']; exact hN
  have := (StableHlo.Predicate.slt_iff_toNat hw hb).1 h1
  rw [BitVec.toNat_ofNat, hN'] at this
  exact this

/-- A word below `N` passes the take's two tests: signed, it is at least 0 and at most `N − 1`. -/
theorem cmp_of_toNat_lt (N : ℕ) (hN : N < 2 ^ 31) (w : BitVec 32) (h : w.toNat < N) :
    IntOp.cmpi .sge w 0#32 = 1#1 ∧ IntOp.cmpi .sle w (BitVec.ofNat 32 (N - 1)) = 1#1 := by
  have hw : w.toNat < 2 ^ 31 := by omega
  have hN' : (N - 1) % 2 ^ 32 = N - 1 := Nat.mod_eq_of_lt (by omega)
  have hb : (BitVec.ofNat 32 (N - 1)).toNat < 2 ^ 31 := by rw [BitVec.toNat_ofNat, hN']; omega
  refine ⟨(StableHlo.Predicate.sge_iff_toNat hw (by decide)).2 (Nat.zero_le _), (StableHlo.Predicate.sle_iff_toNat hw hb).2 ?_⟩
  rw [BitVec.toNat_ofNat, hN']; omega

/-- On a word that is not negative the wrap of negative indices does nothing, whatever would have been added. -/
theorem wrap_of_nonneg (w K : BitVec 32) (h : w.toNat < 2 ^ 31) :
    Scalar.select (IntOp.cmpi .slt w 0#32) (IntOp.addi w K) w = w := by
  have hlt : ¬ IntOp.cmpi .slt w 0#32 = 1#1 := fun hc => by
    have := (StableHlo.Predicate.slt_iff_toNat h (by decide)).1 hc
    simp at this
  exact if_neg hlt

/-- Entry `p` of the vector of the first `n` numbers is the word of `p`. -/
theorem iota_toNat {n : ℕ} (hn : n ≤ 2 ^ 32) (p : Fin n) : (iotaInDim (⟨1, ![n]⟩ : Shape) 32 0 (ix1 p)).toNat = p.val := by
  show (BitVec.ofNat 32 p.val).toNat = p.val
  rw [BitVec.toNat_ofNat]; exact Nat.mod_eq_of_lt (by have := p.isLt; omega)

/-- A vector of index words followed by the numbers 0, 1, …, n₂ − 1 (a list of edges' endpoints followed by every
    node's own number): if every word of the first part spells a number below `N` and `n₂ ≤ N`, so does every entry. -/
theorem concat_iota_toNat_lt {n₁ n₂ n : ℕ} (x : IVec ⟨1, ![n₁]⟩ 32) (N : ℕ) (hN : n₂ ≤ N) (hn₂ : n₂ ≤ 2 ^ 32)
    (hx : ∀ i, (x i).toNat < N) (h : Shape.Concatenates [(⟨1, ![n₁]⟩ : Shape), ⟨1, ![n₂]⟩] ⟨1, ![n]⟩ 0)
    (j : (⟨1, ![n]⟩ : Shape).Idx) :
    (concatenate ⟨1, ![n]⟩ 0 [⟨⟨1, ![n₁]⟩, x⟩, ⟨⟨1, ![n₂]⟩, iotaInDim (⟨1, ![n₂]⟩ : Shape) 32 0⟩] h j).toNat < N := by
  have hsum : n₁ + n₂ = n := by
    have e := h.2.2
    simpa using e
  by_cases hj : (j 0).val < n₁
  · rw [concatenate_pair_apply_left (0 : Fin 1) x (iotaInDim (⟨1, ![n₂]⟩ : Shape) 32 0) h j rfl (ix1 (⟨(j 0).val, hj⟩ : Fin n₁)) (fun b => by
      have hb : b = 0 := Subsingleton.elim _ _
      subst hb; rfl)]
    exact hx _
  · have hq : (j 0).val - n₁ < n₂ := by have := (j 0).isLt; simp at this; omega
    rw [concatenate_pair_apply_right (0 : Fin 1) x (iotaInDim (⟨1, ![n₂]⟩ : Shape) 32 0) h j rfl rfl (ix1 (⟨(j 0).val - n₁, hq⟩ : Fin n₂))
      (fun b hb => absurd (Subsingleton.elim _ _) hb) (by
        show (j 0).val - n₁ + n₁ = (j 0).val
        omega)]
    rw [iota_toNat hn₂]
    show (j 0).val - n₁ < N
    omega

end Cert.TakeMask

end
-- ==== Proof.SrcRange.lean ====
/-
  Under the precondition every source node number names a node.

  The precondition's last conjunct says that every word of row 0 of the edge array is, as a signed number, at least 0 and
  below 50000. The extended source list is that row followed by 0, 1, ..., 49999, so each of its words spells a number
  below 50000.
-/
import proofs.«411271_j79216376808060_2_alg».proof.Defs
import proofs.«411271_j79216376808060_2_alg».proof.Proof.Gen.Pre_finite_inputs
import proofs.«411271_j79216376808060_2_alg».proof.Proof.Gen.KernelIdeal
import proofs.«411271_j79216376808060_2_alg».proof.Proof.Model
import proofs.«411271_j79216376808060_2_alg».proof.Proof.LibTakeMask
import Idealize.ShloMosaic.Lib.ReduceAll
import Idealize.ShloMosaic.Lib.StableHlo.Predicate

noncomputable section

namespace Cert.Gcn

open Idealize.ShloMosaic Idealize.ShloMosaic.ValueIdx Idealize.SL.Sem

/-- Every word of row 0 of the edge array spells a number below 50000: the precondition's last conjunct is the
    "and"-reduction, over the whole row, of the two signed tests 0 ≤ word and word < 50000, and it is one; a reduction
    into the one scalar index that is one had a one at every entry of the row. -/
theorem row0_lt (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.ReferenceIdeal.S800000.Idx) :
    ((shapeCast Cert.ReferenceIdeal.S800000
      (extractStridedSlice Cert.ReferenceIdeal.S1x800000 ![0, 0]
        (m ((c.tc : Thread Cert.KernelIdeal.nD Cert.KernelIdeal.τ).loc Cert.KernelIdeal.main_arg1))
        Cert.ReferenceIdeal.Gen.slices_S2x800000_S1x800000_0_0)
      Cert.ReferenceIdeal.Gen.shapeCasts_S1x800000_S800000) i).toNat < 50000 := by
  -- the scalar shape has one index
  haveI : Subsingleton Cert.Pre_finite_inputs.S_.Idx := ⟨fun a b => funext fun d => d.elim0⟩
  -- the whole precondition at its one index, written out as the "and" of its conjuncts
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4] at h
  -- its last conjunct: the reduction of the two tests over row 0
  have h78 := (IntOp.andi_eq_one.1 h).2
  -- both tests pass at entry i
  have hi := IntOp.andi_eq_one.1 (Host.reduce_andi_all _ _ _ _ _ h78 i)
  exact Cert.TakeMask.toNat_lt_of_cmp 50000 (by norm_num) _ hi.1 hi.2

/-- Every word of the extended source list spells a number below 50000, on every device, when the precondition holds. -/
theorem src_lt (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.ReferenceIdeal.S850000.Idx) :
    ((src (m ((c.tc : Thread Cert.KernelIdeal.nD Cert.KernelIdeal.τ).loc Cert.KernelIdeal.main_arg1))) j).toNat < 50000 := by
  unfold src
  exact Cert.TakeMask.concat_iota_toNat_lt (n₁ := 800000) (n₂ := 50000) (n := 850000) _ 50000 (le_refl _) (by norm_num)
    (fun i => row0_lt m hpre c i) _ j

end Cert.Gcn

end
-- ==== Proof.ModelRun.lean ====
/-
  The reference program's three results are the model's reconstruction, mean and log-variance of its arguments.

  The reference's run names each result by one composed term of host operations over the argument arrays; the model's
  definitions are that term cut into named pieces (edge lists, degrees, edge weights, message passing, products, bias
  adds, positive part, sample), so unfolding the pieces gives the term back.
-/
import proofs.«411271_j79216376808060_2_alg».proof.Proof.RefRun
import proofs.«411271_j79216376808060_2_alg».proof.Proof.Model

set_option maxRecDepth 65536

noncomputable section

namespace Cert.Gcn

open Cert.ReferenceIdeal Cert.ReferenceIdeal.Gen Idealize.ShloMosaic Idealize.ShloMosaic.TcCoe Idealize.SL.Sem

variable {F : FTy → Type} [FloatOps F] (m : (ℓ : Loc nD τ sig) → Buf (Elt F) ℓ) (c : Dev nD)

/-- The reconstruction. -/
theorem res_recon_eq : Cert.ReferenceIdeal.RefRun.res_main_v113 (F := F) m c
    = d (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.RefRun.res_main_v113 d d1 z mu logvar h2 h1 relu128 addb128 addb64 agg128 agg64 dot128x128 dot128x64 dot64x64 dot64x128 norm dinv deg wrap src dst
  rfl

/-- The mean. -/
theorem res_mean_eq : Cert.ReferenceIdeal.RefRun.res_main_v69 (F := F) m c
    = mu (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.RefRun.res_main_v69 mu h2 h1 relu128 addb128 addb64 agg128 agg64 dot128x128 dot128x64 dot64x64 norm dinv deg wrap src dst
  rfl

/-- The log-variance. -/
theorem res_logvar_eq : Cert.ReferenceIdeal.RefRun.res_main_v73 (F := F) m c
    = logvar (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  unfold Cert.ReferenceIdeal.RefRun.res_main_v73 logvar h2 h1 relu128 addb128 addb64 agg128 agg64 dot128x128 dot128x64 dot64x64 norm dinv deg wrap src dst
  rfl

end Cert.Gcn

end
-- ==== Proof.ChainBase.lean ====
/-
  Names for reading the kernel program's run boundary by boundary.

  The run is a sequence of host stretches and kernel regions; the buffer contents at each boundary are a fold from the
  launch memory. Here: the fifteen argument arrays of a device as arrays over the reference program's shapes, the
  hypothesis that every source node number names a node, and two small tactics: one for "no operation of this host
  stretch writes this buffer", one that reads a host stretch's operations where a one-pass unfolding left them unread.
-/
import proofs.«411271_j79216376808060_2_alg».proof.Proof.Gen.KernelIdeal.Frame
import proofs.«411271_j79216376808060_2_alg».proof.Proof.Model
import Idealize.ShloMosaic.Lib.StableHlo.Run
import Idealize.ShloMosaic.PureOps.Ideal

noncomputable section

namespace Cert.Gcn.Chain

open Cert.KernelIdeal Cert.KernelIdeal.Gen Idealize.ShloMosaic Idealize.ShloMosaic.TcCoe Idealize.SL.Sem Idealize.ShloMosaic.StableHlo

/-- A buffer no operation of a host stretch writes keeps its contents across the stretch. -/
macro "keep_host" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The rewrite loop for what a one-pass unfolding of a host stretch leaves unread (a reshape's result, and the
    buffers read through it). -/
macro "after_clean" : tactic =>
  `(tactic| (repeat (first
       | rw [StableHlo.nullary_result] | rw [StableHlo.unary_result] | rw [StableHlo.binary_result] | rw [StableHlo.ternary_result] | rw [StableHlo.quaternary_result]
       | rw [StableHlo.reshape_result]
       | (rw [StableHlo.nullary_result_ne]; rotate_left; decide)
       | (rw [StableHlo.unary_result_ne]; rotate_left; decide)
       | (rw [StableHlo.binary_result_ne]; rotate_left; decide)
       | (rw [StableHlo.ternary_result_ne]; rotate_left; decide)
       | (rw [StableHlo.quaternary_result_ne]; rotate_left; decide)
       | (rw [StableHlo.reshape_result_ne]; rotate_left; decide))))

variable (m : (ℓ : Loc nD τ sig) → Buf (Elt Ideal) ℓ) (c : Dev nD)

/-- The argument arrays of device c. -/
abbrev a0 : FVec Ideal Cert.ReferenceIdeal.S50000x128 .f32 := m ((c : Thread nD τ).loc main_arg0)
abbrev a1 : IVec Cert.ReferenceIdeal.S2x800000 32 := m ((c : Thread nD τ).loc main_arg1)
abbrev a2 : FVec Ideal Cert.ReferenceIdeal.S50000x64 .f32 := m ((c : Thread nD τ).loc main_arg2)
abbrev a3 : FVec Ideal Cert.ReferenceIdeal.S128x128 .f32 := m ((c : Thread nD τ).loc main_arg3)
abbrev a4 : FVec Ideal Cert.ReferenceIdeal.S128 .f32 := m ((c : Thread nD τ).loc main_arg4)
abbrev a5 : FVec Ideal Cert.ReferenceIdeal.S128x64 .f32 := m ((c : Thread nD τ).loc main_arg5)
abbrev a6 : FVec Ideal Cert.ReferenceIdeal.S64 .f32 := m ((c : Thread nD τ).loc main_arg6)
abbrev a7 : FVec Ideal Cert.ReferenceIdeal.S64x64 .f32 := m ((c : Thread nD τ).loc main_arg7)
abbrev a8 : FVec Ideal Cert.ReferenceIdeal.S64 .f32 := m ((c : Thread nD τ).loc main_arg8)
abbrev a9 : FVec Ideal Cert.ReferenceIdeal.S64x64 .f32 := m ((c : Thread nD τ).loc main_arg9)
abbrev a10 : FVec Ideal Cert.ReferenceIdeal.S64 .f32 := m ((c : Thread nD τ).loc main_arg10)
abbrev a11 : FVec Ideal Cert.ReferenceIdeal.S64x128 .f32 := m ((c : Thread nD τ).loc main_arg11)
abbrev a12 : FVec Ideal Cert.ReferenceIdeal.S128 .f32 := m ((c : Thread nD τ).loc main_arg12)
abbrev a13 : FVec Ideal Cert.ReferenceIdeal.S128x128 .f32 := m ((c : Thread nD τ).loc main_arg13)
abbrev a14 : FVec Ideal Cert.ReferenceIdeal.S128 .f32 := m ((c : Thread nD τ).loc main_arg14)

/-- Every source node number names a node. -/
def InRange : Prop := ∀ j, ((Gcn.src (a1 m c)) j).toNat < 50000

/-- The network's intermediate arrays at device c's arguments. -/
abbrev h1 := Gcn.h1 (a0 m c) (a1 m c) (a3 m c) (a4 m c)
abbrev h2 := Gcn.h2 (a0 m c) (a1 m c) (a3 m c) (a4 m c) (a5 m c) (a6 m c)
abbrev mu := Gcn.mu (a0 m c) (a1 m c) (a3 m c) (a4 m c) (a5 m c) (a6 m c) (a7 m c) (a8 m c)
abbrev logvar := Gcn.logvar (a0 m c) (a1 m c) (a3 m c) (a4 m c) (a5 m c) (a6 m c) (a9 m c) (a10 m c)
abbrev z := Gcn.z (a0 m c) (a1 m c) (a2 m c) (a3 m c) (a4 m c) (a5 m c) (a6 m c) (a7 m c) (a8 m c) (a9 m c) (a10 m c)
abbrev d1 := Gcn.d1 (a0 m c) (a1 m c) (a2 m c) (a3 m c) (a4 m c) (a5 m c) (a6 m c) (a7 m c) (a8 m c) (a9 m c) (a10 m c) (a11 m c) (a12 m c)
abbrev d := Gcn.d (a0 m c) (a1 m c) (a2 m c) (a3 m c) (a4 m c) (a5 m c) (a6 m c) (a7 m c) (a8 m c) (a9 m c) (a10 m c) (a11 m c) (a12 m c) (a13 m c) (a14 m c)

variable (ρ : Dev nD → PrngReg)

/-- What the run has established when region 2 has ended (boundary 8): the edge lists and weights, and the second
    layer's product. -/
structure At8 : Prop where
  src : (W8 m ρ c (Proc.devRef .tc main_v3) : Cert.ReferenceIdeal.S850000.Idx → BitVec 32) = Gcn.src (a1 m c)
  dst : (W8 m ρ c (Proc.devRef .tc main_v6) : Cert.ReferenceIdeal.S850000.Idx → BitVec 32) = Gcn.dst (a1 m c)
  norm : (W8 m ρ c (Proc.devRef .tc main_v30) : Cert.ReferenceIdeal.S850000.Idx → EReal) = Gcn.norm (F := Ideal) (a1 m c)
  lin : (W8 m ρ c (Proc.devRef .tc main_v41) : Cert.ReferenceIdeal.S50000x64.Idx → EReal) = Gcn.dot128x64 (h1 m c) (a5 m c)

/-- What the run has established when region 7 has ended (boundary 16): the edge lists and weights, the mean and
    log-variance results, and the decoder's first product. -/
structure At16 : Prop where
  src : (W16 m ρ c (Proc.devRef .tc main_v3) : Cert.ReferenceIdeal.S850000.Idx → BitVec 32) = Gcn.src (a1 m c)
  dst : (W16 m ρ c (Proc.devRef .tc main_v6) : Cert.ReferenceIdeal.S850000.Idx → BitVec 32) = Gcn.dst (a1 m c)
  norm : (W16 m ρ c (Proc.devRef .tc main_v30) : Cert.ReferenceIdeal.S850000.Idx → EReal) = Gcn.norm (F := Ideal) (a1 m c)
  mean : (W16 m ρ c (Proc.devRef .tc main_v55_0) : Cert.ReferenceIdeal.S50000x64.Idx → EReal) = mu m c
  logvar : (W16 m ρ c (Proc.devRef .tc main_v55_1) : Cert.ReferenceIdeal.S50000x64.Idx → EReal) = logvar m c
  lin : (W16 m ρ c (Proc.devRef .tc main_v56) : Cert.ReferenceIdeal.S50000x128.Idx → EReal) = Gcn.dot64x128 (z m c) (a11 m c)

/-- What the run ends with (boundary 23): the three results. -/
structure At23 : Prop where
  recon : (W23 m ρ c (Proc.devRef .tc main_v75) : Cert.ReferenceIdeal.S50000x128.Idx → EReal) = d m c
  mean : (W23 m ρ c (Proc.devRef .tc main_v55_0) : Cert.ReferenceIdeal.S50000x64.Idx → EReal) = mu m c
  logvar : (W23 m ρ c (Proc.devRef .tc main_v55_1) : Cert.ReferenceIdeal.S50000x64.Idx → EReal) = logvar m c

end Cert.Gcn.Chain

end
-- ==== Proof.KModel.lean ====
/-
  A row gather that fills what is out of range, as the kernel's program writes it.

  The node numbers are first wrapped (a negative number has 50000 added), then tested against the bounds 0 and 49999;
  the rows are gathered at the wrapped numbers; and a gathered row is kept where both tests pass, every other row being
  filled with one fixed word. Written once for rows of 128 entries and once for rows of 64.
-/
import proofs.«411271_j79216376808060_2_alg».proof.Proof.Gen.KernelIdeal

noncomputable section

namespace Cert.Gcn.K

open Cert.KernelIdeal Cert.KernelIdeal.Gen Idealize.ShloMosaic

variable {F : FTy → Type} [FloatOps F]

/-- Node numbers as a column of row indices, a negative number counting from the end (50000 added). -/
def wrap (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Which wrapped numbers name a row: at least 0 and at most 49999. -/
def valid (s : IVec S850000 32) : IVec S850000 1 :=
  Host.reduce IntOp.andi
    (andi (cmpi .sge (wrap s) (broadcastInDim S850000x1 ![] bcast_S_S850000x1 (constantI S_ 32 0#32)))
      (cmpi .sle (wrap s) (broadcastInDim S850000x1 ![0, 1] bcast_S1x1_S850000x1_0_1
        (broadcastInDim S1x1 ![1] bcast_S1_S1x1_1 (constantI S1 32 49999#32)))))
    (constantI S_ 1 1#1) reducesTo_S850000x1_S850000_d1 h_S_

/-- Rows of 128 entries gathered at the wrapped numbers, a row at a number out of range replaced by the fill word. -/
def take128 (h : FVec F S50000x128 .f32) (s : IVec S850000 32) : FVec F S850000x128 .f32 :=
  select (broadcastInDim S850000x128 ![0] bcast_S850000_S850000x128_0 (valid s))
    (Host.gather gather_S50000x128_S850000x1_S850000x128_1_0_n_n_0_1_1128 h (wrap s))
    (broadcastInDim S850000x128 ![] bcast_S_S850000x128 (constant (F := F) S_ .f32 0x7FC00000#32))

/-- Rows of 64 entries gathered at the wrapped numbers, a row at a number out of range replaced by the fill word. -/
def take64 (h : FVec F S50000x64 .f32) (s : IVec S850000 32) : FVec F S850000x64 .f32 :=
  select (broadcastInDim S850000x64 ![0] bcast_S850000_S850000x64_0 (valid s))
    (Host.gather gather_S50000x64_S850000x1_S850000x64_1_0_n_n_0_1_164 h (wrap s))
    (broadcastInDim S850000x64 ![] bcast_S_S850000x64 (constant (F := F) S_ .f32 0x7FC00000#32))

end Cert.Gcn.K

end
-- ==== Proof.Take.lean ====
/-
  The filling gather is the plain gather when every node number is in range.

  If every word of the index vector spells a number below 50000, then no word is negative, so wrapping changes nothing;
  every wrapped word passes both bound tests, so the "and"-reduction of the tests is one everywhere; and a selection
  under a mask that is one everywhere is its first branch, the gathered rows.
-/
import proofs.«411271_j79216376808060_2_alg».proof.Proof.KModel
import proofs.«411271_j79216376808060_2_alg».proof.Proof.LibTakeMask

noncomputable section

namespace Cert.Gcn.K

open Cert.KernelIdeal Cert.KernelIdeal.Gen Idealize.ShloMosaic Idealize.ShloMosaic.ValueIdx

variable {F : FTy → Type} [FloatOps F]

/-- The wrapped column at row `j` is the node number at `j` itself: the column is the vector laid along the first axis,
    and a word spelling a number below 50000 is not negative as a signed number, so nothing is added to it. -/
theorem wrap_apply (s : IVec S850000 32) (hs : ∀ j, (s j).toNat < 50000) (j : Fin 850000) (k : Fin 1) :
    wrap s (ix2 j k) = s (ix1 j) := by
  unfold wrap
  refine (broadcastInDim_apply (![0] : Fin 1 → Fin S850000x1.rank) bcast_S850000_S850000x1_0 _ (ix2 j k) (ix1 j)
    (fun a => by
      have ha : a = 0 := Subsingleton.elim _ _
      subst ha
      exact (if_neg (by decide)).symm)).trans ?_
  show Scalar.select (IntOp.cmpi .slt (s (ix1 j)) 0#32) (IntOp.addi (s (ix1 j)) 50000#32) (s (ix1 j)) = s (ix1 j)
  exact Cert.TakeMask.wrap_of_nonneg _ _ (by have := hs (ix1 j); omega)

/-- Every wrapped number passes both bound tests, so their "and" over the one column, started from one, is one. -/
theorem valid_apply (s : IVec S850000 32) (hs : ∀ j, (s j).toNat < 50000) (j : S850000.Idx) : valid s j = 1#1 := by
  unfold valid
  refine Cert.TakeMask.reduce_andi_of_all _ _ reducesTo_S850000x1_S850000_d1 h_S_ rfl (fun i => ?_) j
  obtain ⟨p, q, rfl⟩ : ∃ (p : Fin 850000) (q : Fin 1), i = ix2 p q := ⟨i 0, i 1, eq_ix2 i⟩
  show IntOp.andi (IntOp.cmpi .sge (wrap s (ix2 p q)) 0#32) (IntOp.cmpi .sle (wrap s (ix2 p q)) 49999#32) = 1#1
  rw [wrap_apply s hs p q]
  have h := Cert.TakeMask.cmp_of_toNat_lt 50000 (by norm_num) (s (ix1 p)) (hs _)
  exact IntOp.andi_eq_one.2 ⟨h.1, h.2⟩

/-- With every node number below 50000, rows of 128 entries: the filling gather is the gather at the wrapped numbers. -/
theorem take128_eq (h : FVec F S50000x128 .f32) (s : IVec S850000 32) (hs : ∀ j, (s j).toNat < 50000) :
    take128 h s = Host.gather gather_S50000x128_S850000x1_S850000x128_1_0_n_n_0_1_1128 h (wrap s) := by
  unfold take128
  refine Cert.TakeMask.select_of_all _ _ _ (fun i => ?_)
  unfold broadcastInDim
  exact valid_apply s hs _

/-- With every node number below 50000, rows of 64 entries: the filling gather is the gather at the wrapped numbers. -/
theorem take64_eq (h : FVec F S50000x64 .f32) (s : IVec S850000 32) (hs : ∀ j, (s j).toNat < 50000) :
    take64 h s = Host.gather gather_S50000x64_S850000x1_S850000x64_1_0_n_n_0_1_164 h (wrap s) := by
  unfold take64
  refine Cert.TakeMask.select_of_all _ _ _ (fun i => ?_)
  unfold broadcastInDim
  exact valid_apply s hs _

end Cert.Gcn.K

end
-- ==== Proof.Spec.lean ====
/-
  The dense stages of the network, entry by entry over the extended reals.

  A matrix product's entry (r, c) is the sum over k of x (r, k) * w (k, c). A bias row added to every row of a matrix has
  entry (r, c) equal to x (r, c) + b (0, c). The positive part takes the larger of an entry and zero. The sample is
  mean + noise * exp (half * logvar), entry by entry. These are stated over any extents; a block-tiled computation and a
  whole-array one are compared by showing both equal to them.
-/
import Idealize.ShloMosaic.PureOps.Ideal
import Idealize.ShloMosaic.Lib.ValueIdx

noncomputable section

namespace Cert.Gcn.Spec

open Idealize.ShloMosaic Idealize.ShloMosaic.ValueIdx

/-- Row r of an index. -/
abbrev row {M N : ℕ} (i : (⟨2, ![M, N]⟩ : Shape).Idx) : Fin M := ⟨(i 0).val, idx2_lt0 i⟩
/-- Column c of an index. -/
abbrev col {M N : ℕ} (i : (⟨2, ![M, N]⟩ : Shape).Idx) : Fin N := ⟨(i 1).val, idx2_lt1 i⟩

/-- The matrix product: entry (r, c) is the sum over k of x (r, k) * w (k, c). -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (row i) k) * w (ix2 k (col i))

/-- A one-row matrix added to every row: entry (r, c) is x (r, c) + b (0, c). -/
def addRow {M N : ℕ} (x : (⟨2, ![M, N]⟩ : Shape).Idx → EReal) (b : (⟨2, ![1, N]⟩ : Shape).Idx → EReal) :
    (⟨2, ![M, N]⟩ : Shape).Idx → EReal :=
  fun i => x i + b (ix2 (0 : Fin 1) (col i))

/-- The positive part: the larger of an entry and the number the zero word denotes. -/
def pos {M N : ℕ} (x : (⟨2, ![M, N]⟩ : Shape).Idx → EReal) : (⟨2, ![M, N]⟩ : Shape).Idx → EReal :=
  fun i => max (x i) (Ideal.ofBits .f32 0x00000000#32)

/-- The sample: mean + noise * exp (half * logvar), where half is the number the word 0x3F000000 denotes. -/
def sample {M N : ℕ} (mean logvar noise : (⟨2, ![M, N]⟩ : Shape).Idx → EReal) : (⟨2, ![M, N]⟩ : Shape).Idx → EReal :=
  fun i => mean i + noise i * Ideal.exp (Ideal.ofBits .f32 0x3F000000#32 * logvar i)

end Cert.Gcn.Spec

end
-- ==== Proof.Bridge.lean ====
/-
  The reference program's dense operations, read entry by entry.

  Over the extended reals a dot_general contracting the left operand's columns with the right operand's rows has entry
  (r, c) equal to the sum over k of x (r, k) * w (k, c); a bias vector broadcast to one row and then to every row adds
  b (c) to entry (r, c); a maximum with a broadcast zero word is the positive part; and the sample's host formula is
  mean + noise * exp (half * logvar) entry by entry. Each is the specification's function of the same arrays.
-/
import proofs.«411271_j79216376808060_2_alg».proof.Proof.Model
import proofs.«411271_j79216376808060_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StackMember

noncomputable section

namespace Cert.Gcn.Bridge

open Cert.ReferenceIdeal Cert.ReferenceIdeal.Gen Idealize.ShloMosaic Idealize.ShloMosaic.ValueIdx

/-! ## The matrix products

  Each of the four dimension-number records contracts the left operand's axis 1 with the right operand's axis 0 and has
  no batch axes: it is the plain M x K by K x N product. At entry (r, q) the plain product over the extended reals is the
  sum over the contracted coordinate k of x (r, k) * w (k, q), and the specification's entry (r, q) is that same sum, its
  row and column being the two coordinates of the index. -/

/-- The four matrix products are the sum over the contracted coordinate. -/
theorem dot128x128_eq (x : FVec Ideal S50000x128 .f32) (w : FVec Ideal S128x128 .f32) :
    Gcn.dot128x128 x w = Spec.mm (M := 50000) (K := 128) (N := 128) x w := by
  funext i
  obtain ⟨r, q, rfl⟩ : ∃ (r : Fin 50000) (q : Fin 128), i = ix2 r q := ⟨i 0, i 1, eq_ix2 i⟩
  exact StackMember.dotGeneral_plain_apply none x w r q
theorem dot128x64_eq (x : FVec Ideal S50000x128 .f32) (w : FVec Ideal S128x64 .f32) :
    Gcn.dot128x64 x w = Spec.mm (M := 50000) (K := 128) (N := 64) x w := by
  funext i
  obtain ⟨r, q, rfl⟩ : ∃ (r : Fin 50000) (q : Fin 64), i = ix2 r q := ⟨i 0, i 1, eq_ix2 i⟩
  exact StackMember.dotGeneral_plain_apply none x w r q
theorem dot64x64_eq (x : FVec Ideal S50000x64 .f32) (w : FVec Ideal S64x64 .f32) :
    Gcn.dot64x64 x w = Spec.mm (M := 50000) (K := 64) (N := 64) x w := by
  funext i
  obtain ⟨r, q, rfl⟩ : ∃ (r : Fin 50000) (q : Fin 64), i = ix2 r q := ⟨i 0, i 1, eq_ix2 i⟩
  exact StackMember.dotGeneral_plain_apply none x w r q
theorem dot64x128_eq (x : FVec Ideal S50000x64 .f32) (w : FVec Ideal S64x128 .f32) :
    Gcn.dot64x128 x w = Spec.mm (M := 50000) (K := 64) (N := 128) x w := by
  funext i
  obtain ⟨r, q, rfl⟩ : ∃ (r : Fin 50000) (q : Fin 128), i = ix2 r q := ⟨i 0, i 1, eq_ix2 i⟩
  exact StackMember.dotGeneral_plain_apply none x w r q

/-! ## The bias

  The bias vector b is first broadcast to a one-row matrix along axis 1, so that row's entry (0, q) is b (q); the row is
  then broadcast to every row along axes 0 and 1, its own axis 0 having extent one, so entry (r, q) of the result is the
  row's entry (0, q). Entry (r, q) of the sum is therefore x (r, q) + b (q), which is what the specification adds when
  its one-row matrix holds b. -/

/-- A one-row matrix that holds the bias vector, added to every row, is the bias vector added to every row. -/
theorem addb128_eq (x : FVec Ideal S50000x128 .f32) (b : FVec Ideal S128 .f32) (b' : (⟨2, ![1, 128]⟩ : Shape).Idx → EReal)
    (hb : ∀ q : Fin 128, b' (ix2 (0 : Fin 1) q) = b (ix1 q)) :
    Spec.addRow (M := 50000) (N := 128) x b' = Gcn.addb128 x b := by
  funext i
  obtain ⟨r, q, rfl⟩ : ∃ (r : Fin 50000) (q : Fin 128), i = ix2 r q := ⟨i 0, i 1, eq_ix2 i⟩
  -- entry (r, q) of the row broadcast to every row is the row's entry (0, q)
  have everyRow := broadcastInDim_apply ![0, 1] bcast_S1x128_S50000x128_0_1 (broadcastInDim S1x128 ![1] bcast_S128_S1x128_1 b)
    (ix2 r q) (ix2 (0 : Fin 1) q) (by
      intro a
      match a with
      | ⟨0, _⟩ => rfl
      | ⟨1, _⟩ => rfl)
  -- entry (0, q) of the vector broadcast to one row is the vector's entry q
  have oneRow := broadcastInDim_apply ![1] bcast_S128_S1x128_1 b (ix2 (0 : Fin 1) q) (ix1 q) (by
      intro a
      match a with
      | ⟨0, _⟩ => rfl)
  show x (ix2 r q) + b' (ix2 (0 : Fin 1) q)
    = x (ix2 r q) + broadcastInDim S50000x128 ![0, 1] bcast_S1x128_S50000x128_0_1 (broadcastInDim S1x128 ![1] bcast_S128_S1x128_1 b) (ix2 r q)
  rw [everyRow, oneRow, hb]
theorem addb64_eq (x : FVec Ideal S50000x64 .f32) (b : FVec Ideal S64 .f32) (b' : (⟨2, ![1, 64]⟩ : Shape).Idx → EReal)
    (hb : ∀ q : Fin 64, b' (ix2 (0 : Fin 1) q) = b (ix1 q)) :
    Spec.addRow (M := 50000) (N := 64) x b' = Gcn.addb64 x b := by
  funext i
  obtain ⟨r, q, rfl⟩ : ∃ (r : Fin 50000) (q : Fin 64), i = ix2 r q := ⟨i 0, i 1, eq_ix2 i⟩
  -- entry (r, q) of the row broadcast to every row is the row's entry (0, q)
  have everyRow := broadcastInDim_apply ![0, 1] bcast_S1x64_S50000x64_0_1 (broadcastInDim S1x64 ![1] bcast_S64_S1x64_1 b)
    (ix2 r q) (ix2 (0 : Fin 1) q) (by
      intro a
      match a with
      | ⟨0, _⟩ => rfl
      | ⟨1, _⟩ => rfl)
  -- entry (0, q) of the vector broadcast to one row is the vector's entry q
  have oneRow := broadcastInDim_apply ![1] bcast_S64_S1x64_1 b (ix2 (0 : Fin 1) q) (ix1 q) (by
      intro a
      match a with
      | ⟨0, _⟩ => rfl)
  show x (ix2 r q) + b' (ix2 (0 : Fin 1) q)
    = x (ix2 r q) + broadcastInDim S50000x64 ![0, 1] bcast_S1x64_S50000x64_0_1 (broadcastInDim S1x64 ![1] bcast_S64_S1x64_1 b) (ix2 r q)
  rw [everyRow, oneRow, hb]

/-! ## The positive part and the sample

  A scalar broadcast along no axis has, at every entry, the scalar's one value; the scalar here is the number a float
  word denotes, and the word is carried unevaluated on both sides. The maximum, the sum, the product and the exponential
  are taken entry by entry. -/

/-- The positive part is the maximum with the broadcast zero word. -/
theorem relu128_eq (x : FVec Ideal S50000x128 .f32) : Spec.pos (M := 50000) (N := 128) x = Gcn.relu128 x := by
  funext i
  -- every entry of the broadcast scalar is the number the zero word denotes
  have splat := broadcastInDim_apply ![] bcast_S_S50000x128 (constant (F := Ideal) S_ .f32 0x00000000#32) i ix0 (fun a => a.elim0)
  show max (x i) (Ideal.ofBits .f32 0x00000000#32)
    = max (x i) (broadcastInDim S50000x128 ![] bcast_S_S50000x128 (constant (F := Ideal) S_ .f32 0x00000000#32) i)
  rw [splat]
  rfl

/-- The sample's formula entry by entry is the host formula. -/
theorem sample_eq (mean lv noise : FVec Ideal S50000x64 .f32) :
    Spec.sample (M := 50000) (N := 64) mean lv noise
      = addf mean (mulf noise (Host.exp (mulf (broadcastInDim S50000x64 ![] bcast_S_S50000x64 (constant (F := Ideal) S_ .f32 0x3F000000#32)) lv))) := by
  funext i
  -- every entry of the broadcast scalar is the number the word of one half denotes
  have splat := broadcastInDim_apply ![] bcast_S_S50000x64 (constant (F := Ideal) S_ .f32 0x3F000000#32) i ix0 (fun a => a.elim0)
  show mean i + noise i * Ideal.exp (Ideal.ofBits .f32 0x3F000000#32 * lv i)
    = mean i + noise i * Ideal.exp (broadcastInDim S50000x64 ![] bcast_S_S50000x64 (constant (F := Ideal) S_ .f32 0x3F000000#32) i * lv i)
  rw [splat]
  rfl

end Cert.Gcn.Bridge

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.RegMM0.lean ====
import proofs.«411271_j79216376808060_2_alg».proof.Proof.Gen.KernelIdeal.Frame
import proofs.«411271_j79216376808060_2_alg».proof.Proof.Spec
import proofs.«411271_j79216376808060_2_alg».proof.Proof.LibPlainMatmul
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.Gcn.RegMM0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! The extents of this region. The left array ArrX is [50000, dK], taken in ten blocks BlkX of 5000 rows; the weight
    matrix BlkW is [dK, dN], taken whole at every point; the product ArrO is [50000, dN], left in ten blocks BlkO of 5000
    rows. Point t has rows 5000 t, ..., 5000 t + 4999 of the left array and of the product. -/
local notation "dK" => 128
local notation "dN" => 128
local notation "ArrX" => S50000x128
local notation "BlkX" => S5000x128
local notation "BlkW" => S128x128
local notation "ArrO" => S50000x128
local notation "BlkO" => S5000x128

/-- The offset of a whole block inside itself is zero on both axes. -/
theorem hz : (![0, 0] : Fin 2 → Nat) = fun _ => 0 := funext fun a => by fin_cases a <;> rfl

/-- What the body stores, at an entry: both blocks are rounded to bf16, which changes nothing over the extended reals
    (nor does a cast of a shape to itself), and multiplied into a zero accumulator, so entry (p, q) is the sum over k of
    x0 (p, k) * x1 (k, q). -/
theorem pay_apply (x0 : Vec Ideal BlkX .f32) (x1 : Vec Ideal BlkW .f32) (p : Fin 5000) (q : Fin dN) :
    k0_pay1 x0 x1 (ix2 p q) = ∑ k : Fin dK, x0 (ix2 p k) * x1 (ix2 k q) := by
  simp only [k0_pay1, shapeCast_self]
  exact Cert.PlainMatmul.apply (M := 5000) (K := dK) (N := dN) none (φ₁ := .bf16) (φ₂ := .bf16) x0 x1 p q

/-- The block indices at point t: the left array's block and the product's block are both block t along the rows and
    block 0 along the columns; the weight matrix is block 0 on both axes. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An output block's entry (p, q) is the product's entry at an array index i as soon as row p of the left block is the
    left array's row of i and column q of the right block is the weight matrix's column of i. -/
theorem blk_entry (X : Shape.Idx ArrX → EReal) (W : Shape.Idx BlkW → EReal)
    (x0 : Vec Ideal BlkX .f32) (x1 : Vec Ideal BlkW .f32) (i : Shape.Idx ArrO) (p : Fin 5000) (q : Fin dN)
    (h0 : ∀ k : Fin dK, x0 (ix2 p k) = X (ix2 (Spec.row i) k)) (h1 : ∀ k : Fin dK, x1 (ix2 k q) = W (ix2 k (Spec.col i))) :
    k0_pay1 x0 x1 (ix2 p q) = Spec.mm (M := 50000) (K := dK) (N := dN) X W i := by
  refine (pay_apply x0 x1 p q).trans ?_
  unfold Spec.mm
  exact Finset.sum_congr rfl fun k _ => by rw [h0 k, h1 k]

/-- Entry (p, q) of what the body leaves at point t is the product's entry at the place the block's entry (p, q) has in
    the product. That place is row 5000 t + p, column q; the left block's entry (p, k) sits at row 5000 t + p, column k of
    the left array, and the right block is the weight matrix itself. -/
theorem entry_eq (c : Dev nD) (t : Fin cfg0.N) (p : Fin 5000) (q : Fin dN) :
    k0_pay1 (iblk0 V c 0 t) (iblk0 V c 1 t) (ix2 p q)
      = Spec.mm (M := 50000) (K := dK) (N := dN) (V c (Pipeline.arrRef spec0 0)) (V c (Pipeline.arrRef spec0 1))
          (((cfg0.win 2).blk t).view.emb (ix2 p q)) := by
  obtain ⟨e0, e1, e2, e3, e4, e5⟩ := idx_facts t
  refine blk_entry (V c (Pipeline.arrRef spec0 0)) (V c (Pipeline.arrRef spec0 1)) (iblk0 V c 0 t) (iblk0 V c 1 t) _ p q
    (fun k => ?_) (fun k => ?_)
  · show V c (Pipeline.arrRef spec0 0) (((cfg0.win 0).blk t).view.emb (ix2 p k)) = _
    refine congrArg (V c (Pipeline.arrRef spec0 0)) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * dK + 1 * k.val = k.val; omega
  · show V c (Pipeline.arrRef spec0 1) (((cfg0.win 1).blk t).view.emb (ix2 k q)) = _
    refine congrArg (V c (Pipeline.arrRef spec0 1)) ?_
    funext a; apply Fin.ext
    match a with
    | ⟨0, _⟩ => show win0_1.index t (0 : Fin 2) * dK + 1 * k.val = k.val; omega
    | ⟨1, _⟩ => show win0_1.index t (1 : Fin 2) * dN + 1 * q.val = win0_2.index t (1 : Fin 2) * dN + 1 * q.val; omega

/-- What point t writes back is block t of any function of the product's indices that agrees, entry by entry, with what
    the body leaves at point t. -/
theorem flushed_of (c : Dev nD) (t : Fin cfg0.N) (G : Shape.Idx ArrO → EReal)
    (hG : ∀ (p : Fin 5000) (q : Fin dN),
      k0_pay1 (iblk0 V c 0 t) (iblk0 V c 1 t) (ix2 p q) = G (((cfg0.win 2).blk t).view.emb (ix2 p q))) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero hz]
  simp only [View.ld_unit_zero (S := BlkX) hz, View.ld_unit_zero (S := BlkW) hz]
  funext j
  obtain ⟨p, q, rfl⟩ : ∃ (p : Fin 5000) (q : Fin dN), j = ix2 p q := ⟨j 0, j 1, eq_ix2 j⟩
  exact hG p q

/-- An index of the product lies in point t's block iff each coordinate lies in the block's range on its axis. -/
theorem mem_blk (t : Fin cfg0.N) (i : Shape.Idx ArrO) :
    i ∈ ((cfg0.win 2).blk t).view.set ↔ ∀ a : Fin 2, win0_2.index t a * Shape.size BlkO a ≤ (i a).val
      ∧ (i a).val < win0_2.index t a * Shape.size BlkO a + Shape.size BlkO a := by
  show i ∈ ((View.whole main_v31).slice (win0_2.rect t)).set ↔ _
  rw [View.set_slice_whole, Rect.mem_set_unit]
  exact Iff.rfl

/-- The ten blocks fill the product: row r lies in the block of point r / 5000, and every point writes its block back. -/
theorem cover (i : Shape.Idx ArrO) :
    ∃ t : Fin cfg0.N, (cfg0.win 2).flush t = true ∧ i ∈ ((cfg0.win 2).blk t).view.set := by
  have hi0 : (i 0).val < 50000 := (i 0).isLt
  have hi1 : (i 1).val < dN := (i 1).isLt
  have hN : grid0.N = 10 := N_0
  let t : Fin cfg0.N := ⟨(i 0).val / 5000, by show _ < grid0.N; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * dN ≤ (i 1).val ∧ (i 1).val < win0_2.index t (1 : Fin 2) * dN + dN; omega

/-- The array region 0 leaves: the matrix product of the two arrays it finds, entry by entry. -/
theorem arr (c : Dev nD) :
    ((dat0 V c).arrAt 2 cfg0.N : S50000x128.Idx → EReal)
      = Spec.mm (M := 50000) (K := 128) (N := 128) (V c (Pipeline.arrRef spec0 0)) (V c (Pipeline.arrRef spec0 1)) :=
  (dat0 V c).arrAt_eq_of_cover 2 _ (fun t _ => flushed_of V c t _ (entry_eq V c t)) cover

end Cert.Gcn.RegMM0

end
-- ==== Proof.RegBias1.lean ====
import proofs.«411271_j79216376808060_2_alg».proof.Proof.Gen.KernelIdeal.Frame
import proofs.«411271_j79216376808060_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

/-
  Region 1: a bias row added to every row of a [50000, 128] array, then the positive part.

  The array is cut into ten blocks of 5000 rows; block t is rows 5000 t … 5000 t + 4999, all 128 columns. At point t the
  body sees block t of the array and the whole [1, 128] bias row, and leaves block t of the output. Entry (p, q) of what
  it leaves is max (x (p, q) + b (0, q)) 0 with x the input block: it depends on one entry of the block and one entry of
  the row. Entry (p, q) of block t is entry (5000 t + p, q) of the array, for the input and the output alike, so block t
  of the output is block t of the function "bias row added, positive part" of the whole array. Every row r lies in block
  r / 5000, so the ten blocks fill the output.
-/

set_option maxRecDepth 16384

noncomputable section

namespace Cert.Gcn.RegBias1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- The [50000, 128] array the region finds, as a function of its index into the extended reals. -/
abbrev xarr (c : Dev nD) : S50000x128.Idx → EReal := V c (Pipeline.arrRef spec1 0)
/-- The [1, 128] bias row the region finds. -/
abbrev brow (c : Dev nD) : S1x128.Idx → EReal := V c (Pipeline.arrRef spec1 1)
/-- The array's block at point t: 5000 rows of 128. -/
abbrev xblk (c : Dev nD) (t : Fin cfg1.N) : Vec Ideal S5000x128 .f32 := iblk1 V c 0 t
/-- The bias row's block at point t: the whole row. -/
abbrev bblk (c : Dev nD) (t : Fin cfg1.N) : Vec Ideal S1x128 .f32 := iblk1 V c 1 t

/-- The body's result at entry (p, q): the block's entry plus the row's entry in column q, then the larger of that and
    zero. The two casts are of a shape to itself; the broadcast repeats the one row down the 5000 rows. -/
theorem pay_at (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self, broadcastTo_1b_ab_apply]
  rfl

/-- The block indices over the ten points: the input array's block moves with the output's, the bias row stays at
    block (0, 0), and the output's block at point t is (t, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Entry (p, q) of the input block at point t is the array's entry where the output's block t puts (p, q): both
    blocks start at row 5000 t, column 0. -/
theorem xblk_at (c : Dev nD) (t : Fin cfg1.N) (p : Fin 5000) (q : Fin 128) :
    xblk V c t (ix2 p q) = xarr V c (((cfg1.win 2).blk t).view.emb (ix2 p q)) := by
  obtain ⟨e0, e1, e2, e3, e4, e5⟩ := idx_facts t
  show xarr V c (((cfg1.win 0).blk t).view.emb (ix2 p q)) = _
  refine congrArg (xarr V c) ?_
  funext a; apply Fin.ext
  match a with
  | ⟨0, _⟩ => show win1_0.index t (0 : Fin 2) * 5000 + 1 * p.val = win1_2.index t (0 : Fin 2) * 5000 + 1 * p.val; omega
  | ⟨1, _⟩ => show win1_0.index t (1 : Fin 2) * 128 + 1 * q.val = win1_2.index t (1 : Fin 2) * 128 + 1 * q.val; omega

/-- Entry (0, q) of the bias block at any point is the bias row's entry in the column of the array entry that the
    output's block t puts at (p, q): that column is q, because the output's blocks start at column 0. -/
theorem bblk_at (c : Dev nD) (t : Fin cfg1.N) (p : Fin 5000) (q : Fin 128) :
    bblk V c t (ix2 (0 : Fin 1) q)
      = brow V c (ix2 (0 : Fin 1) (Spec.col (M := 50000) (N := 128) (((cfg1.win 2).blk t).view.emb (ix2 p q)))) := by
  obtain ⟨e0, e1, e2, e3, e4, e5⟩ := idx_facts t
  show brow V c (((cfg1.win 1).blk t).view.emb (ix2 (0 : Fin 1) q)) = _
  refine congrArg (brow V c) ?_
  funext a; apply Fin.ext
  match a with
  | ⟨0, _⟩ => show win1_1.index t (0 : Fin 2) * 1 + 1 * 0 = 0; omega
  | ⟨1, _⟩ => show win1_1.index t (1 : Fin 2) * 128 + 1 * q.val = win1_2.index t (1 : Fin 2) * 128 + 1 * q.val; omega

/-- What point t writes back is block t of "bias row added, positive part" of the array the region finds. -/
theorem flushed_eq (c : Dev nD) (t : Fin cfg1.N) :
    (dat1 V c).flushed 2 t = ((cfg1.win 2).blk t).view.read (Elt Ideal)
      (Spec.pos (Spec.addRow (M := 50000) (N := 128) (V c (Pipeline.arrRef spec1 0)) (V c (Pipeline.arrRef spec1 1)))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_at (xblk V c t) (bblk V c t) p q).trans ?_
  rw [xblk_at V c t p q, bblk_at V c t p q]
  rfl

/-- An entry of the output array is in block t exactly when, on each axis, its coordinate is in the block's range. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v40).slice (win1_2.rect t)).set ↔ _
  rw [View.set_slice_whole, Rect.mem_set_unit]
  exact Iff.rfl

/-- Every entry of the output array is in some point's block: row r is in block r / 5000. -/
theorem cover (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array region 1 leaves: the bias row added to every row of the array it finds, then the positive part, entry by entry. -/
theorem arr (c : Dev nD) :
    ((dat1 V c).arrAt 2 cfg1.N : S50000x128.Idx → EReal)
      = Spec.pos (Spec.addRow (M := 50000) (N := 128) (V c (Pipeline.arrRef spec1 0)) (V c (Pipeline.arrRef spec1 1))) :=
  (dat1 V c).arrAt_eq_of_cover 2 _ (fun t _ => flushed_eq V c t) cover

end Cert.Gcn.RegBias1

end
-- ==== Proof.RegMM2.lean ====
import proofs.«411271_j79216376808060_2_alg».proof.Proof.Gen.KernelIdeal.Frame
import proofs.«411271_j79216376808060_2_alg».proof.Proof.Spec
import proofs.«411271_j79216376808060_2_alg».proof.Proof.LibPlainMatmul
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.Gcn.RegMM2

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! The extents of this region. The left array ArrX is [50000, dK], taken in ten blocks BlkX of 5000 rows; the weight
    matrix BlkW is [dK, dN], taken whole at every point; the product ArrO is [50000, dN], left in ten blocks BlkO of 5000
    rows. Point t has rows 5000 t, ..., 5000 t + 4999 of the left array and of the product. -/
local notation "dK" => 128
local notation "dN" => 64
local notation "ArrX" => S50000x128
local notation "BlkX" => S5000x128
local notation "BlkW" => S128x64
local notation "ArrO" => S50000x64
local notation "BlkO" => S5000x64

/-- The offset of a whole block inside itself is zero on both axes. -/
theorem hz : (![0, 0] : Fin 2 → Nat) = fun _ => 0 := funext fun a => by fin_cases a <;> rfl

/-- What the body stores, at an entry: both blocks are rounded to bf16, which changes nothing over the extended reals
    (nor does a cast of a shape to itself), and multiplied into a zero accumulator, so entry (p, q) is the sum over k of
    x0 (p, k) * x1 (k, q). -/
theorem pay_apply (x0 : Vec Ideal BlkX .f32) (x1 : Vec Ideal BlkW .f32) (p : Fin 5000) (q : Fin dN) :
    k2_pay1 x0 x1 (ix2 p q) = ∑ k : Fin dK, x0 (ix2 p k) * x1 (ix2 k q) := by
  simp only [k2_pay1, shapeCast_self]
  exact Cert.PlainMatmul.apply (M := 5000) (K := dK) (N := dN) none (φ₁ := .bf16) (φ₂ := .bf16) x0 x1 p q

/-- The block indices at point t: the left array's block and the product's block are both block t along the rows and
    block 0 along the columns; the weight matrix is block 0 on both axes. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An output block's entry (p, q) is the product's entry at an array index i as soon as row p of the left block is the
    left array's row of i and column q of the right block is the weight matrix's column of i. -/
theorem blk_entry (X : Shape.Idx ArrX → EReal) (W : Shape.Idx BlkW → EReal)
    (x0 : Vec Ideal BlkX .f32) (x1 : Vec Ideal BlkW .f32) (i : Shape.Idx ArrO) (p : Fin 5000) (q : Fin dN)
    (h0 : ∀ k : Fin dK, x0 (ix2 p k) = X (ix2 (Spec.row i) k)) (h1 : ∀ k : Fin dK, x1 (ix2 k q) = W (ix2 k (Spec.col i))) :
    k2_pay1 x0 x1 (ix2 p q) = Spec.mm (M := 50000) (K := dK) (N := dN) X W i := by
  refine (pay_apply x0 x1 p q).trans ?_
  unfold Spec.mm
  exact Finset.sum_congr rfl fun k _ => by rw [h0 k, h1 k]

/-- Entry (p, q) of what the body leaves at point t is the product's entry at the place the block's entry (p, q) has in
    the product. That place is row 5000 t + p, column q; the left block's entry (p, k) sits at row 5000 t + p, column k of
    the left array, and the right block is the weight matrix itself. -/
theorem entry_eq (c : Dev nD) (t : Fin cfg2.N) (p : Fin 5000) (q : Fin dN) :
    k2_pay1 (iblk2 V c 0 t) (iblk2 V c 1 t) (ix2 p q)
      = Spec.mm (M := 50000) (K := dK) (N := dN) (V c (Pipeline.arrRef spec2 0)) (V c (Pipeline.arrRef spec2 1))
          (((cfg2.win 2).blk t).view.emb (ix2 p q)) := by
  obtain ⟨e0, e1, e2, e3, e4, e5⟩ := idx_facts t
  refine blk_entry (V c (Pipeline.arrRef spec2 0)) (V c (Pipeline.arrRef spec2 1)) (iblk2 V c 0 t) (iblk2 V c 1 t) _ p q
    (fun k => ?_) (fun k => ?_)
  · show V c (Pipeline.arrRef spec2 0) (((cfg2.win 0).blk t).view.emb (ix2 p k)) = _
    refine congrArg (V c (Pipeline.arrRef spec2 0)) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * dK + 1 * k.val = k.val; omega
  · show V c (Pipeline.arrRef spec2 1) (((cfg2.win 1).blk t).view.emb (ix2 k q)) = _
    refine congrArg (V c (Pipeline.arrRef spec2 1)) ?_
    funext a; apply Fin.ext
    match a with
    | ⟨0, _⟩ => show win2_1.index t (0 : Fin 2) * dK + 1 * k.val = k.val; omega
    | ⟨1, _⟩ => show win2_1.index t (1 : Fin 2) * dN + 1 * q.val = win2_2.index t (1 : Fin 2) * dN + 1 * q.val; omega

/-- What point t writes back is block t of any function of the product's indices that agrees, entry by entry, with what
    the body leaves at point t. -/
theorem flushed_of (c : Dev nD) (t : Fin cfg2.N) (G : Shape.Idx ArrO → EReal)
    (hG : ∀ (p : Fin 5000) (q : Fin dN),
      k2_pay1 (iblk2 V c 0 t) (iblk2 V c 1 t) (ix2 p q) = G (((cfg2.win 2).blk t).view.emb (ix2 p q))) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := BlkX) hz, View.ld_unit_zero (S := BlkW) hz]
  funext j
  obtain ⟨p, q, rfl⟩ : ∃ (p : Fin 5000) (q : Fin dN), j = ix2 p q := ⟨j 0, j 1, eq_ix2 j⟩
  exact hG p q

/-- An index of the product lies in point t's block iff each coordinate lies in the block's range on its axis. -/
theorem mem_blk (t : Fin cfg2.N) (i : Shape.Idx ArrO) :
    i ∈ ((cfg2.win 2).blk t).view.set ↔ ∀ a : Fin 2, win2_2.index t a * Shape.size BlkO a ≤ (i a).val
      ∧ (i a).val < win2_2.index t a * Shape.size BlkO a + Shape.size BlkO a := by
  show i ∈ ((View.whole main_v41).slice (win2_2.rect t)).set ↔ _
  rw [View.set_slice_whole, Rect.mem_set_unit]
  exact Iff.rfl

/-- The ten blocks fill the product: row r lies in the block of point r / 5000, and every point writes its block back. -/
theorem cover (i : Shape.Idx ArrO) :
    ∃ t : Fin cfg2.N, (cfg2.win 2).flush t = true ∧ i ∈ ((cfg2.win 2).blk t).view.set := by
  have hi0 : (i 0).val < 50000 := (i 0).isLt
  have hi1 : (i 1).val < dN := (i 1).isLt
  have hN : grid2.N = 10 := N_2
  let t : Fin cfg2.N := ⟨(i 0).val / 5000, by show _ < grid2.N; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * dN ≤ (i 1).val ∧ (i 1).val < win2_2.index t (1 : Fin 2) * dN + dN; omega

/-- The array region 2 leaves: the matrix product of the two arrays it finds, entry by entry. -/
theorem arr (c : Dev nD) :
    ((dat2 V c).arrAt 2 cfg2.N : S50000x64.Idx → EReal)
      = Spec.mm (M := 50000) (K := 128) (N := 64) (V c (Pipeline.arrRef spec2 0)) (V c (Pipeline.arrRef spec2 1)) :=
  (dat2 V c).arrAt_eq_of_cover 2 _ (fun t _ => flushed_of V c t _ (entry_eq V c t)) cover

end Cert.Gcn.RegMM2

end
-- ==== Proof.Seg1.lean ====
/-
  The encoder's first layer, boundary by boundary, and the second layer's product.

  From the launch memory: the host prefix builds the extended edge lists and the edge weights; region 0 multiplies the
  node features by the first weight matrix; the next host stretch gathers each edge's source row (every source names a
  node, so the filling gather is the plain one), scales it by the edge's weight and sums at the destinations; region 1
  adds the bias row and takes the positive part; region 2 multiplies by the second weight matrix.

  Each host stretch is first read over arbitrary entry contents: the buffer it leaves is a short expression in the
  buffers it finds. The boundaries are then walked in order, each fact feeding the next stretch's or region's reading,
  and a buffer that a stretch or a region does not write is carried across it unchanged.
-/
import proofs.«411271_j79216376808060_2_alg».proof.Proof.ChainBase
import proofs.«411271_j79216376808060_2_alg».proof.Proof.KModel
import proofs.«411271_j79216376808060_2_alg».proof.Proof.Take
import proofs.«411271_j79216376808060_2_alg».proof.Proof.Bridge
import proofs.«411271_j79216376808060_2_alg».proof.Proof.RegMM0
import proofs.«411271_j79216376808060_2_alg».proof.Proof.RegBias1
import proofs.«411271_j79216376808060_2_alg».proof.Proof.RegMM2
import Idealize.ShloMosaic.Lib.Pipeline.Value
import Idealize.ShloMosaic.Lib.ValueIdx
import Idealize.ShloMosaic.Lib.ValueLayout

set_option maxRecDepth 16384

noncomputable section

namespace Cert.Gcn.Chain

open Cert.KernelIdeal Cert.KernelIdeal.Gen Idealize.ShloMosaic Idealize.ShloMosaic.TcCoe Idealize.ShloMosaic.ValueIdx Idealize.SL.Sem Idealize.ShloMosaic.StableHlo

namespace Seg1

/-! ## The host stretches, over any entry contents

  Each lemma reads one result buffer of one host stretch as an expression in the buffers the stretch finds at its entry. -/

section Stretches

variable (V : Valuation τ sig (Elt Ideal))

/-- The first stretch leaves the extended source list: row 0 of the edge array followed by every node's own number. -/
theorem st0_src :
    (StableHlo.after hostOps0 V (Proc.devRef .tc main_v3) : S850000.Idx → BitVec 32)
      = Gcn.src (V (Proc.devRef .tc main_arg1) : IVec S2x800000 32) := by
  after_results_simp
  after_clean
  rfl

/-- The first stretch leaves the extended destination list: row 1 of the edge array followed by every node's own number. -/
theorem st0_dst :
    (StableHlo.after hostOps0 V (Proc.devRef .tc main_v6) : S850000.Idx → BitVec 32)
      = Gcn.dst (V (Proc.devRef .tc main_arg1) : IVec S2x800000 32) := by
  after_results_simp
  after_clean
  rfl

/-- The first stretch leaves the degree vector: ones summed at the destinations. -/
theorem st0_deg :
    (StableHlo.after hostOps0 V (Proc.devRef .tc main_v10) : S50000.Idx → EReal)
      = Gcn.deg (F := Ideal) (V (Proc.devRef .tc main_arg1) : IVec S2x800000 32) := by
  after_results_simp
  after_clean
  rfl

/-- The first stretch leaves the test "degree above zero" of the degree vector it leaves. -/
theorem st0_pos :
    (StableHlo.after hostOps0 V (Proc.devRef .tc main_v12) : IVec S50000 1)
      = cmpf .ogt (StableHlo.after hostOps0 V (Proc.devRef .tc main_v10) : S50000.Idx → EReal)
          (broadcastInDim S50000 ![] bcast_S_S50000 (constant (F := Ideal) S_ .f32 0x00000000#32)) := by
  after_results_simp
  after_clean

/-- The first stretch leaves the power -1/2 of the degree vector it leaves. -/
theorem st0_pow :
    (StableHlo.after hostOps0 V (Proc.devRef .tc main_v14) : S50000.Idx → EReal)
      = Host.powf (StableHlo.after hostOps0 V (Proc.devRef .tc main_v10) : S50000.Idx → EReal)
          (broadcastInDim S50000 ![] bcast_S_S50000 (constant (F := Ideal) S_ .f32 0xBF000000#32)) := by
  after_results_simp
  after_clean

/-- The first stretch leaves the zero word that the selection fills with. -/
theorem st0_zero :
    (StableHlo.after hostOps0 V (Proc.devRef .tc main_cst_3) : S_.Idx → EReal)
      = constant (F := Ideal) S_ .f32 0x00000000#32 := by
  after_results_simp
  after_clean

/-- The selection stretch: the power where the test holds, the broadcast fill word elsewhere. -/
theorem st01_dinv :
    (StableHlo.after hostOps0_1 V (Proc.devRef .tc main_v15) : S50000.Idx → EReal)
      = select (V (Proc.devRef .tc main_v12) : IVec S50000 1) (V (Proc.devRef .tc main_v14) : S50000.Idx → EReal)
          (broadcastInDim S50000 ![] bcast_S_S50000 (id (V (Proc.devRef .tc main_cst_3) : S_.Idx → EReal))) := by
  after_results_simp
  rfl

/-- The third stretch leaves the product of the vector of buffer 15 gathered at the wrapped sources and at the wrapped
    destinations. -/
theorem st02_norm :
    (StableHlo.after hostOps0_2 V (Proc.devRef .tc main_v30) : S850000.Idx → EReal)
      = mulf (F := Ideal) (φ := .f32)
          (Host.gather (α := Ideal .f32) gather_S50000_S850000x1_S850000_n_0_n_n_0_1_1 (V (Proc.devRef .tc main_v15) : FVec Ideal S50000 .f32)
            (Gcn.wrap (V (Proc.devRef .tc main_v3) : IVec S850000 32)))
          (Host.gather (α := Ideal .f32) gather_S50000_S850000x1_S850000_n_0_n_n_0_1_1 (V (Proc.devRef .tc main_v15) : FVec Ideal S50000 .f32)
            (Gcn.wrap (V (Proc.devRef .tc main_v6) : IVec S850000 32))) := by
  after_results_simp
  after_clean
  rfl

end Stretches

/-! ## Typed references of an inlined function

  The row gather is an inlined function: each of its operations reads and writes its buffers through the buffer's type
  sent to the value's type and back. Both transports are along an equation of a type with itself. -/

/-- Contents sent to a buffer's own type and back are unchanged. -/
theorem ofBuf_toBuf {Val : EltTy → Type} {T : BufTy} (x : StableHlo.TRef sig T) (v : T.Contents Val) :
    x.ofBuf (x.toBuf v) = v := by
  obtain ⟨r, rfl, _, _⟩ := x
  rfl

/-- The two buffers the gather's stretch reads from the main function, and the one it writes there, are read and
    written at their own types. -/
theorem leaf_v3 (h1 h2 h3) (v : (main_v3 : Ref sig .tc).ty.Contents (Elt Ideal)) :
    ((StableHlo.TRef.of main_v3 h1 h2 h3 : StableHlo.TRef sig ⟨S850000, .i32⟩).ofBuf v : IVec S850000 32) = v := rfl
theorem leaf_v31 (h1 h2 h3) (v : (main_v31 : Ref sig .tc).ty.Contents (Elt Ideal)) :
    ((StableHlo.TRef.of main_v31 h1 h2 h3 : StableHlo.TRef sig ⟨S50000x128, .f32⟩).ofBuf v : FVec Ideal S50000x128 .f32) = v := rfl
theorem out_v32 (h1 h2 h3) (v : FVec Ideal S850000x128 .f32) :
    ((StableHlo.TRef.of main_v32 h1 h2 h3 : StableHlo.TRef sig ⟨S850000x128, .f32⟩).toBuf (Val := Elt Ideal) v : FVec Ideal S850000x128 .f32) = v := rfl

section Stretches

variable (V : Valuation τ sig (Elt Ideal))

/-- The gather's stretch leaves the filling row gather of buffer 31's rows at buffer 3's node numbers. -/
theorem st1_take :
    (StableHlo.after hostOps1 V (Proc.devRef .tc main_v32) : S850000x128.Idx → EReal)
      = K.take128 (F := Ideal) (V (Proc.devRef .tc main_v31) : FVec Ideal S50000x128 .f32) (V (Proc.devRef .tc main_v3) : IVec S850000 32) := by
  after_results_simp
  simp only [ofBuf_toBuf, leaf_v3, leaf_v31, out_v32]
  rfl

/-- The next stretch scales the gathered rows by the edge weights (broadcast along each row) and sums them at the
    destinations, starting from zero. -/
theorem st11_agg :
    (StableHlo.after hostOps1_1 V (Proc.devRef .tc main_v38) : S50000x128.Idx → EReal)
      = Host.scatterAdd (F := Ideal) scatter_S50000x128_S850000x1_S850000x128_1_0_0_1
          (broadcastInDim S50000x128 ![] bcast_S_S50000x128 (constant (F := Ideal) S_ .f32 0x00000000#32))
          (broadcastInDim S850000x1 ![0] bcast_S850000_S850000x1_0 (V (Proc.devRef .tc main_v6) : IVec S850000 32))
          (mulf (F := Ideal) (V (Proc.devRef .tc main_v32) : FVec Ideal S850000x128 .f32)
                (broadcastInDim S850000x128 ![0, 1] bcast_S850000x1_S850000x128_0_1
                  (broadcastInDim S850000x1 ![0] bcast_S850000_S850000x1_0 (V (Proc.devRef .tc main_v30) : FVec Ideal S850000 .f32)))) := by
  after_results_simp
  after_clean

/-- The same stretch lays the first bias vector out as a matrix of one row. -/
theorem st11_bias :
    (StableHlo.after hostOps1_1 V (Proc.devRef .tc main_v39) : S1x128.Idx → EReal)
      = shapeCast S1x128 (V (Proc.devRef .tc main_arg4) : FVec Ideal S128 .f32) shapeCasts_S128_S1x128 := by
  after_results_simp
  after_clean
  rfl

end Stretches

variable (m : (ℓ : Loc nD τ sig) → Buf (Elt Ideal) ℓ) (c : Dev nD) (ρ : Dev nD → PrngReg)

/-! ## Boundaries 1 to 3: the edge lists and the edge weights -/

/-- At boundary 1 the extended edge lists and the degree vector are the model's, read off the launch memory's edge array. -/
theorem at1_src : (W1 m ρ c (Proc.devRef .tc main_v3) : S850000.Idx → BitVec 32) = Gcn.src (a1 m c) :=
  st0_src (W0 m ρ c)

theorem at1_dst : (W1 m ρ c (Proc.devRef .tc main_v6) : S850000.Idx → BitVec 32) = Gcn.dst (a1 m c) :=
  st0_dst (W0 m ρ c)

theorem at1_deg : (W1 m ρ c (Proc.devRef .tc main_v10) : S50000.Idx → EReal) = Gcn.deg (F := Ideal) (a1 m c) :=
  st0_deg (W0 m ρ c)

theorem at2_src : (W2 m ρ c (Proc.devRef .tc main_v3) : S850000.Idx → BitVec 32) = Gcn.src (a1 m c) :=
  calc (W2 m ρ c (Proc.devRef .tc main_v3) : S850000.Idx → BitVec 32)
    _ = W1 m ρ c (Proc.devRef .tc main_v3) := by keep_host hostOps0_1
    _ = Gcn.src (a1 m c) := at1_src m c ρ

theorem at2_dst : (W2 m ρ c (Proc.devRef .tc main_v6) : S850000.Idx → BitVec 32) = Gcn.dst (a1 m c) :=
  calc (W2 m ρ c (Proc.devRef .tc main_v6) : S850000.Idx → BitVec 32)
    _ = W1 m ρ c (Proc.devRef .tc main_v6) := by keep_host hostOps0_1
    _ = Gcn.dst (a1 m c) := at1_dst m c ρ

/-- At boundary 2 buffer 15 holds deg^(-1/2), zero where the degree is not positive: the selection's operands are the
    first stretch's test, power and zero word, each of the model's degree vector. -/
theorem at2_dinv : (W2 m ρ c (Proc.devRef .tc main_v15) : S50000.Idx → EReal) = Gcn.dinv (F := Ideal) (a1 m c) := by
  refine (st01_dinv (W1 m ρ c)).trans ?_
  rw [show (W1 m ρ c (Proc.devRef .tc main_v12) : IVec S50000 1) = _ from st0_pos (W0 m ρ c),
    show (W1 m ρ c (Proc.devRef .tc main_v14) : S50000.Idx → EReal) = _ from st0_pow (W0 m ρ c),
    show (W1 m ρ c (Proc.devRef .tc main_cst_3) : S_.Idx → EReal) = _ from st0_zero (W0 m ρ c),
    show (StableHlo.after hostOps0 (W0 m ρ c) (Proc.devRef .tc main_v10) : S50000.Idx → EReal) = _ from at1_deg m c ρ]
  rfl

theorem at3_src : (W3 m ρ c (Proc.devRef .tc main_v3) : S850000.Idx → BitVec 32) = Gcn.src (a1 m c) :=
  calc (W3 m ρ c (Proc.devRef .tc main_v3) : S850000.Idx → BitVec 32)
    _ = W2 m ρ c (Proc.devRef .tc main_v3) := by keep_host hostOps0_2
    _ = Gcn.src (a1 m c) := at2_src m c ρ

theorem at3_dst : (W3 m ρ c (Proc.devRef .tc main_v6) : S850000.Idx → BitVec 32) = Gcn.dst (a1 m c) :=
  calc (W3 m ρ c (Proc.devRef .tc main_v6) : S850000.Idx → BitVec 32)
    _ = W2 m ρ c (Proc.devRef .tc main_v6) := by keep_host hostOps0_2
    _ = Gcn.dst (a1 m c) := at2_dst m c ρ

/-- At boundary 3 buffer 30 holds the edge weights: deg^(-1/2) gathered at the wrapped sources times the same gathered at
    the wrapped destinations. -/
theorem at3_norm : (W3 m ρ c (Proc.devRef .tc main_v30) : S850000.Idx → EReal) = Gcn.norm (F := Ideal) (a1 m c) := by
  refine (st02_norm (W2 m ρ c)).trans ?_
  rw [show (W2 m ρ c (Proc.devRef .tc main_v15) : FVec Ideal S50000 .f32) = _ from at2_dinv m c ρ,
    show (W2 m ρ c (Proc.devRef .tc main_v3) : IVec S850000 32) = _ from at2_src m c ρ,
    show (W2 m ρ c (Proc.devRef .tc main_v6) : IVec S850000 32) = _ from at2_dst m c ρ]
  rfl

/-! ## The arguments the regions and the later host stretches read, as launched -/

theorem at3_arg0 : (W3 m ρ c (Proc.devRef .tc main_arg0) : S50000x128.Idx → EReal) = a0 m c :=
  calc (W3 m ρ c (Proc.devRef .tc main_arg0) : S50000x128.Idx → EReal)
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = a0 m c := rfl

theorem at3_arg3 : (W3 m ρ c (Proc.devRef .tc main_arg3) : S128x128.Idx → EReal) = a3 m c :=
  calc (W3 m ρ c (Proc.devRef .tc main_arg3) : S128x128.Idx → EReal)
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = a3 m c := rfl

theorem at5_arg4 : (W5 m ρ c (Proc.devRef .tc main_arg4) : S128.Idx → EReal) = a4 m c :=
  calc (W5 m ρ c (Proc.devRef .tc main_arg4) : S128.Idx → EReal)
    _ = W4 m ρ c (Proc.devRef .tc main_arg4) := by keep_host hostOps1
    _ = W3 m ρ c (Proc.devRef .tc main_arg4) := W4_of_ne m ρ c main_arg4 (by decide)
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = a4 m c := rfl

theorem at7_arg5 : (W7 m ρ c (Proc.devRef .tc main_arg5) : S128x64.Idx → EReal) = a5 m c :=
  calc (W7 m ρ c (Proc.devRef .tc main_arg5) : S128x64.Idx → EReal)
    _ = W6 m ρ c (Proc.devRef .tc main_arg5) := W7_of_ne m ρ c main_arg5 (by decide)
    _ = W5 m ρ c (Proc.devRef .tc main_arg5) := by keep_host hostOps1_1
    _ = W4 m ρ c (Proc.devRef .tc main_arg5) := by keep_host hostOps1
    _ = W3 m ρ c (Proc.devRef .tc main_arg5) := W4_of_ne m ρ c main_arg5 (by decide)
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = a5 m c := rfl

/-! ## Region 0: the first product -/

/-- Region 0 leaves the product of the node features with the first weight matrix: its entry (r, q) is the sum over k of
    x (r, k) * w (k, q), which is the reference's product. -/
theorem at4_lin : (W4 m ρ c (Proc.devRef .tc main_v31) : S50000x128.Idx → EReal) = Gcn.dot128x128 (a0 m c) (a3 m c) := by
  refine (W4_arr m ρ c 2).trans ?_
  refine (RegMM0.arr (V3 m ρ) c).trans ?_
  rw [show (V3 m ρ c (Pipeline.arrRef spec0 0) : S50000x128.Idx → EReal) = a0 m c from at3_arg0 m c ρ,
    show (V3 m ρ c (Pipeline.arrRef spec0 1) : S128x128.Idx → EReal) = a3 m c from at3_arg3 m c ρ]
  exact (Bridge.dot128x128_eq _ _).symm

theorem at4_src : (W4 m ρ c (Proc.devRef .tc main_v3) : S850000.Idx → BitVec 32) = Gcn.src (a1 m c) :=
  (W4_of_ne m ρ c main_v3 (by decide)).trans (at3_src m c ρ)

theorem at4_dst : (W4 m ρ c (Proc.devRef .tc main_v6) : S850000.Idx → BitVec 32) = Gcn.dst (a1 m c) :=
  (W4_of_ne m ρ c main_v6 (by decide)).trans (at3_dst m c ρ)

theorem at4_norm : (W4 m ρ c (Proc.devRef .tc main_v30) : S850000.Idx → EReal) = Gcn.norm (F := Ideal) (a1 m c) :=
  (W4_of_ne m ρ c main_v30 (by decide)).trans (at3_norm m c ρ)

/-! ## Boundaries 5 and 6: the gathered rows, their weighted sum at the destinations, and the bias row -/

theorem at5_src : (W5 m ρ c (Proc.devRef .tc main_v3) : S850000.Idx → BitVec 32) = Gcn.src (a1 m c) :=
  calc (W5 m ρ c (Proc.devRef .tc main_v3) : S850000.Idx → BitVec 32)
    _ = W4 m ρ c (Proc.devRef .tc main_v3) := by keep_host hostOps1
    _ = Gcn.src (a1 m c) := at4_src m c ρ

theorem at5_dst : (W5 m ρ c (Proc.devRef .tc main_v6) : S850000.Idx → BitVec 32) = Gcn.dst (a1 m c) :=
  calc (W5 m ρ c (Proc.devRef .tc main_v6) : S850000.Idx → BitVec 32)
    _ = W4 m ρ c (Proc.devRef .tc main_v6) := by keep_host hostOps1
    _ = Gcn.dst (a1 m c) := at4_dst m c ρ

theorem at5_norm : (W5 m ρ c (Proc.devRef .tc main_v30) : S850000.Idx → EReal) = Gcn.norm (F := Ideal) (a1 m c) :=
  calc (W5 m ρ c (Proc.devRef .tc main_v30) : S850000.Idx → EReal)
    _ = W4 m ρ c (Proc.devRef .tc main_v30) := by keep_host hostOps1
    _ = Gcn.norm (F := Ideal) (a1 m c) := at4_norm m c ρ

/-- Every source names a node, so the filling gather of the product's rows is the plain gather at the wrapped sources. -/
theorem at5_take (hs : InRange m c) :
    (W5 m ρ c (Proc.devRef .tc main_v32) : S850000x128.Idx → EReal)
      = Host.gather (α := Ideal .f32) gather_S50000x128_S850000x1_S850000x128_1_0_n_n_0_1_1128
          (Gcn.dot128x128 (a0 m c) (a3 m c)) (K.wrap (Gcn.src (a1 m c))) := by
  refine (st1_take (W4 m ρ c)).trans ?_
  rw [show (W4 m ρ c (Proc.devRef .tc main_v31) : FVec Ideal S50000x128 .f32) = _ from at4_lin m c ρ,
    show (W4 m ρ c (Proc.devRef .tc main_v3) : IVec S850000 32) = _ from at4_src m c ρ]
  exact K.take128_eq _ _ hs

/-- At boundary 6 buffer 38 holds the message passing of the first product: the gathered rows scaled by the edge weights
    and summed at the destinations. -/
theorem at6_agg (hs : InRange m c) :
    (W6 m ρ c (Proc.devRef .tc main_v38) : S50000x128.Idx → EReal)
      = Gcn.agg128 (F := Ideal) (a1 m c) (Gcn.dot128x128 (a0 m c) (a3 m c)) := by
  refine (st11_agg (W5 m ρ c)).trans ?_
  rw [show (W5 m ρ c (Proc.devRef .tc main_v6) : IVec S850000 32) = _ from at5_dst m c ρ,
    show (W5 m ρ c (Proc.devRef .tc main_v32) : FVec Ideal S850000x128 .f32) = _ from at5_take m c ρ hs,
    show (W5 m ρ c (Proc.devRef .tc main_v30) : FVec Ideal S850000 .f32) = _ from at5_norm m c ρ]
  unfold Gcn.agg128
  rfl

/-- At boundary 6 buffer 39 holds the first bias vector laid out as one row. -/
theorem at6_bias :
    (W6 m ρ c (Proc.devRef .tc main_v39) : S1x128.Idx → EReal) = shapeCast S1x128 (a4 m c) shapeCasts_S128_S1x128 := by
  refine (st11_bias (W5 m ρ c)).trans ?_
  rw [show (W5 m ρ c (Proc.devRef .tc main_arg4) : FVec Ideal S128 .f32) = _ from at5_arg4 m c ρ]

/-! ## Region 1: the bias and the positive part; region 2: the second product -/

/-- Region 1 adds the one-row matrix to every row and takes the positive part. Entry (0, q) of the row is the bias
    vector's entry q, so the sum is the bias added to every row, and the result is the encoder's first layer. -/
theorem at7_h1 (hs : InRange m c) : (W7 m ρ c (Proc.devRef .tc main_v40) : S50000x128.Idx → EReal) = h1 m c := by
  refine (W7_arr m ρ c 2).trans ?_
  refine (RegBias1.arr (V6 m ρ) c).trans ?_
  rw [show (V6 m ρ c (Pipeline.arrRef spec1 0) : S50000x128.Idx → EReal) = _ from at6_agg m c ρ hs,
    show (V6 m ρ c (Pipeline.arrRef spec1 1) : S1x128.Idx → EReal) = _ from at6_bias m c ρ]
  rw [Bridge.addb128_eq _ (a4 m c) _ (fun q => shapeCast_a_1a_apply (a := 128) (a4 m c) shapeCasts_S128_S1x128 0 q),
    Bridge.relu128_eq]
  rfl

/-- Region 2 leaves the product of the first layer with the second weight matrix. -/
theorem at8_lin (hs : InRange m c) :
    (W8 m ρ c (Proc.devRef .tc main_v41) : S50000x64.Idx → EReal) = Gcn.dot128x64 (h1 m c) (a5 m c) := by
  refine (W8_arr m ρ c 2).trans ?_
  refine (RegMM2.arr (V7 m ρ) c).trans ?_
  rw [show (V7 m ρ c (Pipeline.arrRef spec2 0) : S50000x128.Idx → EReal) = _ from at7_h1 m c ρ hs,
    show (V7 m ρ c (Pipeline.arrRef spec2 1) : S128x64.Idx → EReal) = _ from at7_arg5 m c ρ]
  exact (Bridge.dot128x64_eq _ _).symm

/-! ## The edge lists and weights, carried to boundary 8 -/

theorem at8_src : (W8 m ρ c (Proc.devRef .tc main_v3) : S850000.Idx → BitVec 32) = Gcn.src (a1 m c) :=
  calc (W8 m ρ c (Proc.devRef .tc main_v3) : S850000.Idx → BitVec 32)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by keep_host hostOps1_1
    _ = Gcn.src (a1 m c) := at5_src m c ρ

theorem at8_dst : (W8 m ρ c (Proc.devRef .tc main_v6) : S850000.Idx → BitVec 32) = Gcn.dst (a1 m c) :=
  calc (W8 m ρ c (Proc.devRef .tc main_v6) : S850000.Idx → BitVec 32)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := by keep_host hostOps1_1
    _ = Gcn.dst (a1 m c) := at5_dst m c ρ

theorem at8_norm : (W8 m ρ c (Proc.devRef .tc main_v30) : S850000.Idx → EReal) = Gcn.norm (F := Ideal) (a1 m c) :=
  calc (W8 m ρ c (Proc.devRef .tc main_v30) : S850000.Idx → EReal)
    _ = W7 m ρ c (Proc.devRef .tc main_v30) := W8_of_ne m ρ c main_v30 (by decide)
    _ = W6 m ρ c (Proc.devRef .tc main_v30) := W7_of_ne m ρ c main_v30 (by decide)
    _ = W5 m ρ c (Proc.devRef .tc main_v30) := by keep_host hostOps1_1
    _ = Gcn.norm (F := Ideal) (a1 m c) := at5_norm m c ρ

end Seg1

variable (m : (ℓ : Loc nD τ sig) → Buf (Elt Ideal) ℓ) (c : Dev nD) (ρ : Dev nD → PrngReg)

/-- From the launch to the end of region 2. -/
theorem seg1 (hs : InRange m c) : At8 m c ρ :=
  { src := Seg1.at8_src m c ρ
    dst := Seg1.at8_dst m c ρ
    norm := Seg1.at8_norm m c ρ
    lin := Seg1.at8_lin m c ρ hs }

end Cert.Gcn.Chain

end
-- ==== Proof.RegBias3.lean ====
import proofs.«411271_j79216376808060_2_alg».proof.Proof.Gen.KernelIdeal.Frame
import proofs.«411271_j79216376808060_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

/-
  Region 3: a bias row added to every row of a [50000, 64] array.

  The array is cut into ten blocks of 5000 rows; block t is rows 5000 t … 5000 t + 4999, all 64 columns. At point t the
  body sees block t of the array and the whole [1, 64] bias row, and leaves block t of the output. Entry (p, q) of what
  it leaves is x (p, q) + b (0, q) with x the input block: it depends on one entry of the block and one entry of the row.
  Entry (p, q) of block t is entry (5000 t + p, q) of the array, for the input and the output alike, so block t of the
  output is block t of the function "bias row added" of the whole array. Every row r lies in block r / 5000, so the ten
  blocks fill the output.
-/

set_option maxRecDepth 16384

noncomputable section

namespace Cert.Gcn.RegBias3

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- The [50000, 64] array the region finds, as a function of its index into the extended reals. -/
abbrev xarr (c : Dev nD) : S50000x64.Idx → EReal := V c (Pipeline.arrRef spec3 0)
/-- The [1, 64] bias row the region finds. -/
abbrev brow (c : Dev nD) : S1x64.Idx → EReal := V c (Pipeline.arrRef spec3 1)
/-- The array's block at point t: 5000 rows of 64. -/
abbrev xblk (c : Dev nD) (t : Fin cfg3.N) : Vec Ideal S5000x64 .f32 := iblk3 V c 0 t
/-- The bias row's block at point t: the whole row. -/
abbrev bblk (c : Dev nD) (t : Fin cfg3.N) : Vec Ideal S1x64 .f32 := iblk3 V c 1 t

/-- The body's result at entry (p, q): the block's entry plus the row's entry in column q. The two casts are of a shape
    to itself; the broadcast repeats the one row down the 5000 rows. -/
theorem pay_at (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  rw [addf_apply, shapeCast_self, shapeCast_self, broadcastTo_1b_ab_apply]

/-- The block indices over the ten points: the input array's block moves with the output's, the bias row stays at
    block (0, 0), and the output's block at point t is (t, 0). -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Entry (p, q) of the input block at point t is the array's entry where the output's block t puts (p, q): both
    blocks start at row 5000 t, column 0. -/
theorem xblk_at (c : Dev nD) (t : Fin cfg3.N) (p : Fin 5000) (q : Fin 64) :
    xblk V c t (ix2 p q) = xarr V c (((cfg3.win 2).blk t).view.emb (ix2 p q)) := by
  obtain ⟨e0, e1, e2, e3, e4, e5⟩ := idx_facts t
  show xarr V c (((cfg3.win 0).blk t).view.emb (ix2 p q)) = _
  refine congrArg (xarr V c) ?_
  funext a; apply Fin.ext
  match a with
  | ⟨0, _⟩ => show win3_0.index t (0 : Fin 2) * 5000 + 1 * p.val = win3_2.index t (0 : Fin 2) * 5000 + 1 * p.val; omega
  | ⟨1, _⟩ => show win3_0.index t (1 : Fin 2) * 64 + 1 * q.val = win3_2.index t (1 : Fin 2) * 64 + 1 * q.val; omega

/-- Entry (0, q) of the bias block at any point is the bias row's entry in the column of the array entry that the
    output's block t puts at (p, q): that column is q, because the output's blocks start at column 0. -/
theorem bblk_at (c : Dev nD) (t : Fin cfg3.N) (p : Fin 5000) (q : Fin 64) :
    bblk V c t (ix2 (0 : Fin 1) q)
      = brow V c (ix2 (0 : Fin 1) (Spec.col (M := 50000) (N := 64) (((cfg3.win 2).blk t).view.emb (ix2 p q)))) := by
  obtain ⟨e0, e1, e2, e3, e4, e5⟩ := idx_facts t
  show brow V c (((cfg3.win 1).blk t).view.emb (ix2 (0 : Fin 1) q)) = _
  refine congrArg (brow V c) ?_
  funext a; apply Fin.ext
  match a with
  | ⟨0, _⟩ => show win3_1.index t (0 : Fin 2) * 1 + 1 * 0 = 0; omega
  | ⟨1, _⟩ => show win3_1.index t (1 : Fin 2) * 64 + 1 * q.val = win3_2.index t (1 : Fin 2) * 64 + 1 * q.val; omega

/-- What point t writes back is block t of "bias row added" of the array the region finds. -/
theorem flushed_eq (c : Dev nD) (t : Fin cfg3.N) :
    (dat3 V c).flushed 2 t = ((cfg3.win 2).blk t).view.read (Elt Ideal)
      (Spec.addRow (M := 50000) (N := 64) (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_at (xblk V c t) (bblk V c t) p q).trans ?_
  rw [xblk_at V c t p q, bblk_at V c t p q]
  rfl

/-- An entry of the output array is in block t exactly when, on each axis, its coordinate is in the block's range. -/
theorem mem_blk (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v50).slice (win3_2.rect t)).set ↔ _
  rw [View.set_slice_whole, Rect.mem_set_unit]
  exact Iff.rfl

/-- Every entry of the output array is in some point's block: row r is in block r / 5000. -/
theorem cover (i : S50000x64.Idx) :
    ∃ t : Fin cfg3.N, (cfg3.win 2).flush t = true ∧ i ∈ ((cfg3.win 2).blk t).view.set := by
  have hi0 : (i 0).val < 50000 := idx2_lt0 i
  have hi1 : (i 1).val < 64 := idx2_lt1 i
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The array region 3 leaves: the bias row added to every row of the array it finds, entry by entry. -/
theorem arr (c : Dev nD) :
    ((dat3 V c).arrAt 2 cfg3.N : S50000x64.Idx → EReal)
      = Spec.addRow (M := 50000) (N := 64) (V c (Pipeline.arrRef spec3 0)) (V c (Pipeline.arrRef spec3 1)) :=
  (dat3 V c).arrAt_eq_of_cover 2 _ (fun t _ => flushed_eq V c t) cover

end Cert.Gcn.RegBias3

end
-- ==== Proof.RegMM4.lean ====
import proofs.«411271_j79216376808060_2_alg».proof.Proof.Gen.KernelIdeal.Frame
import proofs.«411271_j79216376808060_2_alg».proof.Proof.Spec
import proofs.«411271_j79216376808060_2_alg».proof.Proof.LibPlainMatmul
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.Gcn.RegMM4

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! The extents of this region. The left array ArrX is [50000, dK], taken in ten blocks BlkX of 5000 rows; the weight
    matrix BlkW is [dK, dN], taken whole at every point; the product ArrO is [50000, dN], left in ten blocks BlkO of 5000
    rows. Point t has rows 5000 t, ..., 5000 t + 4999 of the left array and of the product. -/
local notation "dK" => 64
local notation "dN" => 64
local notation "ArrX" => S50000x64
local notation "BlkX" => S5000x64
local notation "BlkW" => S64x64
local notation "ArrO" => S50000x64
local notation "BlkO" => S5000x64

/-- The offset of a whole block inside itself is zero on both axes. -/
theorem hz : (![0, 0] : Fin 2 → Nat) = fun _ => 0 := funext fun a => by fin_cases a <;> rfl

/-- What the body stores, at an entry: both blocks are rounded to bf16, which changes nothing over the extended reals
    (nor does a cast of a shape to itself), and multiplied into a zero accumulator, so entry (p, q) is the sum over k of
    x0 (p, k) * x1 (k, q). -/
theorem pay_apply (x0 : Vec Ideal BlkX .f32) (x1 : Vec Ideal BlkW .f32) (p : Fin 5000) (q : Fin dN) :
    k4_pay1 x0 x1 (ix2 p q) = ∑ k : Fin dK, x0 (ix2 p k) * x1 (ix2 k q) := by
  simp only [k4_pay1, shapeCast_self]
  exact Cert.PlainMatmul.apply (M := 5000) (K := dK) (N := dN) none (φ₁ := .bf16) (φ₂ := .bf16) x0 x1 p q

/-- The block indices at point t: the left array's block and the product's block are both block t along the rows and
    block 0 along the columns; the weight matrix is block 0 on both axes. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- An output block's entry (p, q) is the product's entry at an array index i as soon as row p of the left block is the
    left array's row of i and column q of the right block is the weight matrix's column of i. -/
theorem blk_entry (X : Shape.Idx ArrX → EReal) (W : Shape.Idx BlkW → EReal)
    (x0 : Vec Ideal BlkX .f32) (x1 : Vec Ideal BlkW .f32) (i : Shape.Idx ArrO) (p : Fin 5000) (q : Fin dN)
    (h0 : ∀ k : Fin dK, x0 (ix2 p k) = X (ix2 (Spec.row i) k)) (h1 : ∀ k : Fin dK, x1 (ix2 k q) = W (ix2 k (Spec.col i))) :
    k4_pay1 x0 x1 (ix2 p q) = Spec.mm (M := 50000) (K := dK) (N := dN) X W i := by
  refine (pay_apply x0 x1 p q).trans ?_
  unfold Spec.mm
  exact Finset.sum_congr rfl fun k _ => by rw [h0 k, h1 k]

/-- Entry (p, q) of what the body leaves at point t is the product's entry at the place the block's entry (p, q) has in
    the product. That place is row 5000 t + p, column q; the left block's entry (p, k) sits at row 5000 t + p, column k of
    the left array, and the right block is the weight matrix itself. -/
theorem entry_eq (c : Dev nD) (t : Fin cfg4.N) (p : Fin 5000) (q : Fin dN) :
    k4_pay1 (iblk4 V c 0 t) (iblk4 V c 1 t) (ix2 p q)
      = Spec.mm (M := 50000) (K := dK) (N := dN) (V c (Pipeline.arrRef spec4 0)) (V c (Pipeline.arrRef spec4 1))
          (((cfg4.win 2).blk t).view.emb (ix2 p q)) := by
  obtain ⟨e0, e1, e2, e3, e4, e5⟩ := idx_facts t
  refine blk_entry (V c (Pipeline.arrRef spec4 0)) (V c (Pipeline.arrRef spec4 1)) (iblk4 V c 0 t) (iblk4 V c 1 t) _ p q
    (fun k => ?_) (fun k => ?_)
  · show V c (Pipeline.arrRef spec4 0) (((cfg4.win 0).blk t).view.emb (ix2 p k)) = _
    refine congrArg (V c (Pipeline.arrRef spec4 0)) ?_
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * dK + 1 * k.val = k.val; omega
  · show V c (Pipeline.arrRef spec4 1) (((cfg4.win 1).blk t).view.emb (ix2 k q)) = _
    refine congrArg (V c (Pipeline.arrRef spec4 1)) ?_
    funext a; apply Fin.ext
    match a with
    | ⟨0, _⟩ => show win4_1.index t (0 : Fin 2) * dK + 1 * k.val = k.val; omega
    | ⟨1, _⟩ => show win4_1.index t (1 : Fin 2) * dN + 1 * q.val = win4_2.index t (1 : Fin 2) * dN + 1 * q.val; omega

/-- What point t writes back is block t of any function of the product's indices that agrees, entry by entry, with what
    the body leaves at point t. -/
theorem flushed_of (c : Dev nD) (t : Fin cfg4.N) (G : Shape.Idx ArrO → EReal)
    (hG : ∀ (p : Fin 5000) (q : Fin dN),
      k4_pay1 (iblk4 V c 0 t) (iblk4 V c 1 t) (ix2 p q) = G (((cfg4.win 2).blk t).view.emb (ix2 p q))) :
    (dat4 V c).flushed 2 t = ((cfg4.win 2).blk t).view.read (Elt Ideal) G := by
  show (cfg4.win 2).cut (grid4.coords t) ((dat4 V c).after 2 t) = _
  rw [after4_2]
  unfold out4_2
  rw [View.canon_unit_zero hz]
  simp only [View.ld_unit_zero (S := BlkX) hz, View.ld_unit_zero (S := BlkW) hz]
  funext j
  obtain ⟨p, q, rfl⟩ : ∃ (p : Fin 5000) (q : Fin dN), j = ix2 p q := ⟨j 0, j 1, eq_ix2 j⟩
  exact hG p q

/-- An index of the product lies in point t's block iff each coordinate lies in the block's range on its axis. -/
theorem mem_blk (t : Fin cfg4.N) (i : Shape.Idx ArrO) :
    i ∈ ((cfg4.win 2).blk t).view.set ↔ ∀ a : Fin 2, win4_2.index t a * Shape.size BlkO a ≤ (i a).val
      ∧ (i a).val < win4_2.index t a * Shape.size BlkO a + Shape.size BlkO a := by
  show i ∈ ((View.whole main_v51).slice (win4_2.rect t)).set ↔ _
  rw [View.set_slice_whole, Rect.mem_set_unit]
  exact Iff.rfl

/-- The ten blocks fill the product: row r lies in the block of point r / 5000, and every point writes its block back. -/
theorem cover (i : Shape.Idx ArrO) :
    ∃ t : Fin cfg4.N, (cfg4.win 2).flush t = true ∧ i ∈ ((cfg4.win 2).blk t).view.set := by
  have hi0 : (i 0).val < 50000 := (i 0).isLt
  have hi1 : (i 1).val < dN := (i 1).isLt
  have hN : grid4.N = 10 := N_4
  let t : Fin cfg4.N := ⟨(i 0).val / 5000, by show _ < grid4.N; omega⟩
  obtain ⟨-, -, -, -, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * dN ≤ (i 1).val ∧ (i 1).val < win4_2.index t (1 : Fin 2) * dN + dN; omega

/-- The array region 4 leaves: the matrix product of the two arrays it finds, entry by entry. -/
theorem arr (c : Dev nD) :
    ((dat4 V c).arrAt 2 cfg4.N : S50000x64.Idx → EReal)
      = Spec.mm (M := 50000) (K := 64) (N := 64) (V c (Pipeline.arrRef spec4 0)) (V c (Pipeline.arrRef spec4 1)) :=
  (dat4 V c).arrAt_eq_of_cover 2 _ (fun t _ => flushed_of V c t _ (entry_eq V c t)) cover

end Cert.Gcn.RegMM4

end
-- ==== Proof.RegMM5.lean ====
import proofs.«411271_j79216376808060_2_alg».proof.Proof.Gen.KernelIdeal.Frame
import proofs.«411271_j79216376808060_2_alg».proof.Proof.Spec
import proofs.«411271_j79216376808060_2_alg».proof.Proof.LibPlainMatmul
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.Gcn.RegMM5

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! The extents of this region. The left array ArrX is [50000, dK], taken in ten blocks BlkX of 5000 rows; the weight
    matrix BlkW is [dK, dN], taken whole at every point; the product ArrO is [50000, dN], left in ten blocks BlkO of 5000
    rows. Point t has rows 5000 t, ..., 5000 t + 4999 of the left array and of the product. -/
local notation "dK" => 64
local notation "dN" => 64
local notation "ArrX" => S50000x64
local notation "BlkX" => S5000x64
local notation "BlkW" => S64x64
local notation "ArrO" => S50000x64
local notation "BlkO" => S5000x64

/-- The offset of a whole block inside itself is zero on both axes. -/
theorem hz : (![0, 0] : Fin 2 → Nat) = fun _ => 0 := funext fun a => by fin_cases a <;> rfl

/-- What the body stores, at an entry: both blocks are rounded to bf16, which changes nothing over the extended reals
    (nor does a cast of a shape to itself), and multiplied into a zero accumulator, so entry (p, q) is the sum over k of
    x0 (p, k) * x1 (k, q). -/
theorem pay_apply (x0 : Vec Ideal BlkX .f32) (x1 : Vec Ideal BlkW .f32) (p : Fin 5000) (q : Fin dN) :
    k5_pay1 x0 x1 (ix2 p q) = ∑ k : Fin dK, x0 (ix2 p k) * x1 (ix2 k q) := by
  simp only [k5_pay1, shapeCast_self]
  exact Cert.PlainMatmul.apply (M := 5000) (K := dK) (N := dN) none (φ₁ := .bf16) (φ₂ := .bf16) x0 x1 p q

/-- The block indices at point t: the left array's block and the product's block are both block t along the rows and
    block 0 along the columns; the weight matrix is block 0 on both axes. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- An output block's entry (p, q) is the product's entry at an array index i as soon as row p of the left block is the
    left array's row of i and column q of the right block is the weight matrix's column of i. -/
theorem blk_entry (X : Shape.Idx ArrX → EReal) (W : Shape.Idx BlkW → EReal)
    (x0 : Vec Ideal BlkX .f32) (x1 : Vec Ideal BlkW .f32) (i : Shape.Idx ArrO) (p : Fin 5000) (q : Fin dN)
    (h0 : ∀ k : Fin dK, x0 (ix2 p k) = X (ix2 (Spec.row i) k)) (h1 : ∀ k : Fin dK, x1 (ix2 k q) = W (ix2 k (Spec.col i))) :
    k5_pay1 x0 x1 (ix2 p q) = Spec.mm (M := 50000) (K := dK) (N := dN) X W i := by
  refine (pay_apply x0 x1 p q).trans ?_
  unfold Spec.mm
  exact Finset.sum_congr rfl fun k _ => by rw [h0 k, h1 k]

/-- Entry (p, q) of what the body leaves at point t is the product's entry at the place the block's entry (p, q) has in
    the product. That place is row 5000 t + p, column q; the left block's entry (p, k) sits at row 5000 t + p, column k of
    the left array, and the right block is the weight matrix itself. -/
theorem entry_eq (c : Dev nD) (t : Fin cfg5.N) (p : Fin 5000) (q : Fin dN) :
    k5_pay1 (iblk5 V c 0 t) (iblk5 V c 1 t) (ix2 p q)
      = Spec.mm (M := 50000) (K := dK) (N := dN) (V c (Pipeline.arrRef spec5 0)) (V c (Pipeline.arrRef spec5 1))
          (((cfg5.win 2).blk t).view.emb (ix2 p q)) := by
  obtain ⟨e0, e1, e2, e3, e4, e5⟩ := idx_facts t
  refine blk_entry (V c (Pipeline.arrRef spec5 0)) (V c (Pipeline.arrRef spec5 1)) (iblk5 V c 0 t) (iblk5 V c 1 t) _ p q
    (fun k => ?_) (fun k => ?_)
  · show V c (Pipeline.arrRef spec5 0) (((cfg5.win 0).blk t).view.emb (ix2 p k)) = _
    refine congrArg (V c (Pipeline.arrRef spec5 0)) ?_
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * dK + 1 * k.val = k.val; omega
  · show V c (Pipeline.arrRef spec5 1) (((cfg5.win 1).blk t).view.emb (ix2 k q)) = _
    refine congrArg (V c (Pipeline.arrRef spec5 1)) ?_
    funext a; apply Fin.ext
    match a with
    | ⟨0, _⟩ => show win5_1.index t (0 : Fin 2) * dK + 1 * k.val = k.val; omega
    | ⟨1, _⟩ => show win5_1.index t (1 : Fin 2) * dN + 1 * q.val = win5_2.index t (1 : Fin 2) * dN + 1 * q.val; omega

/-- What point t writes back is block t of any function of the product's indices that agrees, entry by entry, with what
    the body leaves at point t. -/
theorem flushed_of (c : Dev nD) (t : Fin cfg5.N) (G : Shape.Idx ArrO → EReal)
    (hG : ∀ (p : Fin 5000) (q : Fin dN),
      k5_pay1 (iblk5 V c 0 t) (iblk5 V c 1 t) (ix2 p q) = G (((cfg5.win 2).blk t).view.emb (ix2 p q))) :
    (dat5 V c).flushed 2 t = ((cfg5.win 2).blk t).view.read (Elt Ideal) G := by
  show (cfg5.win 2).cut (grid5.coords t) ((dat5 V c).after 2 t) = _
  rw [after5_2]
  unfold out5_2
  rw [View.canon_unit_zero hz]
  simp only [View.ld_unit_zero (S := BlkX) hz, View.ld_unit_zero (S := BlkW) hz]
  funext j
  obtain ⟨p, q, rfl⟩ : ∃ (p : Fin 5000) (q : Fin dN), j = ix2 p q := ⟨j 0, j 1, eq_ix2 j⟩
  exact hG p q

/-- An index of the product lies in point t's block iff each coordinate lies in the block's range on its axis. -/
theorem mem_blk (t : Fin cfg5.N) (i : Shape.Idx ArrO) :
    i ∈ ((cfg5.win 2).blk t).view.set ↔ ∀ a : Fin 2, win5_2.index t a * Shape.size BlkO a ≤ (i a).val
      ∧ (i a).val < win5_2.index t a * Shape.size BlkO a + Shape.size BlkO a := by
  show i ∈ ((View.whole main_v52).slice (win5_2.rect t)).set ↔ _
  rw [View.set_slice_whole, Rect.mem_set_unit]
  exact Iff.rfl

/-- The ten blocks fill the product: row r lies in the block of point r / 5000, and every point writes its block back. -/
theorem cover (i : Shape.Idx ArrO) :
    ∃ t : Fin cfg5.N, (cfg5.win 2).flush t = true ∧ i ∈ ((cfg5.win 2).blk t).view.set := by
  have hi0 : (i 0).val < 50000 := (i 0).isLt
  have hi1 : (i 1).val < dN := (i 1).isLt
  have hN : grid5.N = 10 := N_5
  let t : Fin cfg5.N := ⟨(i 0).val / 5000, by show _ < grid5.N; omega⟩
  obtain ⟨-, -, -, -, e4, e5⟩ := idx_facts t
  have ht : t.val = (i 0).val / 5000 := rfl
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * dN ≤ (i 1).val ∧ (i 1).val < win5_2.index t (1 : Fin 2) * dN + dN; omega

/-- The array region 5 leaves: the matrix product of the two arrays it finds, entry by entry. -/
theorem arr (c : Dev nD) :
    ((dat5 V c).arrAt 2 cfg5.N : S50000x64.Idx → EReal)
      = Spec.mm (M := 50000) (K := 64) (N := 64) (V c (Pipeline.arrRef spec5 0)) (V c (Pipeline.arrRef spec5 1)) :=
  (dat5 V c).arrAt_eq_of_cover 2 _ (fun t _ => flushed_of V c t _ (entry_eq V c t)) cover

end Cert.Gcn.RegMM5

end
-- ==== Proof.RegSample6.lean ====
import proofs.«411271_j79216376808060_2_alg».proof.Proof.Gen.KernelIdeal.Frame
import proofs.«411271_j79216376808060_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

/-
  Region 6: the mean, the log-variance and the sample, from two [50000, 64] products, their two [1, 64] bias rows and a
  [50000, 64] noise array.

  Each of the three [50000, 64] inputs and each of the three [50000, 64] outputs is cut into ten blocks of 5000 rows;
  block t is rows 5000 t … 5000 t + 4999, all 64 columns, and entry (p, q) of block t is entry (5000 t + p, q) of its
  array. The two bias rows are seen whole at every point. At point t the body leaves, at entry (p, q),
    mean    = m (p, q) + b (0, q),
    logvar  = l (p, q) + d (0, q),
    sample  = mean + e (p, q) * exp (half * logvar),
  with m, l, e the three input blocks, b, d the two rows and half the number the word 0x3F000000 denotes. Each depends
  on one entry of each block and one entry of each row, so block t of each output is block t of the same formula over the
  whole arrays. Every row r lies in block r / 5000, so the ten blocks fill each output.
-/

set_option maxRecDepth 16384

noncomputable section

namespace Cert.Gcn.RegSample6

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- The first product, the mean before its bias, as the region finds it, a function of its index into the extended reals. -/
abbrev marr (c : Dev nD) : S50000x64.Idx → EReal := V c (Pipeline.arrRef spec6 0)
/-- Its block at point t: 5000 rows of 64. -/
abbrev mblk (c : Dev nD) (t : Fin cfg6.N) : Vec Ideal S5000x64 .f32 := iblk6 V c 0 t
/-- The second product, the log-variance before its bias, as the region finds it, a function of its index into the extended reals. -/
abbrev larr (c : Dev nD) : S50000x64.Idx → EReal := V c (Pipeline.arrRef spec6 2)
/-- Its block at point t: 5000 rows of 64. -/
abbrev lblk (c : Dev nD) (t : Fin cfg6.N) : Vec Ideal S5000x64 .f32 := iblk6 V c 2 t
/-- The noise array as the region finds it, a function of its index into the extended reals. -/
abbrev earr (c : Dev nD) : S50000x64.Idx → EReal := V c (Pipeline.arrRef spec6 4)
/-- Its block at point t: 5000 rows of 64. -/
abbrev eblk (c : Dev nD) (t : Fin cfg6.N) : Vec Ideal S5000x64 .f32 := iblk6 V c 4 t
/-- The mean's bias row as the region finds it. -/
abbrev brow (c : Dev nD) : S1x64.Idx → EReal := V c (Pipeline.arrRef spec6 1)
/-- Its block at point t: the whole row. -/
abbrev bblk (c : Dev nD) (t : Fin cfg6.N) : Vec Ideal S1x64 .f32 := iblk6 V c 1 t
/-- The log-variance's bias row as the region finds it. -/
abbrev drow (c : Dev nD) : S1x64.Idx → EReal := V c (Pipeline.arrRef spec6 3)
/-- Its block at point t: the whole row. -/
abbrev dblk (c : Dev nD) (t : Fin cfg6.N) : Vec Ideal S1x64 .f32 := iblk6 V c 3 t

/-- The mean at entry (p, q): the block's entry plus the row's entry in column q. The two casts are of a shape to itself;
    the broadcast repeats the one row down the 5000 rows. -/
theorem mean_at (x0 : Vec Ideal S5000x64 .f32) (x1 : Vec Ideal S1x64 .f32) (p : Fin 5000) (q : Fin 64) :
    k6_pay1 x0 x1 (ix2 p q) = x0 (ix2 p q) + x1 (ix2 (0 : Fin 1) q) := by
  unfold k6_pay1
  rw [addf_apply, shapeCast_self, shapeCast_self, broadcastTo_1b_ab_apply]

/-- The log-variance at entry (p, q): the same sum over the second product and its row. -/
theorem logvar_at (x2 : Vec Ideal S5000x64 .f32) (x3 : Vec Ideal S1x64 .f32) (p : Fin 5000) (q : Fin 64) :
    k6_pay2 x2 x3 (ix2 p q) = x2 (ix2 p q) + x3 (ix2 (0 : Fin 1) q) := by
  unfold k6_pay2
  rw [addf_apply, shapeCast_self, shapeCast_self, broadcastTo_1b_ab_apply]

/-- The exponential of a vector at an entry is the exponential of the entry. -/
theorem exp_at (a : FVec Ideal S5000x64 .f32) (i : S5000x64.Idx) : exp a i = Ideal.exp (a i) := rfl

/-- The sample at entry (p, q): the mean plus the noise entry times the exponential of half the log-variance. -/
theorem sample_at (x0 : Vec Ideal S5000x64 .f32) (x1 : Vec Ideal S1x64 .f32) (x2 : Vec Ideal S5000x64 .f32)
    (x3 : Vec Ideal S1x64 .f32) (x4 : Vec Ideal S5000x64 .f32) (p : Fin 5000) (q : Fin 64) :
    k6_pay3 x0 x1 x2 x3 x4 (ix2 p q)
      = (x0 (ix2 p q) + x1 (ix2 (0 : Fin 1) q))
        + x4 (ix2 p q) * Ideal.exp (Ideal.ofBits .f32 0x3F000000#32 * (x2 (ix2 p q) + x3 (ix2 (0 : Fin 1) q))) := by
  unfold k6_pay3
  rw [addf_apply, mulf_apply, exp_at, mulf_apply, broadcast_apply, mean_at, logvar_at]
  rfl

/-- The block indices over the ten points: each of the six [5000, 64] windows is at block (t, 0) at point t, and the two
    bias rows stay at block (0, 0). -/
theorem idx_facts : ∀ t : Fin cfg6.N,
    (win6_0.index t (0 : Fin 2) = t.val ∧ win6_0.index t (1 : Fin 2) = 0)
    ∧ (win6_1.index t (0 : Fin 2) = 0 ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = t.val ∧ win6_4.index t (1 : Fin 2) = 0)
    ∧ (win6_5.index t (0 : Fin 2) = t.val ∧ win6_5.index t (1 : Fin 2) = 0)
    ∧ (win6_6.index t (0 : Fin 2) = t.val ∧ win6_6.index t (1 : Fin 2) = 0)
    ∧ (win6_7.index t (0 : Fin 2) = t.val ∧ win6_7.index t (1 : Fin 2) = 0) :=
  (by decide +kernel : ∀ t : Fin grid6.N, _)

/-- Entry (p, q) of the first product's block at point t is the product's entry at any index whose row is 5000 t + p
    and whose column is q. -/
theorem mblk_at (c : Dev nD) (t : Fin cfg6.N) (p : Fin 5000) (q : Fin 64) (i : S50000x64.Idx)
    (h0 : (i 0).val = t.val * 5000 + p.val) (h1 : (i 1).val = q.val) : mblk V c t (ix2 p q) = marr V c i := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show marr V c (((cfg6.win 0).blk t).view.emb (ix2 p q)) = _
  refine congrArg (marr V c) ?_
  funext a; apply Fin.ext
  match a with
  | ⟨0, _⟩ => show win6_0.index t (0 : Fin 2) * 5000 + 1 * p.val = (i 0).val; omega
  | ⟨1, _⟩ => show win6_0.index t (1 : Fin 2) * 64 + 1 * q.val = (i 1).val; omega

/-- Entry (p, q) of the second product's block at point t is the product's entry at any index whose row is 5000 t + p
    and whose column is q. -/
theorem lblk_at (c : Dev nD) (t : Fin cfg6.N) (p : Fin 5000) (q : Fin 64) (i : S50000x64.Idx)
    (h0 : (i 0).val = t.val * 5000 + p.val) (h1 : (i 1).val = q.val) : lblk V c t (ix2 p q) = larr V c i := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show larr V c (((cfg6.win 2).blk t).view.emb (ix2 p q)) = _
  refine congrArg (larr V c) ?_
  funext a; apply Fin.ext
  match a with
  | ⟨0, _⟩ => show win6_2.index t (0 : Fin 2) * 5000 + 1 * p.val = (i 0).val; omega
  | ⟨1, _⟩ => show win6_2.index t (1 : Fin 2) * 64 + 1 * q.val = (i 1).val; omega

/-- Entry (p, q) of the noise array's block at point t is the array's entry at any index whose row is 5000 t + p and
    whose column is q. -/
theorem eblk_at (c : Dev nD) (t : Fin cfg6.N) (p : Fin 5000) (q : Fin 64) (i : S50000x64.Idx)
    (h0 : (i 0).val = t.val * 5000 + p.val) (h1 : (i 1).val = q.val) : eblk V c t (ix2 p q) = earr V c i := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show earr V c (((cfg6.win 4).blk t).view.emb (ix2 p q)) = _
  refine congrArg (earr V c) ?_
  funext a; apply Fin.ext
  match a with
  | ⟨0, _⟩ => show win6_4.index t (0 : Fin 2) * 5000 + 1 * p.val = (i 0).val; omega
  | ⟨1, _⟩ => show win6_4.index t (1 : Fin 2) * 64 + 1 * q.val = (i 1).val; omega

/-- Entry (0, q) of the block of the mean's bias row at any point is the row's entry in the column of any array index
    whose column is q. -/
theorem bblk_at (c : Dev nD) (t : Fin cfg6.N) (q : Fin 64) (i : S50000x64.Idx) (h1 : (i 1).val = q.val) :
    bblk V c t (ix2 (0 : Fin 1) q) = brow V c (ix2 (0 : Fin 1) (Spec.col (M := 50000) (N := 64) i)) := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show brow V c (((cfg6.win 1).blk t).view.emb (ix2 (0 : Fin 1) q)) = _
  refine congrArg (brow V c) ?_
  funext a; apply Fin.ext
  match a with
  | ⟨0, _⟩ => show win6_1.index t (0 : Fin 2) * 1 + 1 * 0 = 0; omega
  | ⟨1, _⟩ => show win6_1.index t (1 : Fin 2) * 64 + 1 * q.val = (i 1).val; omega

/-- Entry (0, q) of the block of the log-variance's bias row at any point is the row's entry in the column of any array
    index whose column is q. -/
theorem dblk_at (c : Dev nD) (t : Fin cfg6.N) (q : Fin 64) (i : S50000x64.Idx) (h1 : (i 1).val = q.val) :
    dblk V c t (ix2 (0 : Fin 1) q) = drow V c (ix2 (0 : Fin 1) (Spec.col (M := 50000) (N := 64) i)) := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show drow V c (((cfg6.win 3).blk t).view.emb (ix2 (0 : Fin 1) q)) = _
  refine congrArg (drow V c) ?_
  funext a; apply Fin.ext
  match a with
  | ⟨0, _⟩ => show win6_3.index t (0 : Fin 2) * 1 + 1 * 0 = 0; omega
  | ⟨1, _⟩ => show win6_3.index t (1 : Fin 2) * 64 + 1 * q.val = (i 1).val; omega

/-- Where the mean array's block t puts entry (p, q): row 5000 t + p, column q. -/
abbrev mean_pos (t : Fin cfg6.N) (p : Fin 5000) (q : Fin 64) : S50000x64.Idx := ((cfg6.win 5).blk t).view.emb (ix2 p q)
theorem mean_pos_row (t : Fin cfg6.N) (p : Fin 5000) (q : Fin 64) : (mean_pos t p q 0).val = t.val * 5000 + p.val := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show win6_5.index t (0 : Fin 2) * 5000 + 1 * p.val = _; omega
theorem mean_pos_col (t : Fin cfg6.N) (p : Fin 5000) (q : Fin 64) : (mean_pos t p q 1).val = q.val := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show win6_5.index t (1 : Fin 2) * 64 + 1 * q.val = _; omega

/-- Where the log-variance array's block t puts entry (p, q): row 5000 t + p, column q. -/
abbrev logvar_pos (t : Fin cfg6.N) (p : Fin 5000) (q : Fin 64) : S50000x64.Idx := ((cfg6.win 6).blk t).view.emb (ix2 p q)
theorem logvar_pos_row (t : Fin cfg6.N) (p : Fin 5000) (q : Fin 64) : (logvar_pos t p q 0).val = t.val * 5000 + p.val := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show win6_6.index t (0 : Fin 2) * 5000 + 1 * p.val = _; omega
theorem logvar_pos_col (t : Fin cfg6.N) (p : Fin 5000) (q : Fin 64) : (logvar_pos t p q 1).val = q.val := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show win6_6.index t (1 : Fin 2) * 64 + 1 * q.val = _; omega

/-- Where the sample array's block t puts entry (p, q): row 5000 t + p, column q. -/
abbrev sample_pos (t : Fin cfg6.N) (p : Fin 5000) (q : Fin 64) : S50000x64.Idx := ((cfg6.win 7).blk t).view.emb (ix2 p q)
theorem sample_pos_row (t : Fin cfg6.N) (p : Fin 5000) (q : Fin 64) : (sample_pos t p q 0).val = t.val * 5000 + p.val := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show win6_7.index t (0 : Fin 2) * 5000 + 1 * p.val = _; omega
theorem sample_pos_col (t : Fin cfg6.N) (p : Fin 5000) (q : Fin 64) : (sample_pos t p q 1).val = q.val := by
  obtain ⟨⟨a0, b0⟩, ⟨a1, b1⟩, ⟨a2, b2⟩, ⟨a3, b3⟩, ⟨a4, b4⟩, ⟨a5, b5⟩, ⟨a6, b6⟩, ⟨a7, b7⟩⟩ := idx_facts t
  show win6_7.index t (1 : Fin 2) * 64 + 1 * q.val = _; omega

/-- The mean the body leaves at entry (p, q) of block t is "bias row added" of the first product at any array index whose
    row is 5000 t + p and whose column is q. -/
theorem mean_entry (c : Dev nD) (t : Fin cfg6.N) (p : Fin 5000) (q : Fin 64) (i : S50000x64.Idx)
    (h0 : (i 0).val = t.val * 5000 + p.val) (h1 : (i 1).val = q.val) :
    k6_pay1 (mblk V c t) (bblk V c t) (ix2 p q) = Spec.addRow (M := 50000) (N := 64) (marr V c) (brow V c) i := by
  refine (mean_at (mblk V c t) (bblk V c t) p q).trans ?_
  rw [mblk_at V c t p q i h0 h1, bblk_at V c t q i h1]
  rfl

/-- The log-variance the body leaves at entry (p, q) of block t is "bias row added" of the second product at any array
    index whose row is 5000 t + p and whose column is q. -/
theorem logvar_entry (c : Dev nD) (t : Fin cfg6.N) (p : Fin 5000) (q : Fin 64) (i : S50000x64.Idx)
    (h0 : (i 0).val = t.val * 5000 + p.val) (h1 : (i 1).val = q.val) :
    k6_pay2 (lblk V c t) (dblk V c t) (ix2 p q) = Spec.addRow (M := 50000) (N := 64) (larr V c) (drow V c) i := by
  refine (logvar_at (lblk V c t) (dblk V c t) p q).trans ?_
  rw [lblk_at V c t p q i h0 h1, dblk_at V c t q i h1]
  rfl

/-- The sample the body leaves at entry (p, q) of block t is mean + noise * exp (half * logvar) of the whole arrays at any
    array index whose row is 5000 t + p and whose column is q. -/
theorem sample_entry (c : Dev nD) (t : Fin cfg6.N) (p : Fin 5000) (q : Fin 64) (i : S50000x64.Idx)
    (h0 : (i 0).val = t.val * 5000 + p.val) (h1 : (i 1).val = q.val) :
    k6_pay3 (mblk V c t) (bblk V c t) (lblk V c t) (dblk V c t) (eblk V c t) (ix2 p q)
      = Spec.sample (Spec.addRow (M := 50000) (N := 64) (marr V c) (brow V c))
          (Spec.addRow (M := 50000) (N := 64) (larr V c) (drow V c)) (earr V c) i := by
  refine (sample_at (mblk V c t) (bblk V c t) (lblk V c t) (dblk V c t) (eblk V c t) p q).trans ?_
  rw [mblk_at V c t p q i h0 h1, bblk_at V c t q i h1, lblk_at V c t p q i h0 h1, dblk_at V c t q i h1,
    eblk_at V c t p q i h0 h1]
  rfl

/-- What point t writes back to the mean array is block t of "bias row added" of the first product. -/
theorem flushed_mean (c : Dev nD) (t : Fin cfg6.N) :
    (dat6 V c).flushed 5 t = ((cfg6.win 5).blk t).view.read (Elt Ideal)
      (Spec.addRow (M := 50000) (N := 64) (V c (Pipeline.arrRef spec6 0)) (V c (Pipeline.arrRef spec6 1))) := by
  show (cfg6.win 5).cut (grid6.coords t) ((dat6 V c).after 5 t) = _
  rw [after6_5]
  unfold out6_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  exact mean_entry V c t p q (mean_pos t p q) (mean_pos_row t p q) (mean_pos_col t p q)

/-- What point t writes back to the log-variance array is block t of "bias row added" of the second product. -/
theorem flushed_logvar (c : Dev nD) (t : Fin cfg6.N) :
    (dat6 V c).flushed 6 t = ((cfg6.win 6).blk t).view.read (Elt Ideal)
      (Spec.addRow (M := 50000) (N := 64) (V c (Pipeline.arrRef spec6 2)) (V c (Pipeline.arrRef spec6 3))) := by
  show (cfg6.win 6).cut (grid6.coords t) ((dat6 V c).after 6 t) = _
  rw [after6_6]
  unfold out6_6
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  exact logvar_entry V c t p q (logvar_pos t p q) (logvar_pos_row t p q) (logvar_pos_col t p q)

/-- What point t writes back to the sample array is block t of mean + noise * exp (half * logvar) over the whole arrays. -/
theorem flushed_sample (c : Dev nD) (t : Fin cfg6.N) :
    (dat6 V c).flushed 7 t = ((cfg6.win 7).blk t).view.read (Elt Ideal)
      (Spec.sample (Spec.addRow (M := 50000) (N := 64) (V c (Pipeline.arrRef spec6 0)) (V c (Pipeline.arrRef spec6 1)))
        (Spec.addRow (M := 50000) (N := 64) (V c (Pipeline.arrRef spec6 2)) (V c (Pipeline.arrRef spec6 3)))
        (V c (Pipeline.arrRef spec6 4))) := by
  show (cfg6.win 7).cut (grid6.coords t) ((dat6 V c).after 7 t) = _
  rw [after6_7]
  unfold out6_7
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  exact sample_entry V c t p q (sample_pos t p q) (sample_pos_row t p q) (sample_pos_col t p q)

/-- An entry of the mean array is in block t exactly when, on each axis, its coordinate is in the block's range. -/
theorem mem_mean (t : Fin cfg6.N) (i : S50000x64.Idx) :
    i ∈ ((cfg6.win 5).blk t).view.set ↔ ∀ a : Fin 2, win6_5.index t a * S5000x64.size a ≤ (i a).val
      ∧ (i a).val < win6_5.index t a * S5000x64.size a + S5000x64.size a := by
  show i ∈ ((View.whole main_v55_0).slice (win6_5.rect t)).set ↔ _
  rw [View.set_slice_whole, Rect.mem_set_unit]
  exact Iff.rfl

/-- Every entry of the mean array is in some point's block: row r is in block r / 5000. -/
theorem cover_mean (i : S50000x64.Idx) :
    ∃ t : Fin cfg6.N, (cfg6.win 5).flush t = true ∧ i ∈ ((cfg6.win 5).blk t).view.set := by
  have hi0 : (i 0).val < 50000 := idx2_lt0 i
  have hi1 : (i 1).val < 64 := idx2_lt1 i
  have hN : cfg6.N = 10 := N_6
  obtain ⟨t, ht⟩ : ∃ t : Fin cfg6.N, t.val = (i 0).val / 5000 := ⟨⟨(i 0).val / 5000, by rw [hN]; omega⟩, rfl⟩
  obtain ⟨⟨a0, b0⟩, ⟨a1, b1⟩, ⟨a2, b2⟩, ⟨a3, b3⟩, ⟨a4, b4⟩, ⟨a5, b5⟩, ⟨a6, b6⟩, ⟨a7, b7⟩⟩ := idx_facts t
  refine ⟨t, flush6_5 t, ?_⟩
  rw [mem_mean]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 64 ≤ (i 1).val ∧ (i 1).val < win6_5.index t (1 : Fin 2) * 64 + 64; omega

/-- An entry of the log-variance array is in block t exactly when, on each axis, its coordinate is in the block's range. -/
theorem mem_logvar (t : Fin cfg6.N) (i : S50000x64.Idx) :
    i ∈ ((cfg6.win 6).blk t).view.set ↔ ∀ a : Fin 2, win6_6.index t a * S5000x64.size a ≤ (i a).val
      ∧ (i a).val < win6_6.index t a * S5000x64.size a + S5000x64.size a := by
  show i ∈ ((View.whole main_v55_1).slice (win6_6.rect t)).set ↔ _
  rw [View.set_slice_whole, Rect.mem_set_unit]
  exact Iff.rfl

/-- Every entry of the log-variance array is in some point's block: row r is in block r / 5000. -/
theorem cover_logvar (i : S50000x64.Idx) :
    ∃ t : Fin cfg6.N, (cfg6.win 6).flush t = true ∧ i ∈ ((cfg6.win 6).blk t).view.set := by
  have hi0 : (i 0).val < 50000 := idx2_lt0 i
  have hi1 : (i 1).val < 64 := idx2_lt1 i
  have hN : cfg6.N = 10 := N_6
  obtain ⟨t, ht⟩ : ∃ t : Fin cfg6.N, t.val = (i 0).val / 5000 := ⟨⟨(i 0).val / 5000, by rw [hN]; omega⟩, rfl⟩
  obtain ⟨⟨a0, b0⟩, ⟨a1, b1⟩, ⟨a2, b2⟩, ⟨a3, b3⟩, ⟨a4, b4⟩, ⟨a5, b5⟩, ⟨a6, b6⟩, ⟨a7, b7⟩⟩ := idx_facts t
  refine ⟨t, flush6_6 t, ?_⟩
  rw [mem_logvar]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 64 ≤ (i 1).val ∧ (i 1).val < win6_6.index t (1 : Fin 2) * 64 + 64; omega

/-- An entry of the sample array is in block t exactly when, on each axis, its coordinate is in the block's range. -/
theorem mem_sample (t : Fin cfg6.N) (i : S50000x64.Idx) :
    i ∈ ((cfg6.win 7).blk t).view.set ↔ ∀ a : Fin 2, win6_7.index t a * S5000x64.size a ≤ (i a).val
      ∧ (i a).val < win6_7.index t a * S5000x64.size a + S5000x64.size a := by
  show i ∈ ((View.whole main_v55_2).slice (win6_7.rect t)).set ↔ _
  rw [View.set_slice_whole, Rect.mem_set_unit]
  exact Iff.rfl

/-- Every entry of the sample array is in some point's block: row r is in block r / 5000. -/
theorem cover_sample (i : S50000x64.Idx) :
    ∃ t : Fin cfg6.N, (cfg6.win 7).flush t = true ∧ i ∈ ((cfg6.win 7).blk t).view.set := by
  have hi0 : (i 0).val < 50000 := idx2_lt0 i
  have hi1 : (i 1).val < 64 := idx2_lt1 i
  have hN : cfg6.N = 10 := N_6
  obtain ⟨t, ht⟩ : ∃ t : Fin cfg6.N, t.val = (i 0).val / 5000 := ⟨⟨(i 0).val / 5000, by rw [hN]; omega⟩, rfl⟩
  obtain ⟨⟨a0, b0⟩, ⟨a1, b1⟩, ⟨a2, b2⟩, ⟨a3, b3⟩, ⟨a4, b4⟩, ⟨a5, b5⟩, ⟨a6, b6⟩, ⟨a7, b7⟩⟩ := idx_facts t
  refine ⟨t, flush6_7 t, ?_⟩
  rw [mem_sample]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 64 ≤ (i 1).val ∧ (i 1).val < win6_7.index t (1 : Fin 2) * 64 + 64; omega

/-- The mean array region 6 leaves: its bias row added to every row of the product it finds. -/
theorem arr_mean (c : Dev nD) :
    ((dat6 V c).arrAt 5 cfg6.N : S50000x64.Idx → EReal) = (Spec.addRow (M := 50000) (N := 64) (V c (Pipeline.arrRef spec6 0)) (V c (Pipeline.arrRef spec6 1))) :=
  (dat6 V c).arrAt_eq_of_cover 5 _ (fun t _ => flushed_mean V c t) cover_mean

/-- The log-variance array region 6 leaves: its bias row added to every row of the product it finds. -/
theorem arr_logvar (c : Dev nD) :
    ((dat6 V c).arrAt 6 cfg6.N : S50000x64.Idx → EReal) = (Spec.addRow (M := 50000) (N := 64) (V c (Pipeline.arrRef spec6 2)) (V c (Pipeline.arrRef spec6 3))) :=
  (dat6 V c).arrAt_eq_of_cover 6 _ (fun t _ => flushed_logvar V c t) cover_logvar

/-- The sample array region 6 leaves: mean + noise * exp (half * logvar), entry by entry. -/
theorem arr_sample (c : Dev nD) :
    ((dat6 V c).arrAt 7 cfg6.N : S50000x64.Idx → EReal) = Spec.sample (Spec.addRow (M := 50000) (N := 64) (V c (Pipeline.arrRef spec6 0)) (V c (Pipeline.arrRef spec6 1))) (Spec.addRow (M := 50000) (N := 64) (V c (Pipeline.arrRef spec6 2)) (V c (Pipeline.arrRef spec6 3))) (V c (Pipeline.arrRef spec6 4)) :=
  (dat6 V c).arrAt_eq_of_cover 7 _ (fun t _ => flushed_sample V c t) cover_sample

end Cert.Gcn.RegSample6

end
-- ==== Proof.RegMM7.lean ====
import proofs.«411271_j79216376808060_2_alg».proof.Proof.Gen.KernelIdeal.Frame
import proofs.«411271_j79216376808060_2_alg».proof.Proof.Spec
import proofs.«411271_j79216376808060_2_alg».proof.Proof.LibPlainMatmul
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.Gcn.RegMM7

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! The extents of this region. The left array ArrX is [50000, dK], taken in ten blocks BlkX of 5000 rows; the weight
    matrix BlkW is [dK, dN], taken whole at every point; the product ArrO is [50000, dN], left in ten blocks BlkO of 5000
    rows. Point t has rows 5000 t, ..., 5000 t + 4999 of the left array and of the product. -/
local notation "dK" => 64
local notation "dN" => 128
local notation "ArrX" => S50000x64
local notation "BlkX" => S5000x64
local notation "BlkW" => S64x128
local notation "ArrO" => S50000x128
local notation "BlkO" => S5000x128

/-- The offset of a whole block inside itself is zero on both axes. -/
theorem hz : (![0, 0] : Fin 2 → Nat) = fun _ => 0 := funext fun a => by fin_cases a <;> rfl

/-- What the body stores, at an entry: both blocks are rounded to bf16, which changes nothing over the extended reals
    (nor does a cast of a shape to itself), and multiplied into a zero accumulator, so entry (p, q) is the sum over k of
    x0 (p, k) * x1 (k, q). -/
theorem pay_apply (x0 : Vec Ideal BlkX .f32) (x1 : Vec Ideal BlkW .f32) (p : Fin 5000) (q : Fin dN) :
    k7_pay1 x0 x1 (ix2 p q) = ∑ k : Fin dK, x0 (ix2 p k) * x1 (ix2 k q) := by
  simp only [k7_pay1, shapeCast_self]
  exact Cert.PlainMatmul.apply (M := 5000) (K := dK) (N := dN) none (φ₁ := .bf16) (φ₂ := .bf16) x0 x1 p q

/-- The block indices at point t: the left array's block and the product's block are both block t along the rows and
    block 0 along the columns; the weight matrix is block 0 on both axes. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- An output block's entry (p, q) is the product's entry at an array index i as soon as row p of the left block is the
    left array's row of i and column q of the right block is the weight matrix's column of i. -/
theorem blk_entry (X : Shape.Idx ArrX → EReal) (W : Shape.Idx BlkW → EReal)
    (x0 : Vec Ideal BlkX .f32) (x1 : Vec Ideal BlkW .f32) (i : Shape.Idx ArrO) (p : Fin 5000) (q : Fin dN)
    (h0 : ∀ k : Fin dK, x0 (ix2 p k) = X (ix2 (Spec.row i) k)) (h1 : ∀ k : Fin dK, x1 (ix2 k q) = W (ix2 k (Spec.col i))) :
    k7_pay1 x0 x1 (ix2 p q) = Spec.mm (M := 50000) (K := dK) (N := dN) X W i := by
  refine (pay_apply x0 x1 p q).trans ?_
  unfold Spec.mm
  exact Finset.sum_congr rfl fun k _ => by rw [h0 k, h1 k]

/-- Entry (p, q) of what the body leaves at point t is the product's entry at the place the block's entry (p, q) has in
    the product. That place is row 5000 t + p, column q; the left block's entry (p, k) sits at row 5000 t + p, column k of
    the left array, and the right block is the weight matrix itself. -/
theorem entry_eq (c : Dev nD) (t : Fin cfg7.N) (p : Fin 5000) (q : Fin dN) :
    k7_pay1 (iblk7 V c 0 t) (iblk7 V c 1 t) (ix2 p q)
      = Spec.mm (M := 50000) (K := dK) (N := dN) (V c (Pipeline.arrRef spec7 0)) (V c (Pipeline.arrRef spec7 1))
          (((cfg7.win 2).blk t).view.emb (ix2 p q)) := by
  obtain ⟨e0, e1, e2, e3, e4, e5⟩ := idx_facts t
  refine blk_entry (V c (Pipeline.arrRef spec7 0)) (V c (Pipeline.arrRef spec7 1)) (iblk7 V c 0 t) (iblk7 V c 1 t) _ p q
    (fun k => ?_) (fun k => ?_)
  · show V c (Pipeline.arrRef spec7 0) (((cfg7.win 0).blk t).view.emb (ix2 p k)) = _
    refine congrArg (V c (Pipeline.arrRef spec7 0)) ?_
    funext a; apply Fin.ext
    match a with
    | ⟨0, _⟩ => show win7_0.index t (0 : Fin 2) * 5000 + 1 * p.val = win7_2.index t (0 : Fin 2) * 5000 + 1 * p.val; omega
    | ⟨1, _⟩ => show win7_0.index t (1 : Fin 2) * dK + 1 * k.val = k.val; omega
  · show V c (Pipeline.arrRef spec7 1) (((cfg7.win 1).blk t).view.emb (ix2 k q)) = _
    refine congrArg (V c (Pipeline.arrRef spec7 1)) ?_
    funext a; apply Fin.ext
    match a with
    | ⟨0, _⟩ => show win7_1.index t (0 : Fin 2) * dK + 1 * k.val = k.val; omega
    | ⟨1, _⟩ => show win7_1.index t (1 : Fin 2) * dN + 1 * q.val = win7_2.index t (1 : Fin 2) * dN + 1 * q.val; omega

/-- What point t writes back is block t of any function of the product's indices that agrees, entry by entry, with what
    the body leaves at point t. -/
theorem flushed_of (c : Dev nD) (t : Fin cfg7.N) (G : Shape.Idx ArrO → EReal)
    (hG : ∀ (p : Fin 5000) (q : Fin dN),
      k7_pay1 (iblk7 V c 0 t) (iblk7 V c 1 t) (ix2 p q) = G (((cfg7.win 2).blk t).view.emb (ix2 p q))) :
    (dat7 V c).flushed 2 t = ((cfg7.win 2).blk t).view.read (Elt Ideal) G := by
  show (cfg7.win 2).cut (grid7.coords t) ((dat7 V c).after 2 t) = _
  rw [after7_2]
  unfold out7_2
  rw [View.canon_unit_zero hz]
  simp only [View.ld_unit_zero (S := BlkX) hz, View.ld_unit_zero (S := BlkW) hz]
  funext j
  obtain ⟨p, q, rfl⟩ : ∃ (p : Fin 5000) (q : Fin dN), j = ix2 p q := ⟨j 0, j 1, eq_ix2 j⟩
  exact hG p q

/-- An index of the product lies in point t's block iff each coordinate lies in the block's range on its axis. -/
theorem mem_blk (t : Fin cfg7.N) (i : Shape.Idx ArrO) :
    i ∈ ((cfg7.win 2).blk t).view.set ↔ ∀ a : Fin 2, win7_2.index t a * Shape.size BlkO a ≤ (i a).val
      ∧ (i a).val < win7_2.index t a * Shape.size BlkO a + Shape.size BlkO a := by
  show i ∈ ((View.whole main_v56).slice (win7_2.rect t)).set ↔ _
  rw [View.set_slice_whole, Rect.mem_set_unit]
  exact Iff.rfl

/-- The ten blocks fill the product: row r lies in the block of point r / 5000, and every point writes its block back. -/
theorem cover (i : Shape.Idx ArrO) :
    ∃ t : Fin cfg7.N, (cfg7.win 2).flush t = true ∧ i ∈ ((cfg7.win 2).blk t).view.set := by
  have hi0 : (i 0).val < 50000 := (i 0).isLt
  have hi1 : (i 1).val < dN := (i 1).isLt
  have hN : grid7.N = 10 := N_7
  let t : Fin cfg7.N := ⟨(i 0).val / 5000, by show _ < grid7.N; omega⟩
  obtain ⟨-, -, -, -, e4, e5⟩ := idx_facts t
  have ht : t.val = (i 0).val / 5000 := rfl
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * dN ≤ (i 1).val ∧ (i 1).val < win7_2.index t (1 : Fin 2) * dN + dN; omega

/-- The array region 7 leaves: the matrix product of the two arrays it finds, entry by entry. -/
theorem arr (c : Dev nD) :
    ((dat7 V c).arrAt 2 cfg7.N : S50000x128.Idx → EReal)
      = Spec.mm (M := 50000) (K := 64) (N := 128) (V c (Pipeline.arrRef spec7 0)) (V c (Pipeline.arrRef spec7 1)) :=
  (dat7 V c).arrAt_eq_of_cover 2 _ (fun t _ => flushed_of V c t _ (entry_eq V c t)) cover

end Cert.Gcn.RegMM7

end
-- ==== Proof.Seg2.lean ====
/-
  The encoder's second layer, the two heads, the sample, and the decoder's first product, boundary by boundary.

  From the end of region 2: a host stretch passes messages over 64 channels; region 3 adds the bias row; regions 4 and 5
  multiply by the mean and log-variance weight matrices; region 6 adds the two bias rows and forms the sample
  mean + noise * exp (half * logvar); region 7 multiplies the sample by the decoder's first weight matrix. The edge
  lists and weights are untouched throughout.
-/
import proofs.«411271_j79216376808060_2_alg».proof.Proof.ChainBase
import proofs.«411271_j79216376808060_2_alg».proof.Proof.KModel
import proofs.«411271_j79216376808060_2_alg».proof.Proof.Take
import proofs.«411271_j79216376808060_2_alg».proof.Proof.Bridge
import proofs.«411271_j79216376808060_2_alg».proof.Proof.RegBias3
import proofs.«411271_j79216376808060_2_alg».proof.Proof.RegMM4
import proofs.«411271_j79216376808060_2_alg».proof.Proof.RegMM5
import proofs.«411271_j79216376808060_2_alg».proof.Proof.RegSample6
import proofs.«411271_j79216376808060_2_alg».proof.Proof.RegMM7
import Idealize.ShloMosaic.Lib.Pipeline.Value
import Idealize.ShloMosaic.Lib.ValueIdx
import Idealize.ShloMosaic.Lib.ValueLayout

set_option maxRecDepth 16384

noncomputable section

namespace Cert.Gcn.Chain

open Cert.KernelIdeal Cert.KernelIdeal.Gen Idealize.ShloMosaic Idealize.ShloMosaic.TcCoe Idealize.ShloMosaic.ValueIdx Idealize.SL.Sem Idealize.ShloMosaic.StableHlo

namespace Seg2

/-! ## Reading a buffer at the type its operation gives it

  A host operation of an inlined function reads and writes its buffers through a transport along the equation between
  the buffer's declared type and the operation's type. Written then read at the same buffer, the two transports cancel. -/

section Transport

variable {Val : EltTy → Type} {T : BufTy}

/-- A value written at a buffer's declared type and read back at the operation's type is the value. -/
theorem read_written (r : Ref sig .tc) (h h' : r.ty = T) (d d' : r.space ≠ .host) (u u' : r.isScoped = false)
    (v : T.Contents Val) : (TRef.of r h d u).ofBuf ((TRef.of r h' d' u').toBuf v) = v := by
  subst h
  rfl

end Transport

/-! ## The two host stretches between regions 2 and 3, over any contents found at their entry -/

section Stretches

variable (V : Valuation τ sig (Elt Ideal))

/-- The first stretch gathers, for every edge, the source node's row of the 64-channel product, filling rows whose node
    number is out of range; every buffer read at its operation's type. -/
theorem gathered64_typed :
    (TRef.of main_v42 : TRef sig ⟨S850000x64, .f32⟩).ofBuf (StableHlo.after hostOps3 V (Proc.devRef .tc main_v42))
      = K.take64 (F := Ideal) ((TRef.of main_v41 : TRef sig ⟨S50000x64, .f32⟩).ofBuf (V (Proc.devRef .tc main_v41)))
          ((TRef.of main_v3 : TRef sig ⟨S850000, .i32⟩).ofBuf (V (Proc.devRef .tc main_v3))) := by
  after_results_simp
  simp only [read_written]
  rfl

/-- The same with the transports read away: they are along equations between equal types. -/
theorem gathered64 :
    (StableHlo.after hostOps3 V (Proc.devRef .tc main_v42) : S850000x64.Idx → EReal)
      = K.take64 (F := Ideal) (V (Proc.devRef .tc main_v41) : S50000x64.Idx → EReal)
          (V (Proc.devRef .tc main_v3) : S850000.Idx → BitVec 32) := by
  have key := gathered64_typed V
  generalize StableHlo.after hostOps3 V (Proc.devRef .tc main_v42) = A at key ⊢
  generalize V (Proc.devRef .tc main_v41) = B at key ⊢
  generalize V (Proc.devRef .tc main_v3) = C at key ⊢
  exact key

end Stretches

section Stretches2

variable (V : Valuation τ sig (Elt Ideal))

/-- The second stretch scales every gathered row by its edge's weight and sums the rows that arrive at each node. -/
theorem summed64 :
    (StableHlo.after hostOps3_1 V (Proc.devRef .tc main_v48) : S50000x64.Idx → EReal)
      = Host.scatterAdd (F := Ideal) scatter_S50000x64_S850000x1_S850000x64_1_0_0_1
          (broadcastInDim S50000x64 ![] bcast_S_S50000x64 (constant (F := Ideal) S_ .f32 0x00000000#32))
          (broadcastInDim S850000x1 ![0] bcast_S850000_S850000x1_0 (V (Proc.devRef .tc main_v6) : S850000.Idx → BitVec 32))
          (mulf (V (Proc.devRef .tc main_v42) : S850000x64.Idx → EReal)
            (broadcastInDim S850000x64 ![0, 1] bcast_S850000x1_S850000x64_0_1
              (broadcastInDim S850000x1 ![0] bcast_S850000_S850000x1_0 (V (Proc.devRef .tc main_v30) : S850000.Idx → EReal)))) := by
  after_results_simp

/-- The second stretch also lays the second layer's bias vector out as a one-row matrix: entry (0, q) is entry q. -/
theorem biasRow3 (q : Fin 64) :
    (StableHlo.after hostOps3_1 V (Proc.devRef .tc main_v49) : S1x64.Idx → EReal) (ix2 (0 : Fin 1) q)
      = (V (Proc.devRef .tc main_arg6) : S64.Idx → EReal) (ix1 q) := by
  have e : (StableHlo.after hostOps3_1 V (Proc.devRef .tc main_v49) : S1x64.Idx → EReal)
      = shapeCast S1x64 (V (Proc.devRef .tc main_arg6) : S64.Idx → EReal) shapeCasts_S64_S1x64 := by
    after_results_simp
    after_clean
    rfl
  rw [e]
  exact shapeCast_a_1a_apply _ _ 0 q

/-- The stretch between regions 5 and 6 lays the two heads' bias vectors out as one-row matrices. -/
theorem biasRow6_mean (q : Fin 64) :
    (StableHlo.after hostOps6 V (Proc.devRef .tc main_v53) : S1x64.Idx → EReal) (ix2 (0 : Fin 1) q)
      = (V (Proc.devRef .tc main_arg8) : S64.Idx → EReal) (ix1 q) := by
  have e : (StableHlo.after hostOps6 V (Proc.devRef .tc main_v53) : S1x64.Idx → EReal)
      = shapeCast S1x64 (V (Proc.devRef .tc main_arg8) : S64.Idx → EReal) shapeCasts_S64_S1x64 := by
    after_results_simp
    after_clean
    rfl
  rw [e]
  exact shapeCast_a_1a_apply _ _ 0 q

theorem biasRow6_logvar (q : Fin 64) :
    (StableHlo.after hostOps6 V (Proc.devRef .tc main_v54) : S1x64.Idx → EReal) (ix2 (0 : Fin 1) q)
      = (V (Proc.devRef .tc main_arg10) : S64.Idx → EReal) (ix1 q) := by
  have e : (StableHlo.after hostOps6 V (Proc.devRef .tc main_v54) : S1x64.Idx → EReal)
      = shapeCast S1x64 (V (Proc.devRef .tc main_arg10) : S64.Idx → EReal) shapeCasts_S64_S1x64 := by
    after_results_simp
    after_clean
    rfl
  rw [e]
  exact shapeCast_a_1a_apply _ _ 0 q

end Stretches2

/-! ## Buffers that are carried unchanged

  A host stretch changes only the buffers its operations write, and a region only its windows' arrays (its input windows'
  arrays not even those). So a buffer keeps its contents across any stretch that does not write it and any region of
  which it is no window. -/

/-- No operation of the host stretch writes the buffer. -/
macro "seg2_not_written" ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

section Carried

variable (m : (ℓ : Loc nD τ sig) → Buf (Elt Ideal) ℓ) (c : Dev nD) (ρ : Dev nD → PrngReg) (b : Ref sig .tc)

/-- From the launch to the end of region 2. -/
theorem launch_to8 (r0 : ∀ w, Pipeline.arrRef spec0 w ≠ b) (r1 : ∀ w, Pipeline.arrRef spec1 w ≠ b)
    (r2 : ∀ w, Pipeline.arrRef spec2 w ≠ b)
    (n0 : ∀ op ∈ (hostOps0 : List (HloOp τ sig (Elt Ideal))), (Proc.devRef .tc b : DevRef τ sig) ∉ op.writes)
    (n0_1 : ∀ op ∈ (hostOps0_1 : List (HloOp τ sig (Elt Ideal))), (Proc.devRef .tc b : DevRef τ sig) ∉ op.writes)
    (n0_2 : ∀ op ∈ (hostOps0_2 : List (HloOp τ sig (Elt Ideal))), (Proc.devRef .tc b : DevRef τ sig) ∉ op.writes)
    (n1 : ∀ op ∈ (hostOps1 : List (HloOp τ sig (Elt Ideal))), (Proc.devRef .tc b : DevRef τ sig) ∉ op.writes)
    (n1_1 : ∀ op ∈ (hostOps1_1 : List (HloOp τ sig (Elt Ideal))), (Proc.devRef .tc b : DevRef τ sig) ∉ op.writes) :
    W8 m ρ c (Proc.devRef .tc b) = m ((c : Thread nD τ).loc b) :=
  calc W8 m ρ c (Proc.devRef .tc b)
    _ = W7 m ρ c (Proc.devRef .tc b) := W8_of_ne m ρ c b r2
    _ = W6 m ρ c (Proc.devRef .tc b) := W7_of_ne m ρ c b r1
    _ = W5 m ρ c (Proc.devRef .tc b) := StableHlo.after_of_forall_not_mem _ _ n1_1
    _ = W4 m ρ c (Proc.devRef .tc b) := StableHlo.after_of_forall_not_mem _ _ n1
    _ = W3 m ρ c (Proc.devRef .tc b) := W4_of_ne m ρ c b r0
    _ = W2 m ρ c (Proc.devRef .tc b) := StableHlo.after_of_forall_not_mem _ _ n0_2
    _ = W1 m ρ c (Proc.devRef .tc b) := StableHlo.after_of_forall_not_mem _ _ n0_1
    _ = W0 m ρ c (Proc.devRef .tc b) := StableHlo.after_of_forall_not_mem _ _ n0
    _ = m ((c : Thread nD τ).loc b) := rfl

/-- Across the two host stretches between regions 2 and 3. -/
theorem across_8_10
    (n3 : ∀ op ∈ (hostOps3 : List (HloOp τ sig (Elt Ideal))), (Proc.devRef .tc b : DevRef τ sig) ∉ op.writes)
    (n3_1 : ∀ op ∈ (hostOps3_1 : List (HloOp τ sig (Elt Ideal))), (Proc.devRef .tc b : DevRef τ sig) ∉ op.writes) :
    W10 m ρ c (Proc.devRef .tc b) = W8 m ρ c (Proc.devRef .tc b) :=
  calc W10 m ρ c (Proc.devRef .tc b)
    _ = W9 m ρ c (Proc.devRef .tc b) := StableHlo.after_of_forall_not_mem _ _ n3_1
    _ = W8 m ρ c (Proc.devRef .tc b) := StableHlo.after_of_forall_not_mem _ _ n3

/-- Across regions 3, 4 and 5. -/
theorem across_10_13 (r3 : ∀ w, Pipeline.arrRef spec3 w ≠ b) (r4 : ∀ w, Pipeline.arrRef spec4 w ≠ b)
    (r5 : ∀ w, Pipeline.arrRef spec5 w ≠ b) :
    W13 m ρ c (Proc.devRef .tc b) = W10 m ρ c (Proc.devRef .tc b) :=
  calc W13 m ρ c (Proc.devRef .tc b)
    _ = W12 m ρ c (Proc.devRef .tc b) := W13_of_ne m ρ c b r5
    _ = W11 m ρ c (Proc.devRef .tc b) := W12_of_ne m ρ c b r4
    _ = W10 m ρ c (Proc.devRef .tc b) := W11_of_ne m ρ c b r3

/-- Across the host stretch between regions 5 and 6. -/
theorem across_13_14
    (n6 : ∀ op ∈ (hostOps6 : List (HloOp τ sig (Elt Ideal))), (Proc.devRef .tc b : DevRef τ sig) ∉ op.writes) :
    W14 m ρ c (Proc.devRef .tc b) = W13 m ρ c (Proc.devRef .tc b) :=
  StableHlo.after_of_forall_not_mem _ _ n6

/-- Across regions 6 and 7. -/
theorem across_14_16 (r6 : ∀ w, Pipeline.arrRef spec6 w ≠ b) (r7 : ∀ w, Pipeline.arrRef spec7 w ≠ b) :
    W16 m ρ c (Proc.devRef .tc b) = W14 m ρ c (Proc.devRef .tc b) :=
  calc W16 m ρ c (Proc.devRef .tc b)
    _ = W15 m ρ c (Proc.devRef .tc b) := W16_of_ne m ρ c b r7
    _ = W14 m ρ c (Proc.devRef .tc b) := W15_of_ne m ρ c b r6

/-- A buffer untouched from the end of region 2 to the end of region 7. -/
theorem across_8_16
    (n3 : ∀ op ∈ (hostOps3 : List (HloOp τ sig (Elt Ideal))), (Proc.devRef .tc b : DevRef τ sig) ∉ op.writes)
    (n3_1 : ∀ op ∈ (hostOps3_1 : List (HloOp τ sig (Elt Ideal))), (Proc.devRef .tc b : DevRef τ sig) ∉ op.writes)
    (r3 : ∀ w, Pipeline.arrRef spec3 w ≠ b) (r4 : ∀ w, Pipeline.arrRef spec4 w ≠ b) (r5 : ∀ w, Pipeline.arrRef spec5 w ≠ b)
    (n6 : ∀ op ∈ (hostOps6 : List (HloOp τ sig (Elt Ideal))), (Proc.devRef .tc b : DevRef τ sig) ∉ op.writes)
    (r6 : ∀ w, Pipeline.arrRef spec6 w ≠ b) (r7 : ∀ w, Pipeline.arrRef spec7 w ≠ b) :
    W16 m ρ c (Proc.devRef .tc b) = W8 m ρ c (Proc.devRef .tc b) :=
  (across_14_16 m c ρ b r6 r7).trans ((across_13_14 m c ρ b n6).trans
    ((across_10_13 m c ρ b r3 r4 r5).trans (across_8_10 m c ρ b n3 n3_1)))

end Carried

/-- From the launch to the end of region 2, for a buffer nothing there writes or holds as a window. -/
macro "seg2_from_launch" : tactic =>
  `(tactic| exact launch_to8 _ _ _ _ (by decide) (by decide) (by decide) (by seg2_not_written hostOps0) (by seg2_not_written hostOps0_1)
      (by seg2_not_written hostOps0_2) (by seg2_not_written hostOps1) (by seg2_not_written hostOps1_1))

section Arguments

variable (m : (ℓ : Loc nD τ sig) → Buf (Elt Ideal) ℓ) (c : Dev nD) (ρ : Dev nD → PrngReg)

/-! An argument is never written: where it is read it holds what it held at the launch. -/

/-- The second layer's bias vector, where the second stretch reads it. -/
theorem arg6_at9 : (W9 m ρ c (Proc.devRef .tc main_arg6) : S64.Idx → EReal) = a6 m c :=
  (StableHlo.after_of_forall_not_mem _ _ (by seg2_not_written hostOps3)).trans (by seg2_from_launch)

/-- The mean head's weight matrix at region 4's entry. -/
theorem arg7_at11 : (W11 m ρ c (Proc.devRef .tc main_arg7) : S64x64.Idx → EReal) = a7 m c :=
  (W11_of_ne m ρ c main_arg7 (by decide)).trans
    ((across_8_10 m c ρ main_arg7 (by seg2_not_written hostOps3) (by seg2_not_written hostOps3_1)).trans (by seg2_from_launch))

/-- The log-variance head's weight matrix at region 5's entry. -/
theorem arg9_at12 : (W12 m ρ c (Proc.devRef .tc main_arg9) : S64x64.Idx → EReal) = a9 m c :=
  (W12_of_ne m ρ c main_arg9 (by decide)).trans ((W11_of_ne m ρ c main_arg9 (by decide)).trans
    ((across_8_10 m c ρ main_arg9 (by seg2_not_written hostOps3) (by seg2_not_written hostOps3_1)).trans (by seg2_from_launch)))

/-- The two heads' bias vectors where the stretch before region 6 reads them. -/
theorem arg8_at13 : (W13 m ρ c (Proc.devRef .tc main_arg8) : S64.Idx → EReal) = a8 m c :=
  (across_10_13 m c ρ main_arg8 (by decide) (by decide) (by decide)).trans
    ((across_8_10 m c ρ main_arg8 (by seg2_not_written hostOps3) (by seg2_not_written hostOps3_1)).trans (by seg2_from_launch))
theorem arg10_at13 : (W13 m ρ c (Proc.devRef .tc main_arg10) : S64.Idx → EReal) = a10 m c :=
  (across_10_13 m c ρ main_arg10 (by decide) (by decide) (by decide)).trans
    ((across_8_10 m c ρ main_arg10 (by seg2_not_written hostOps3) (by seg2_not_written hostOps3_1)).trans (by seg2_from_launch))

/-- The noise array at region 6's entry. -/
theorem arg2_at14 : (W14 m ρ c (Proc.devRef .tc main_arg2) : S50000x64.Idx → EReal) = a2 m c :=
  (across_13_14 m c ρ main_arg2 (by seg2_not_written hostOps6)).trans
    ((across_10_13 m c ρ main_arg2 (by decide) (by decide) (by decide)).trans
      ((across_8_10 m c ρ main_arg2 (by seg2_not_written hostOps3) (by seg2_not_written hostOps3_1)).trans (by seg2_from_launch)))

/-- The decoder's first weight matrix at region 7's entry. -/
theorem arg11_at15 : (W15 m ρ c (Proc.devRef .tc main_arg11) : S64x128.Idx → EReal) = a11 m c :=
  (W15_of_ne m ρ c main_arg11 (by decide)).trans ((across_13_14 m c ρ main_arg11 (by seg2_not_written hostOps6)).trans
    ((across_10_13 m c ρ main_arg11 (by decide) (by decide) (by decide)).trans
      ((across_8_10 m c ρ main_arg11 (by seg2_not_written hostOps3) (by seg2_not_written hostOps3_1)).trans (by seg2_from_launch))))

end Arguments

/-! ## The boundaries, one after another -/

section Boundaries

variable (m : (ℓ : Loc nD τ sig) → Buf (Elt Ideal) ℓ) (c : Dev nD) (ρ : Dev nD → PrngReg)

/-- At region 3's entry the buffer of summed messages holds the second layer's message passing: the stretch gathers at the
    source numbers, all of which name a node, so no row is filled; it scales by the edge weights and sums over the
    destinations, which is the model's formula term by term. -/
theorem at10_agg (hs : InRange m c) (h : At8 m c ρ) :
    (W10 m ρ c (Proc.devRef .tc main_v48) : S50000x64.Idx → EReal)
      = Gcn.agg64 (F := Ideal) (a1 m c) (Gcn.dot128x64 (h1 m c) (a5 m c)) := by
  have e6 : (W9 m ρ c (Proc.devRef .tc main_v6) : S850000.Idx → BitVec 32) = Gcn.dst (a1 m c) :=
    (StableHlo.after_of_forall_not_mem _ _ (by seg2_not_written hostOps3)).trans h.dst
  have e30 : (W9 m ρ c (Proc.devRef .tc main_v30) : S850000.Idx → EReal) = Gcn.norm (F := Ideal) (a1 m c) :=
    (StableHlo.after_of_forall_not_mem _ _ (by seg2_not_written hostOps3)).trans h.norm
  have e42 : (W9 m ρ c (Proc.devRef .tc main_v42) : S850000x64.Idx → EReal)
      = Host.gather gather_S50000x64_S850000x1_S850000x64_1_0_n_n_0_1_164 (Gcn.dot128x64 (h1 m c) (a5 m c))
          (K.wrap (Gcn.src (a1 m c))) := by
    refine (gathered64 (W8 m ρ c)).trans ?_
    rw [h.lin, h.src]
    exact K.take64_eq _ _ hs
  refine (summed64 (W9 m ρ c)).trans ?_
  rw [e6, e30, e42]
  unfold Gcn.agg64
  rfl

end Boundaries

section Boundaries2

variable (m : (ℓ : Loc nD τ sig) → Buf (Elt Ideal) ℓ) (c : Dev nD) (ρ : Dev nD → PrngReg)

/-- The one-row matrix region 3 reads holds the second layer's bias vector. -/
theorem at10_biasRow (q : Fin 64) :
    (W10 m ρ c (Proc.devRef .tc main_v49) : S1x64.Idx → EReal) (ix2 (0 : Fin 1) q) = a6 m c (ix1 q) :=
  (biasRow3 (W9 m ρ c) q).trans (congrFun (arg6_at9 m c ρ) (ix1 q))

/-- Region 3 adds the bias row to every row of the summed messages: the encoder's second layer. -/
theorem at11_h2 (hs : InRange m c) (h : At8 m c ρ) :
    (W11 m ρ c (Proc.devRef .tc main_v50) : S50000x64.Idx → EReal) = h2 m c := by
  refine (W11_arr m ρ c 2).trans ?_
  refine (RegBias3.arr (V10 m ρ) c).trans ?_
  show Spec.addRow (M := 50000) (N := 64) (W10 m ρ c (Proc.devRef .tc main_v48)) (W10 m ρ c (Proc.devRef .tc main_v49)) = _
  rw [at10_agg m c ρ hs h]
  refine (Bridge.addb64_eq _ (a6 m c) _ (at10_biasRow m c ρ)).trans ?_
  rfl

/-- Region 4 multiplies the second layer by the mean head's weight matrix. -/
theorem at12_meanLin (hs : InRange m c) (h : At8 m c ρ) :
    (W12 m ρ c (Proc.devRef .tc main_v51) : S50000x64.Idx → EReal) = Gcn.dot64x64 (h2 m c) (a7 m c) := by
  refine (W12_arr m ρ c 2).trans ?_
  refine (RegMM4.arr (V11 m ρ) c).trans ?_
  show Spec.mm (M := 50000) (K := 64) (N := 64) (W11 m ρ c (Proc.devRef .tc main_v50)) (W11 m ρ c (Proc.devRef .tc main_arg7)) = _
  rw [at11_h2 m c ρ hs h, arg7_at11 m c ρ]
  exact (Bridge.dot64x64_eq _ _).symm

/-- The second layer is an input window of region 4, which leaves it as it found it. -/
theorem at12_h2 (hs : InRange m c) (h : At8 m c ρ) :
    (W12 m ρ c (Proc.devRef .tc main_v50) : S50000x64.Idx → EReal) = h2 m c :=
  ((W12_arr m ρ c 0).trans (((dat4 (V11 m ρ) c).arrAt_in 0 rfl _).trans (A_eq4 (V11 m ρ) c 0))).trans (at11_h2 m c ρ hs h)

/-- Region 5 multiplies the second layer by the log-variance head's weight matrix. -/
theorem at13_logvarLin (hs : InRange m c) (h : At8 m c ρ) :
    (W13 m ρ c (Proc.devRef .tc main_v52) : S50000x64.Idx → EReal) = Gcn.dot64x64 (h2 m c) (a9 m c) := by
  refine (W13_arr m ρ c 2).trans ?_
  refine (RegMM5.arr (V12 m ρ) c).trans ?_
  show Spec.mm (M := 50000) (K := 64) (N := 64) (W12 m ρ c (Proc.devRef .tc main_v50)) (W12 m ρ c (Proc.devRef .tc main_arg9)) = _
  rw [at12_h2 m c ρ hs h, arg9_at12 m c ρ]
  exact (Bridge.dot64x64_eq _ _).symm

/-- The two products at region 6's entry: region 5 and the stretch after it leave the first untouched, the stretch the second. -/
theorem at14_meanLin (hs : InRange m c) (h : At8 m c ρ) :
    (W14 m ρ c (Proc.devRef .tc main_v51) : S50000x64.Idx → EReal) = Gcn.dot64x64 (h2 m c) (a7 m c) :=
  (across_13_14 m c ρ main_v51 (by seg2_not_written hostOps6)).trans
    ((W13_of_ne m ρ c main_v51 (by decide)).trans (at12_meanLin m c ρ hs h))
theorem at14_logvarLin (hs : InRange m c) (h : At8 m c ρ) :
    (W14 m ρ c (Proc.devRef .tc main_v52) : S50000x64.Idx → EReal) = Gcn.dot64x64 (h2 m c) (a9 m c) :=
  (across_13_14 m c ρ main_v52 (by seg2_not_written hostOps6)).trans (at13_logvarLin m c ρ hs h)

/-- The two one-row matrices region 6 reads hold the two heads' bias vectors. -/
theorem at14_biasMean (q : Fin 64) :
    (W14 m ρ c (Proc.devRef .tc main_v53) : S1x64.Idx → EReal) (ix2 (0 : Fin 1) q) = a8 m c (ix1 q) :=
  (biasRow6_mean (W13 m ρ c) q).trans (congrFun (arg8_at13 m c ρ) (ix1 q))
theorem at14_biasLogvar (q : Fin 64) :
    (W14 m ρ c (Proc.devRef .tc main_v54) : S1x64.Idx → EReal) (ix2 (0 : Fin 1) q) = a10 m c (ix1 q) :=
  (biasRow6_logvar (W13 m ρ c) q).trans (congrFun (arg10_at13 m c ρ) (ix1 q))

/-- Region 6's first result: the mean. -/
theorem at15_mean (hs : InRange m c) (h : At8 m c ρ) :
    (W15 m ρ c (Proc.devRef .tc main_v55_0) : S50000x64.Idx → EReal) = mu m c := by
  refine (W15_arr m ρ c 5).trans ?_
  refine (RegSample6.arr_mean (V14 m ρ) c).trans ?_
  show Spec.addRow (M := 50000) (N := 64) (W14 m ρ c (Proc.devRef .tc main_v51)) (W14 m ρ c (Proc.devRef .tc main_v53)) = _
  rw [at14_meanLin m c ρ hs h]
  refine (Bridge.addb64_eq _ (a8 m c) _ (at14_biasMean m c ρ)).trans ?_
  rfl

/-- Region 6's second result: the log-variance. -/
theorem at15_logvar (hs : InRange m c) (h : At8 m c ρ) :
    (W15 m ρ c (Proc.devRef .tc main_v55_1) : S50000x64.Idx → EReal) = logvar m c := by
  refine (W15_arr m ρ c 6).trans ?_
  refine (RegSample6.arr_logvar (V14 m ρ) c).trans ?_
  show Spec.addRow (M := 50000) (N := 64) (W14 m ρ c (Proc.devRef .tc main_v52)) (W14 m ρ c (Proc.devRef .tc main_v54)) = _
  rw [at14_logvarLin m c ρ hs h]
  refine (Bridge.addb64_eq _ (a10 m c) _ (at14_biasLogvar m c ρ)).trans ?_
  rfl

/-- Region 6's third result: the sample, mean + noise * exp (half * logvar). -/
theorem at15_sample (hs : InRange m c) (h : At8 m c ρ) :
    (W15 m ρ c (Proc.devRef .tc main_v55_2) : S50000x64.Idx → EReal) = z m c := by
  refine (W15_arr m ρ c 7).trans ?_
  refine (RegSample6.arr_sample (V14 m ρ) c).trans ?_
  show Spec.sample (M := 50000) (N := 64)
      (Spec.addRow (M := 50000) (N := 64) (W14 m ρ c (Proc.devRef .tc main_v51)) (W14 m ρ c (Proc.devRef .tc main_v53)))
      (Spec.addRow (M := 50000) (N := 64) (W14 m ρ c (Proc.devRef .tc main_v52)) (W14 m ρ c (Proc.devRef .tc main_v54)))
      (W14 m ρ c (Proc.devRef .tc main_arg2)) = _
  rw [at14_meanLin m c ρ hs h, at14_logvarLin m c ρ hs h, arg2_at14 m c ρ,
    Bridge.addb64_eq _ (a8 m c) _ (at14_biasMean m c ρ), Bridge.addb64_eq _ (a10 m c) _ (at14_biasLogvar m c ρ)]
  refine (Bridge.sample_eq _ _ _).trans ?_
  rfl

/-- Region 7 multiplies the sample by the decoder's first weight matrix. -/
theorem at16_lin (hs : InRange m c) (h : At8 m c ρ) :
    (W16 m ρ c (Proc.devRef .tc main_v56) : S50000x128.Idx → EReal) = Gcn.dot64x128 (z m c) (a11 m c) := by
  refine (W16_arr m ρ c 2).trans ?_
  refine (RegMM7.arr (V15 m ρ) c).trans ?_
  show Spec.mm (M := 50000) (K := 64) (N := 128) (W15 m ρ c (Proc.devRef .tc main_v55_2)) (W15 m ρ c (Proc.devRef .tc main_arg11)) = _
  rw [at15_sample m c ρ hs h, arg11_at15 m c ρ]
  exact (Bridge.dot64x128_eq _ _).symm

end Boundaries2

end Seg2

open Seg2

variable (m : (ℓ : Loc nD τ sig) → Buf (Elt Ideal) ℓ) (c : Dev nD) (ρ : Dev nD → PrngReg)

/-- From the end of region 2 to the end of region 7. -/
theorem seg2 (hs : InRange m c) (h : At8 m c ρ) : At16 m c ρ where
  src := (across_8_16 m c ρ main_v3 (by seg2_not_written hostOps3) (by seg2_not_written hostOps3_1) (by decide) (by decide) (by decide)
    (by seg2_not_written hostOps6) (by decide) (by decide)).trans h.src
  dst := (across_8_16 m c ρ main_v6 (by seg2_not_written hostOps3) (by seg2_not_written hostOps3_1) (by decide) (by decide) (by decide)
    (by seg2_not_written hostOps6) (by decide) (by decide)).trans h.dst
  norm := (across_8_16 m c ρ main_v30 (by seg2_not_written hostOps3) (by seg2_not_written hostOps3_1) (by decide) (by decide) (by decide)
    (by seg2_not_written hostOps6) (by decide) (by decide)).trans h.norm
  mean := (W16_of_ne m ρ c main_v55_0 (by decide)).trans (at15_mean m c ρ hs h)
  logvar := (W16_of_ne m ρ c main_v55_1 (by decide)).trans (at15_logvar m c ρ hs h)
  lin := at16_lin m c ρ hs h

end Cert.Gcn.Chain

end
-- ==== Proof.RegBias8.lean ====
import proofs.«411271_j79216376808060_2_alg».proof.Proof.Gen.KernelIdeal.Frame
import proofs.«411271_j79216376808060_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

/-
  Region 8: a bias row added to every row of a [50000, 128] array, then the positive part.

  The array is cut into ten blocks of 5000 rows; block t is rows 5000 t … 5000 t + 4999, all 128 columns. At point t the
  body sees block t of the array and the whole [1, 128] bias row, and leaves block t of the output. Entry (p, q) of what
  it leaves is max (x (p, q) + b (0, q)) 0 with x the input block: it depends on one entry of the block and one entry of
  the row. Entry (p, q) of block t is entry (5000 t + p, q) of the array, for the input and the output alike, so block t
  of the output is block t of the function "bias row added, positive part" of the whole array. Every row r lies in block
  r / 5000, so the ten blocks fill the output.
-/

set_option maxRecDepth 16384

noncomputable section

namespace Cert.Gcn.RegBias8

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- The [50000, 128] array the region finds, as a function of its index into the extended reals. -/
abbrev xarr (c : Dev nD) : S50000x128.Idx → EReal := V c (Pipeline.arrRef spec8 0)
/-- The [1, 128] bias row the region finds. -/
abbrev brow (c : Dev nD) : S1x128.Idx → EReal := V c (Pipeline.arrRef spec8 1)
/-- The array's block at point t: 5000 rows of 128. -/
abbrev xblk (c : Dev nD) (t : Fin cfg8.N) : Vec Ideal S5000x128 .f32 := iblk8 V c 0 t
/-- The bias row's block at point t: the whole row. -/
abbrev bblk (c : Dev nD) (t : Fin cfg8.N) : Vec Ideal S1x128 .f32 := iblk8 V c 1 t

/-- The body's result at entry (p, q): the block's entry plus the row's entry in column q, then the larger of that and
    zero. The two casts are of a shape to itself; the broadcast repeats the one row down the 5000 rows. -/
theorem pay_at (x0 : Vec Ideal S5000x128 .f32) (x1 : Vec Ideal S1x128 .f32) (p : Fin 5000) (q : Fin 128) :
    k8_pay1 x0 x1 (ix2 p q) = max (x0 (ix2 p q) + x1 (ix2 (0 : Fin 1) q)) (Ideal.ofBits .f32 0x00000000#32) := by
  unfold k8_pay1
  rw [maximumf_apply, addf_apply, broadcast_apply, shapeCast_self, shapeCast_self, broadcastTo_1b_ab_apply]
  rfl

/-- The block indices over the ten points: the input array's block moves with the output's, the bias row stays at
    block (0, 0), and the output's block at point t is (t, 0). -/
theorem idx_facts : ∀ t : Fin cfg8.N, win8_0.index t (0 : Fin 2) = win8_2.index t (0 : Fin 2)
    ∧ win8_0.index t (1 : Fin 2) = win8_2.index t (1 : Fin 2)
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

/-- Entry (p, q) of the input block at point t is the array's entry where the output's block t puts (p, q): both
    blocks start at row 5000 t, column 0. -/
theorem xblk_at (c : Dev nD) (t : Fin cfg8.N) (p : Fin 5000) (q : Fin 128) :
    xblk V c t (ix2 p q) = xarr V c (((cfg8.win 2).blk t).view.emb (ix2 p q)) := by
  obtain ⟨e0, e1, e2, e3, e4, e5⟩ := idx_facts t
  show xarr V c (((cfg8.win 0).blk t).view.emb (ix2 p q)) = _
  refine congrArg (xarr V c) ?_
  funext a; apply Fin.ext
  match a with
  | ⟨0, _⟩ => show win8_0.index t (0 : Fin 2) * 5000 + 1 * p.val = win8_2.index t (0 : Fin 2) * 5000 + 1 * p.val; omega
  | ⟨1, _⟩ => show win8_0.index t (1 : Fin 2) * 128 + 1 * q.val = win8_2.index t (1 : Fin 2) * 128 + 1 * q.val; omega

/-- Entry (0, q) of the bias block at any point is the bias row's entry in the column of the array entry that the
    output's block t puts at (p, q): that column is q, because the output's blocks start at column 0. -/
theorem bblk_at (c : Dev nD) (t : Fin cfg8.N) (p : Fin 5000) (q : Fin 128) :
    bblk V c t (ix2 (0 : Fin 1) q)
      = brow V c (ix2 (0 : Fin 1) (Spec.col (M := 50000) (N := 128) (((cfg8.win 2).blk t).view.emb (ix2 p q)))) := by
  obtain ⟨e0, e1, e2, e3, e4, e5⟩ := idx_facts t
  show brow V c (((cfg8.win 1).blk t).view.emb (ix2 (0 : Fin 1) q)) = _
  refine congrArg (brow V c) ?_
  funext a; apply Fin.ext
  match a with
  | ⟨0, _⟩ => show win8_1.index t (0 : Fin 2) * 1 + 1 * 0 = 0; omega
  | ⟨1, _⟩ => show win8_1.index t (1 : Fin 2) * 128 + 1 * q.val = win8_2.index t (1 : Fin 2) * 128 + 1 * q.val; omega

/-- What point t writes back is block t of "bias row added, positive part" of the array the region finds. -/
theorem flushed_eq (c : Dev nD) (t : Fin cfg8.N) :
    (dat8 V c).flushed 2 t = ((cfg8.win 2).blk t).view.read (Elt Ideal)
      (Spec.pos (Spec.addRow (M := 50000) (N := 128) (V c (Pipeline.arrRef spec8 0)) (V c (Pipeline.arrRef spec8 1)))) := by
  show (cfg8.win 2).cut (grid8.coords t) ((dat8 V c).after 2 t) = _
  rw [after8_2]
  unfold out8_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_at (xblk V c t) (bblk V c t) p q).trans ?_
  rw [xblk_at V c t p q, bblk_at V c t p q]
  rfl

/-- An entry of the output array is in block t exactly when, on each axis, its coordinate is in the block's range. -/
theorem mem_blk (t : Fin cfg8.N) (i : S50000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v65).slice (win8_2.rect t)).set ↔ _
  rw [View.set_slice_whole, Rect.mem_set_unit]
  exact Iff.rfl

/-- Every entry of the output array is in some point's block: row r is in block r / 5000. -/
theorem cover (i : S50000x128.Idx) :
    ∃ t : Fin cfg8.N, (cfg8.win 2).flush t = true ∧ i ∈ ((cfg8.win 2).blk t).view.set := by
  have hi0 : (i 0).val < 50000 := idx2_lt0 i
  have hi1 : (i 1).val < 128 := idx2_lt1 i
  have hN : cfg8.N = 10 := N_8
  obtain ⟨t, ht⟩ : ∃ t : Fin cfg8.N, t.val = (i 0).val / 5000 := ⟨⟨(i 0).val / 5000, by rw [hN]; omega⟩, rfl⟩
  obtain ⟨e0, e1, e2, e3, e4, e5⟩ := idx_facts t
  refine ⟨t, flush8_2 t, ?_⟩
  rw [mem_blk]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- The array region 8 leaves: the bias row added to every row of the array it finds, then the positive part, entry by entry. -/
theorem arr (c : Dev nD) :
    ((dat8 V c).arrAt 2 cfg8.N : S50000x128.Idx → EReal)
      = Spec.pos (Spec.addRow (M := 50000) (N := 128) (V c (Pipeline.arrRef spec8 0)) (V c (Pipeline.arrRef spec8 1))) :=
  (dat8 V c).arrAt_eq_of_cover 2 _ (fun t _ => flushed_eq V c t) cover

end Cert.Gcn.RegBias8

end
-- ==== Proof.RegMM9.lean ====
import proofs.«411271_j79216376808060_2_alg».proof.Proof.Gen.KernelIdeal.Frame
import proofs.«411271_j79216376808060_2_alg».proof.Proof.Spec
import proofs.«411271_j79216376808060_2_alg».proof.Proof.LibPlainMatmul
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.Gcn.RegMM9

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! The extents of this region. The left array ArrX is [50000, dK], taken in ten blocks BlkX of 5000 rows; the weight
    matrix BlkW is [dK, dN], taken whole at every point; the product ArrO is [50000, dN], left in ten blocks BlkO of 5000
    rows. Point t has rows 5000 t, ..., 5000 t + 4999 of the left array and of the product. -/
local notation "dK" => 128
local notation "dN" => 128
local notation "ArrX" => S50000x128
local notation "BlkX" => S5000x128
local notation "BlkW" => S128x128
local notation "ArrO" => S50000x128
local notation "BlkO" => S5000x128

/-- The offset of a whole block inside itself is zero on both axes. -/
theorem hz : (![0, 0] : Fin 2 → Nat) = fun _ => 0 := funext fun a => by fin_cases a <;> rfl

/-- What the body stores, at an entry: both blocks are rounded to bf16, which changes nothing over the extended reals
    (nor does a cast of a shape to itself), and multiplied into a zero accumulator, so entry (p, q) is the sum over k of
    x0 (p, k) * x1 (k, q). -/
theorem pay_apply (x0 : Vec Ideal BlkX .f32) (x1 : Vec Ideal BlkW .f32) (p : Fin 5000) (q : Fin dN) :
    k9_pay1 x0 x1 (ix2 p q) = ∑ k : Fin dK, x0 (ix2 p k) * x1 (ix2 k q) := by
  simp only [k9_pay1, shapeCast_self]
  exact Cert.PlainMatmul.apply (M := 5000) (K := dK) (N := dN) none (φ₁ := .bf16) (φ₂ := .bf16) x0 x1 p q

/-- The block indices at point t: the left array's block and the product's block are both block t along the rows and
    block 0 along the columns; the weight matrix is block 0 on both axes. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- An output block's entry (p, q) is the product's entry at an array index i as soon as row p of the left block is the
    left array's row of i and column q of the right block is the weight matrix's column of i. -/
theorem blk_entry (X : Shape.Idx ArrX → EReal) (W : Shape.Idx BlkW → EReal)
    (x0 : Vec Ideal BlkX .f32) (x1 : Vec Ideal BlkW .f32) (i : Shape.Idx ArrO) (p : Fin 5000) (q : Fin dN)
    (h0 : ∀ k : Fin dK, x0 (ix2 p k) = X (ix2 (Spec.row i) k)) (h1 : ∀ k : Fin dK, x1 (ix2 k q) = W (ix2 k (Spec.col i))) :
    k9_pay1 x0 x1 (ix2 p q) = Spec.mm (M := 50000) (K := dK) (N := dN) X W i := by
  refine (pay_apply x0 x1 p q).trans ?_
  unfold Spec.mm
  exact Finset.sum_congr rfl fun k _ => by rw [h0 k, h1 k]

/-- Entry (p, q) of what the body leaves at point t is the product's entry at the place the block's entry (p, q) has in
    the product. That place is row 5000 t + p, column q; the left block's entry (p, k) sits at row 5000 t + p, column k of
    the left array, and the right block is the weight matrix itself. -/
theorem entry_eq (c : Dev nD) (t : Fin cfg9.N) (p : Fin 5000) (q : Fin dN) :
    k9_pay1 (iblk9 V c 0 t) (iblk9 V c 1 t) (ix2 p q)
      = Spec.mm (M := 50000) (K := dK) (N := dN) (V c (Pipeline.arrRef spec9 0)) (V c (Pipeline.arrRef spec9 1))
          (((cfg9.win 2).blk t).view.emb (ix2 p q)) := by
  obtain ⟨e0, e1, e2, e3, e4, e5⟩ := idx_facts t
  refine blk_entry (V c (Pipeline.arrRef spec9 0)) (V c (Pipeline.arrRef spec9 1)) (iblk9 V c 0 t) (iblk9 V c 1 t) _ p q
    (fun k => ?_) (fun k => ?_)
  · show V c (Pipeline.arrRef spec9 0) (((cfg9.win 0).blk t).view.emb (ix2 p k)) = _
    refine congrArg (V c (Pipeline.arrRef spec9 0)) ?_
    funext a; apply Fin.ext
    match a with
    | ⟨0, _⟩ => show win9_0.index t (0 : Fin 2) * 5000 + 1 * p.val = win9_2.index t (0 : Fin 2) * 5000 + 1 * p.val; omega
    | ⟨1, _⟩ => show win9_0.index t (1 : Fin 2) * dK + 1 * k.val = k.val; omega
  · show V c (Pipeline.arrRef spec9 1) (((cfg9.win 1).blk t).view.emb (ix2 k q)) = _
    refine congrArg (V c (Pipeline.arrRef spec9 1)) ?_
    funext a; apply Fin.ext
    match a with
    | ⟨0, _⟩ => show win9_1.index t (0 : Fin 2) * dK + 1 * k.val = k.val; omega
    | ⟨1, _⟩ => show win9_1.index t (1 : Fin 2) * dN + 1 * q.val = win9_2.index t (1 : Fin 2) * dN + 1 * q.val; omega

/-- What point t writes back is block t of any function of the product's indices that agrees, entry by entry, with what
    the body leaves at point t. -/
theorem flushed_of (c : Dev nD) (t : Fin cfg9.N) (G : Shape.Idx ArrO → EReal)
    (hG : ∀ (p : Fin 5000) (q : Fin dN),
      k9_pay1 (iblk9 V c 0 t) (iblk9 V c 1 t) (ix2 p q) = G (((cfg9.win 2).blk t).view.emb (ix2 p q))) :
    (dat9 V c).flushed 2 t = ((cfg9.win 2).blk t).view.read (Elt Ideal) G := by
  show (cfg9.win 2).cut (grid9.coords t) ((dat9 V c).after 2 t) = _
  rw [after9_2]
  unfold out9_2
  rw [View.canon_unit_zero hz]
  simp only [View.ld_unit_zero (S := BlkX) hz, View.ld_unit_zero (S := BlkW) hz]
  funext j
  obtain ⟨p, q, rfl⟩ : ∃ (p : Fin 5000) (q : Fin dN), j = ix2 p q := ⟨j 0, j 1, eq_ix2 j⟩
  exact hG p q

/-- An index of the product lies in point t's block iff each coordinate lies in the block's range on its axis. -/
theorem mem_blk (t : Fin cfg9.N) (i : Shape.Idx ArrO) :
    i ∈ ((cfg9.win 2).blk t).view.set ↔ ∀ a : Fin 2, win9_2.index t a * Shape.size BlkO a ≤ (i a).val
      ∧ (i a).val < win9_2.index t a * Shape.size BlkO a + Shape.size BlkO a := by
  show i ∈ ((View.whole main_v66).slice (win9_2.rect t)).set ↔ _
  rw [View.set_slice_whole, Rect.mem_set_unit]
  exact Iff.rfl

/-- The ten blocks fill the product: row r lies in the block of point r / 5000, and every point writes its block back. -/
theorem cover (i : Shape.Idx ArrO) :
    ∃ t : Fin cfg9.N, (cfg9.win 2).flush t = true ∧ i ∈ ((cfg9.win 2).blk t).view.set := by
  have hi0 : (i 0).val < 50000 := (i 0).isLt
  have hi1 : (i 1).val < dN := (i 1).isLt
  have hN : grid9.N = 10 := N_9
  let t : Fin cfg9.N := ⟨(i 0).val / 5000, by show _ < grid9.N; omega⟩
  obtain ⟨-, -, -, -, e4, e5⟩ := idx_facts t
  have ht : t.val = (i 0).val / 5000 := rfl
  refine ⟨t, flush9_2 t, ?_⟩
  rw [mem_blk]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * dN ≤ (i 1).val ∧ (i 1).val < win9_2.index t (1 : Fin 2) * dN + dN; omega

/-- The array region 9 leaves: the matrix product of the two arrays it finds, entry by entry. -/
theorem arr (c : Dev nD) :
    ((dat9 V c).arrAt 2 cfg9.N : S50000x128.Idx → EReal)
      = Spec.mm (M := 50000) (K := 128) (N := 128) (V c (Pipeline.arrRef spec9 0)) (V c (Pipeline.arrRef spec9 1)) :=
  (dat9 V c).arrAt_eq_of_cover 2 _ (fun t _ => flushed_of V c t _ (entry_eq V c t)) cover

end Cert.Gcn.RegMM9

end
-- ==== Proof.RegBias10.lean ====
import proofs.«411271_j79216376808060_2_alg».proof.Proof.Gen.KernelIdeal.Frame
import proofs.«411271_j79216376808060_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

/-
  Region 10: a bias row added to every row of a [50000, 128] array.

  The array is cut into ten blocks of 5000 rows; block t is rows 5000 t … 5000 t + 4999, all 128 columns. At point t the
  body sees block t of the array and the whole [1, 128] bias row, and leaves block t of the output. Entry (p, q) of what
  it leaves is x (p, q) + b (0, q) with x the input block: it depends on one entry of the block and one entry of the row.
  Entry (p, q) of block t is entry (5000 t + p, q) of the array, for the input and the output alike, so block t of the
  output is block t of the function "bias row added" of the whole array. Every row r lies in block r / 5000, so the ten
  blocks fill the output.
-/

set_option maxRecDepth 16384

noncomputable section

namespace Cert.Gcn.RegBias10

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- The [50000, 128] array the region finds, as a function of its index into the extended reals. -/
abbrev xarr (c : Dev nD) : S50000x128.Idx → EReal := V c (Pipeline.arrRef spec10 0)
/-- The [1, 128] bias row the region finds. -/
abbrev brow (c : Dev nD) : S1x128.Idx → EReal := V c (Pipeline.arrRef spec10 1)
/-- The array's block at point t: 5000 rows of 128. -/
abbrev xblk (c : Dev nD) (t : Fin cfg10.N) : Vec Ideal S5000x128 .f32 := iblk10 V c 0 t
/-- The bias row's block at point t: the whole row. -/
abbrev bblk (c : Dev nD) (t : Fin cfg10.N) : Vec Ideal S1x128 .f32 := iblk10 V c 1 t

/-- The body's result at entry (p, q): the block's entry plus the row's entry in column q. The two casts are of a shape
    to itself; the broadcast repeats the one row down the 5000 rows. -/
theorem pay_at (x0 : Vec Ideal S5000x128 .f32) (x1 : Vec Ideal S1x128 .f32) (p : Fin 5000) (q : Fin 128) :
    k10_pay1 x0 x1 (ix2 p q) = x0 (ix2 p q) + x1 (ix2 (0 : Fin 1) q) := by
  unfold k10_pay1
  rw [addf_apply, shapeCast_self, shapeCast_self, broadcastTo_1b_ab_apply]

/-- The block indices over the ten points: the input array's block moves with the output's, the bias row stays at
    block (0, 0), and the output's block at point t is (t, 0). -/
theorem idx_facts : ∀ t : Fin cfg10.N, win10_0.index t (0 : Fin 2) = win10_2.index t (0 : Fin 2)
    ∧ win10_0.index t (1 : Fin 2) = win10_2.index t (1 : Fin 2)
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

/-- Entry (p, q) of the input block at point t is the array's entry where the output's block t puts (p, q): both
    blocks start at row 5000 t, column 0. -/
theorem xblk_at (c : Dev nD) (t : Fin cfg10.N) (p : Fin 5000) (q : Fin 128) :
    xblk V c t (ix2 p q) = xarr V c (((cfg10.win 2).blk t).view.emb (ix2 p q)) := by
  obtain ⟨e0, e1, e2, e3, e4, e5⟩ := idx_facts t
  show xarr V c (((cfg10.win 0).blk t).view.emb (ix2 p q)) = _
  refine congrArg (xarr V c) ?_
  funext a; apply Fin.ext
  match a with
  | ⟨0, _⟩ => show win10_0.index t (0 : Fin 2) * 5000 + 1 * p.val = win10_2.index t (0 : Fin 2) * 5000 + 1 * p.val; omega
  | ⟨1, _⟩ => show win10_0.index t (1 : Fin 2) * 128 + 1 * q.val = win10_2.index t (1 : Fin 2) * 128 + 1 * q.val; omega

/-- Entry (0, q) of the bias block at any point is the bias row's entry in the column of the array entry that the
    output's block t puts at (p, q): that column is q, because the output's blocks start at column 0. -/
theorem bblk_at (c : Dev nD) (t : Fin cfg10.N) (p : Fin 5000) (q : Fin 128) :
    bblk V c t (ix2 (0 : Fin 1) q)
      = brow V c (ix2 (0 : Fin 1) (Spec.col (M := 50000) (N := 128) (((cfg10.win 2).blk t).view.emb (ix2 p q)))) := by
  obtain ⟨e0, e1, e2, e3, e4, e5⟩ := idx_facts t
  show brow V c (((cfg10.win 1).blk t).view.emb (ix2 (0 : Fin 1) q)) = _
  refine congrArg (brow V c) ?_
  funext a; apply Fin.ext
  match a with
  | ⟨0, _⟩ => show win10_1.index t (0 : Fin 2) * 1 + 1 * 0 = 0; omega
  | ⟨1, _⟩ => show win10_1.index t (1 : Fin 2) * 128 + 1 * q.val = win10_2.index t (1 : Fin 2) * 128 + 1 * q.val; omega

/-- What point t writes back is block t of "bias row added" of the array the region finds. -/
theorem flushed_eq (c : Dev nD) (t : Fin cfg10.N) :
    (dat10 V c).flushed 2 t = ((cfg10.win 2).blk t).view.read (Elt Ideal)
      (Spec.addRow (M := 50000) (N := 128) (V c (Pipeline.arrRef spec10 0)) (V c (Pipeline.arrRef spec10 1))) := by
  show (cfg10.win 2).cut (grid10.coords t) ((dat10 V c).after 2 t) = _
  rw [after10_2]
  unfold out10_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_at (xblk V c t) (bblk V c t) p q).trans ?_
  rw [xblk_at V c t p q, bblk_at V c t p q]
  rfl

/-- An entry of the output array is in block t exactly when, on each axis, its coordinate is in the block's range. -/
theorem mem_blk (t : Fin cfg10.N) (i : S50000x128.Idx) :
    i ∈ ((cfg10.win 2).blk t).view.set ↔ ∀ a : Fin 2, win10_2.index t a * S5000x128.size a ≤ (i a).val
      ∧ (i a).val < win10_2.index t a * S5000x128.size a + S5000x128.size a := by
  show i ∈ ((View.whole main_v75).slice (win10_2.rect t)).set ↔ _
  rw [View.set_slice_whole, Rect.mem_set_unit]
  exact Iff.rfl

/-- Every entry of the output array is in some point's block: row r is in block r / 5000. -/
theorem cover (i : S50000x128.Idx) :
    ∃ t : Fin cfg10.N, (cfg10.win 2).flush t = true ∧ i ∈ ((cfg10.win 2).blk t).view.set := by
  have hi0 : (i 0).val < 50000 := idx2_lt0 i
  have hi1 : (i 1).val < 128 := idx2_lt1 i
  have hN : cfg10.N = 10 := N_10
  obtain ⟨t, ht⟩ : ∃ t : Fin cfg10.N, t.val = (i 0).val / 5000 := ⟨⟨(i 0).val / 5000, by rw [hN]; omega⟩, rfl⟩
  obtain ⟨e0, e1, e2, e3, e4, e5⟩ := idx_facts t
  refine ⟨t, flush10_2 t, ?_⟩
  rw [mem_blk]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 128 ≤ (i 1).val ∧ (i 1).val < win10_2.index t (1 : Fin 2) * 128 + 128; omega

/-- The array region 10 leaves: the bias row added to every row of the array it finds, entry by entry. -/
theorem arr (c : Dev nD) :
    ((dat10 V c).arrAt 2 cfg10.N : S50000x128.Idx → EReal)
      = Spec.addRow (M := 50000) (N := 128) (V c (Pipeline.arrRef spec10 0)) (V c (Pipeline.arrRef spec10 1)) :=
  (dat10 V c).arrAt_eq_of_cover 2 _ (fun t _ => flushed_eq V c t) cover

end Cert.Gcn.RegBias10

end
-- ==== Proof.Seg3.lean ====
/-
  The decoder's two layers, boundary by boundary, and the results at the end of the run.

  From the end of region 7: a host stretch passes messages over 128 channels; region 8 adds the bias row and takes the
  positive part; region 9 multiplies by the last weight matrix; the last host stretch passes messages again; region 10
  adds the last bias row. The mean and log-variance arrays written by region 6 are untouched to the end.
-/
import proofs.«411271_j79216376808060_2_alg».proof.Proof.ChainBase
import proofs.«411271_j79216376808060_2_alg».proof.Proof.KModel
import proofs.«411271_j79216376808060_2_alg».proof.Proof.Take
import proofs.«411271_j79216376808060_2_alg».proof.Proof.Bridge
import proofs.«411271_j79216376808060_2_alg».proof.Proof.RegBias8
import proofs.«411271_j79216376808060_2_alg».proof.Proof.RegMM9
import proofs.«411271_j79216376808060_2_alg».proof.Proof.RegBias10
import Idealize.ShloMosaic.Lib.Pipeline.Value
import Idealize.ShloMosaic.Lib.ValueIdx

set_option maxRecDepth 16384

noncomputable section

namespace Cert.Gcn.Chain

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD) (ρ : Dev nD → PrngReg)

namespace Seg3

/-! ## Contents carried between a buffer's type and a tensor value's type

The operations of an inlined function read and write their buffers through a transport along "this buffer's type is
that tensor type"; the two types are the same, so every such transport is the identity. -/

/-- Contents carried to a buffer's own type and back are the contents. -/
theorem ofBuf_toBuf {T : BufTy} (x : StableHlo.TRef sig T) (v : T.Contents (Elt Ideal)) : x.ofBuf (x.toBuf v) = v := by
  obtain ⟨r, h, a, b⟩ := x
  subst h
  rfl

/-- The source list read at its tensor type is the buffer's contents. -/
theorem read_v3 (V : Valuation τ sig (Elt Ideal)) :
    ((StableHlo.TRef.of main_v3 : StableHlo.TRef sig ⟨S850000, .i32⟩).ofBuf (V (Proc.devRef .tc main_v3)) : IVec S850000 32)
      = (V (Proc.devRef .tc main_v3) : IVec S850000 32) := rfl
/-- The decoder's first product read at its tensor type is the buffer's contents. -/
theorem read_v56 (V : Valuation τ sig (Elt Ideal)) :
    ((StableHlo.TRef.of main_v56 : StableHlo.TRef sig ⟨S50000x128, .f32⟩).ofBuf (V (Proc.devRef .tc main_v56)) : S50000x128.Idx → EReal)
      = (V (Proc.devRef .tc main_v56) : S50000x128.Idx → EReal) := rfl
/-- The decoder's second product read at its tensor type is the buffer's contents. -/
theorem read_v66 (V : Valuation τ sig (Elt Ideal)) :
    ((StableHlo.TRef.of main_v66 : StableHlo.TRef sig ⟨S50000x128, .f32⟩).ofBuf (V (Proc.devRef .tc main_v66)) : S50000x128.Idx → EReal)
      = (V (Proc.devRef .tc main_v66) : S50000x128.Idx → EReal) := rfl
/-- The first gathered array written at its buffer's type is the array. -/
theorem write_v57 (X : S850000x128.Idx → EReal) :
    ((StableHlo.TRef.of main_v57 : StableHlo.TRef sig ⟨S850000x128, .f32⟩).toBuf (Val := Elt Ideal) X : S850000x128.Idx → EReal) = X := rfl
/-- The second gathered array written at its buffer's type is the array. -/
theorem write_v67 (X : S850000x128.Idx → EReal) :
    ((StableHlo.TRef.of main_v67 : StableHlo.TRef sig ⟨S850000x128, .f32⟩).toBuf (Val := Elt Ideal) X : S850000x128.Idx → EReal) = X := rfl

/-! ## The two host stretches, read over any entry contents

Each stretch has two parts: the rows of a product gathered at the source numbers (the gather that fills what is out of
range), then the message passing proper and the bias vector laid out as a one-row matrix. -/

set_option maxHeartbeats 400000 in
/-- The first stretch's first part, over any entry contents: the filling gather of the rows of the product at the source
    numbers. -/
theorem stretch8_take (V : Valuation τ sig (Elt Ideal)) :
    (StableHlo.after hostOps8 V (Proc.devRef .tc main_v57) : S850000x128.Idx → EReal)
      = K.take128 (F := Ideal) (V (Proc.devRef .tc main_v56) : S50000x128.Idx → EReal) (V (Proc.devRef .tc main_v3) : IVec S850000 32) := by
  after_results_simp
  after_clean
  simp only [ofBuf_toBuf, read_v3 V, read_v56 V, write_v57]
  rfl

set_option maxHeartbeats 400000 in
/-- The first stretch's second part, over any entry contents: every edge's gathered row scaled by the edge's weight and summed
    into the edge's destination. -/
theorem stretch8_1_agg (V : Valuation τ sig (Elt Ideal)) :
    (StableHlo.after hostOps8_1 V (Proc.devRef .tc main_v63) : S50000x128.Idx → EReal)
      = Host.scatterAdd (F := Ideal) scatter_S50000x128_S850000x1_S850000x128_1_0_0_1
          (broadcastInDim S50000x128 ![] bcast_S_S50000x128 (constant (F := Ideal) S_ .f32 0x00000000#32))
          (broadcastInDim S850000x1 ![0] bcast_S850000_S850000x1_0 (V (Proc.devRef .tc main_v6) : IVec S850000 32))
          (mulf (V (Proc.devRef .tc main_v57) : S850000x128.Idx → EReal)
            (broadcastInDim S850000x128 ![0, 1] bcast_S850000x1_S850000x128_0_1
              (broadcastInDim S850000x1 ![0] bcast_S850000_S850000x1_0 (V (Proc.devRef .tc main_v30) : S850000.Idx → EReal)))) := by
  after_results_simp
  after_clean

set_option maxHeartbeats 400000 in
/-- The first stretch's last operation, over any entry contents: the bias vector as a one-row matrix. -/
theorem stretch8_1_brow (V : Valuation τ sig (Elt Ideal)) :
    (StableHlo.after hostOps8_1 V (Proc.devRef .tc main_v64) : S1x128.Idx → EReal)
      = shapeCast S1x128 (V (Proc.devRef .tc main_arg12) : S128.Idx → EReal) shapeCasts_S128_S1x128 := by
  after_results_simp
  after_clean
  rfl

set_option maxHeartbeats 400000 in
/-- The last stretch's first part, over any entry contents: the filling gather of the rows of the product at the source
    numbers. -/
theorem stretch10_take (V : Valuation τ sig (Elt Ideal)) :
    (StableHlo.after hostOps10 V (Proc.devRef .tc main_v67) : S850000x128.Idx → EReal)
      = K.take128 (F := Ideal) (V (Proc.devRef .tc main_v66) : S50000x128.Idx → EReal) (V (Proc.devRef .tc main_v3) : IVec S850000 32) := by
  after_results_simp
  after_clean
  simp only [ofBuf_toBuf, read_v3 V, read_v66 V, write_v67]
  rfl

set_option maxHeartbeats 400000 in
/-- The last stretch's second part, over any entry contents: every edge's gathered row scaled by the edge's weight and summed
    into the edge's destination. -/
theorem stretch10_1_agg (V : Valuation τ sig (Elt Ideal)) :
    (StableHlo.after hostOps10_1 V (Proc.devRef .tc main_v73) : S50000x128.Idx → EReal)
      = Host.scatterAdd (F := Ideal) scatter_S50000x128_S850000x1_S850000x128_1_0_0_1
          (broadcastInDim S50000x128 ![] bcast_S_S50000x128 (constant (F := Ideal) S_ .f32 0x00000000#32))
          (broadcastInDim S850000x1 ![0] bcast_S850000_S850000x1_0 (V (Proc.devRef .tc main_v6) : IVec S850000 32))
          (mulf (V (Proc.devRef .tc main_v67) : S850000x128.Idx → EReal)
            (broadcastInDim S850000x128 ![0, 1] bcast_S850000x1_S850000x128_0_1
              (broadcastInDim S850000x1 ![0] bcast_S850000_S850000x1_0 (V (Proc.devRef .tc main_v30) : S850000.Idx → EReal)))) := by
  after_results_simp
  after_clean

set_option maxHeartbeats 400000 in
/-- The last stretch's last operation, over any entry contents: the bias vector as a one-row matrix. -/
theorem stretch10_1_brow (V : Valuation τ sig (Elt Ideal)) :
    (StableHlo.after hostOps10_1 V (Proc.devRef .tc main_v74) : S1x128.Idx → EReal)
      = shapeCast S1x128 (V (Proc.devRef .tc main_arg14) : S128.Idx → EReal) shapeCasts_S128_S1x128 := by
  after_results_simp
  after_clean
  rfl

/-! ## Buffers carried unchanged

No operation of the two host stretches writes an argument, an edge list, the edge weights, or the mean and log-variance
arrays, and no window of regions 8, 9, 10 holds one of them except region 9's input window on the last weight matrix. -/

/-- The decoder's first bias vector is as launched when the first stretch's first part has run. -/
theorem at17_arg12 : (W17 m ρ c (Proc.devRef .tc main_arg12) : Cert.ReferenceIdeal.S128.Idx → EReal) = a12 m c :=
  (calc W23 m ρ c (Proc.devRef .tc main_arg12)
    _ = W22 m ρ c (Proc.devRef .tc main_arg12) := W23_of_ne m ρ c main_arg12 (by decide)
    _ = W21 m ρ c (Proc.devRef .tc main_arg12) := by keep_host hostOps10_1
    _ = W20 m ρ c (Proc.devRef .tc main_arg12) := by keep_host hostOps10
    _ = W19 m ρ c (Proc.devRef .tc main_arg12) := W20_of_ne m ρ c main_arg12 (by decide)
    _ = W18 m ρ c (Proc.devRef .tc main_arg12) := W19_of_ne m ρ c main_arg12 (by decide)
    _ = W17 m ρ c (Proc.devRef .tc main_arg12) := by keep_host hostOps8_1).symm.trans (W23_main_arg12 m ρ c)

/-- The decoder's second weight matrix is as launched when region 9 is entered. -/
theorem at19_arg13 : (W19 m ρ c (Proc.devRef .tc main_arg13) : Cert.ReferenceIdeal.S128x128.Idx → EReal) = a13 m c :=
  (calc W23 m ρ c (Proc.devRef .tc main_arg13)
    _ = W22 m ρ c (Proc.devRef .tc main_arg13) := W23_of_ne m ρ c main_arg13 (by decide)
    _ = W21 m ρ c (Proc.devRef .tc main_arg13) := by keep_host hostOps10_1
    _ = W20 m ρ c (Proc.devRef .tc main_arg13) := by keep_host hostOps10
    _ = W19 m ρ c (Proc.devRef .tc main_arg13) :=
          (W20_arr m ρ c 1).trans (((dat9 (V19 m ρ) c).arrAt_in 1 rfl _).trans (A_eq9 (V19 m ρ) c 1))).symm.trans
    (W23_main_arg13 m ρ c)

/-- The decoder's second bias vector is as launched when the last stretch's first part has run. -/
theorem at21_arg14 : (W21 m ρ c (Proc.devRef .tc main_arg14) : Cert.ReferenceIdeal.S128.Idx → EReal) = a14 m c :=
  (calc W23 m ρ c (Proc.devRef .tc main_arg14)
    _ = W22 m ρ c (Proc.devRef .tc main_arg14) := W23_of_ne m ρ c main_arg14 (by decide)
    _ = W21 m ρ c (Proc.devRef .tc main_arg14) := by keep_host hostOps10_1).symm.trans (W23_main_arg14 m ρ c)

/-- The source list from the end of region 7 to the end of region 9. -/
theorem carry_src : W20 m ρ c (Proc.devRef .tc main_v3) = W16 m ρ c (Proc.devRef .tc main_v3) :=
  calc W20 m ρ c (Proc.devRef .tc main_v3)
    _ = W19 m ρ c (Proc.devRef .tc main_v3) := W20_of_ne m ρ c main_v3 (by decide)
    _ = W18 m ρ c (Proc.devRef .tc main_v3) := W19_of_ne m ρ c main_v3 (by decide)
    _ = W17 m ρ c (Proc.devRef .tc main_v3) := by keep_host hostOps8_1
    _ = W16 m ρ c (Proc.devRef .tc main_v3) := by keep_host hostOps8

/-- The destination list from the end of region 7 to the end of region 9. -/
theorem carry_dst : W20 m ρ c (Proc.devRef .tc main_v6) = W16 m ρ c (Proc.devRef .tc main_v6) :=
  calc W20 m ρ c (Proc.devRef .tc main_v6)
    _ = W19 m ρ c (Proc.devRef .tc main_v6) := W20_of_ne m ρ c main_v6 (by decide)
    _ = W18 m ρ c (Proc.devRef .tc main_v6) := W19_of_ne m ρ c main_v6 (by decide)
    _ = W17 m ρ c (Proc.devRef .tc main_v6) := by keep_host hostOps8_1
    _ = W16 m ρ c (Proc.devRef .tc main_v6) := by keep_host hostOps8

/-- The edge weights from the end of region 7 to the end of region 9. -/
theorem carry_norm : W20 m ρ c (Proc.devRef .tc main_v30) = W16 m ρ c (Proc.devRef .tc main_v30) :=
  calc W20 m ρ c (Proc.devRef .tc main_v30)
    _ = W19 m ρ c (Proc.devRef .tc main_v30) := W20_of_ne m ρ c main_v30 (by decide)
    _ = W18 m ρ c (Proc.devRef .tc main_v30) := W19_of_ne m ρ c main_v30 (by decide)
    _ = W17 m ρ c (Proc.devRef .tc main_v30) := by keep_host hostOps8_1
    _ = W16 m ρ c (Proc.devRef .tc main_v30) := by keep_host hostOps8

/-- The mean array from the end of region 7 to the end of the run. -/
theorem carry_mean : W23 m ρ c (Proc.devRef .tc main_v55_0) = W16 m ρ c (Proc.devRef .tc main_v55_0) :=
  calc W23 m ρ c (Proc.devRef .tc main_v55_0)
    _ = W22 m ρ c (Proc.devRef .tc main_v55_0) := W23_of_ne m ρ c main_v55_0 (by decide)
    _ = W21 m ρ c (Proc.devRef .tc main_v55_0) := by keep_host hostOps10_1
    _ = W20 m ρ c (Proc.devRef .tc main_v55_0) := by keep_host hostOps10
    _ = W19 m ρ c (Proc.devRef .tc main_v55_0) := W20_of_ne m ρ c main_v55_0 (by decide)
    _ = W18 m ρ c (Proc.devRef .tc main_v55_0) := W19_of_ne m ρ c main_v55_0 (by decide)
    _ = W17 m ρ c (Proc.devRef .tc main_v55_0) := by keep_host hostOps8_1
    _ = W16 m ρ c (Proc.devRef .tc main_v55_0) := by keep_host hostOps8

/-- The log-variance array from the end of region 7 to the end of the run. -/
theorem carry_logvar : W23 m ρ c (Proc.devRef .tc main_v55_1) = W16 m ρ c (Proc.devRef .tc main_v55_1) :=
  calc W23 m ρ c (Proc.devRef .tc main_v55_1)
    _ = W22 m ρ c (Proc.devRef .tc main_v55_1) := W23_of_ne m ρ c main_v55_1 (by decide)
    _ = W21 m ρ c (Proc.devRef .tc main_v55_1) := by keep_host hostOps10_1
    _ = W20 m ρ c (Proc.devRef .tc main_v55_1) := by keep_host hostOps10
    _ = W19 m ρ c (Proc.devRef .tc main_v55_1) := W20_of_ne m ρ c main_v55_1 (by decide)
    _ = W18 m ρ c (Proc.devRef .tc main_v55_1) := W19_of_ne m ρ c main_v55_1 (by decide)
    _ = W17 m ρ c (Proc.devRef .tc main_v55_1) := by keep_host hostOps8_1
    _ = W16 m ρ c (Proc.devRef .tc main_v55_1) := by keep_host hostOps8

/-! ## The decoder's first layer -/

/-- The kernel's wrapped source column is the model's. -/
theorem wrap_eq (s : IVec S850000 32) : K.wrap s = Gcn.wrap s := rfl

/-- At region 8's entry its input array is the messages of the decoder's first product, passed along the edges: the
    filling gather is the plain gather because every source number names a node, and what is then scattered is the
    model's own expression. -/
theorem at18_agg (hs : InRange m c) (h : At16 m c ρ) :
    (W18 m ρ c (Proc.devRef .tc main_v63) : Cert.ReferenceIdeal.S50000x128.Idx → EReal)
      = Gcn.agg128 (F := Ideal) (a1 m c) (Gcn.dot64x128 (z m c) (a11 m c)) := by
  refine (stretch8_1_agg (W17 m ρ c)).trans ?_
  -- what the second part reads: the destinations and the weights as at boundary 16, the rows gathered by the first part
  have e6 : (W17 m ρ c (Proc.devRef .tc main_v6) : IVec S850000 32) = Gcn.dst (a1 m c) :=
    (show W17 m ρ c (Proc.devRef .tc main_v6) = W16 m ρ c (Proc.devRef .tc main_v6) by keep_host hostOps8).trans h.dst
  have e30 : (W17 m ρ c (Proc.devRef .tc main_v30) : S850000.Idx → EReal) = Gcn.norm (F := Ideal) (a1 m c) :=
    (show W17 m ρ c (Proc.devRef .tc main_v30) = W16 m ρ c (Proc.devRef .tc main_v30) by keep_host hostOps8).trans h.norm
  have e57 : (W17 m ρ c (Proc.devRef .tc main_v57) : S850000x128.Idx → EReal)
      = Host.gather gather_S50000x128_S850000x1_S850000x128_1_0_n_n_0_1_1128
          (Gcn.dot64x128 (z m c) (a11 m c)) (Gcn.wrap (Gcn.src (a1 m c))) :=
    ((stretch8_take (W16 m ρ c)).trans (congrArg₂ (K.take128 (F := Ideal)) h.lin h.src)).trans
      (K.take128_eq (Gcn.dot64x128 (z m c) (a11 m c)) (Gcn.src (a1 m c)) hs)
  rw [e6, e30, e57]
  unfold Gcn.agg128
  rfl

/-- At region 8's entry its bias row is the decoder's first bias vector, entry by entry. -/
theorem at18_brow (q : Fin 128) :
    (W18 m ρ c (Proc.devRef .tc main_v64) : S1x128.Idx → EReal) (ix2 (0 : Fin 1) q) = a12 m c (ix1 q) :=
  ((congrFun (stretch8_1_brow (W17 m ρ c)) (ix2 (0 : Fin 1) q)).trans
    (shapeCast_a_1a_apply _ shapeCasts_S128_S1x128 0 q)).trans (congrFun (at17_arg12 m c ρ) (ix1 q))

/-- Region 8 leaves the decoder's first layer: bias row added, positive part. -/
theorem at19_d1 (hs : InRange m c) (h : At16 m c ρ) :
    (W19 m ρ c (Proc.devRef .tc main_v65) : Cert.ReferenceIdeal.S50000x128.Idx → EReal) = d1 m c := by
  refine (W19_arr m ρ c 2).trans ?_
  refine (RegBias8.arr (V18 m ρ) c).trans ?_
  have hx : (V18 m ρ c (Pipeline.arrRef spec8 0) : S50000x128.Idx → EReal)
      = Gcn.agg128 (F := Ideal) (a1 m c) (Gcn.dot64x128 (z m c) (a11 m c)) := at18_agg m c ρ hs h
  rw [hx, Bridge.addb128_eq _ (a12 m c) _ (at18_brow m c ρ), Bridge.relu128_eq]
  rfl

/-! ## The decoder's second layer -/

/-- Region 9 leaves the product of the first layer with the last weight matrix. -/
theorem at20_lin (hs : InRange m c) (h : At16 m c ρ) :
    (W20 m ρ c (Proc.devRef .tc main_v66) : Cert.ReferenceIdeal.S50000x128.Idx → EReal)
      = Gcn.dot128x128 (d1 m c) (a13 m c) := by
  refine (W20_arr m ρ c 2).trans ?_
  refine (RegMM9.arr (V19 m ρ) c).trans ?_
  have hx : (V19 m ρ c (Pipeline.arrRef spec9 0) : S50000x128.Idx → EReal) = d1 m c := at19_d1 m c ρ hs h
  have hw : (V19 m ρ c (Pipeline.arrRef spec9 1) : S128x128.Idx → EReal) = a13 m c := at19_arg13 m c ρ
  rw [hx, hw]
  exact (Bridge.dot128x128_eq _ _).symm

/-- At region 10's entry its input array is the messages of the decoder's second product, passed along the edges. -/
theorem at22_agg (hs : InRange m c) (h : At16 m c ρ) :
    (W22 m ρ c (Proc.devRef .tc main_v73) : Cert.ReferenceIdeal.S50000x128.Idx → EReal)
      = Gcn.agg128 (F := Ideal) (a1 m c) (Gcn.dot128x128 (d1 m c) (a13 m c)) := by
  refine (stretch10_1_agg (W21 m ρ c)).trans ?_
  have e6 : (W21 m ρ c (Proc.devRef .tc main_v6) : IVec S850000 32) = Gcn.dst (a1 m c) :=
    ((show W21 m ρ c (Proc.devRef .tc main_v6) = W20 m ρ c (Proc.devRef .tc main_v6) by keep_host hostOps10).trans
      (carry_dst m c ρ)).trans h.dst
  have e30 : (W21 m ρ c (Proc.devRef .tc main_v30) : S850000.Idx → EReal) = Gcn.norm (F := Ideal) (a1 m c) :=
    ((show W21 m ρ c (Proc.devRef .tc main_v30) = W20 m ρ c (Proc.devRef .tc main_v30) by keep_host hostOps10).trans
      (carry_norm m c ρ)).trans h.norm
  have e3 : (W20 m ρ c (Proc.devRef .tc main_v3) : IVec S850000 32) = Gcn.src (a1 m c) := (carry_src m c ρ).trans h.src
  have e67 : (W21 m ρ c (Proc.devRef .tc main_v67) : S850000x128.Idx → EReal)
      = Host.gather gather_S50000x128_S850000x1_S850000x128_1_0_n_n_0_1_1128
          (Gcn.dot128x128 (d1 m c) (a13 m c)) (Gcn.wrap (Gcn.src (a1 m c))) :=
    ((stretch10_take (W20 m ρ c)).trans (congrArg₂ (K.take128 (F := Ideal)) (at20_lin m c ρ hs h) e3)).trans
      (K.take128_eq (Gcn.dot128x128 (d1 m c) (a13 m c)) (Gcn.src (a1 m c)) hs)
  rw [e6, e30, e67]
  unfold Gcn.agg128
  rfl

/-- At region 10's entry its bias row is the decoder's second bias vector, entry by entry. -/
theorem at22_brow (q : Fin 128) :
    (W22 m ρ c (Proc.devRef .tc main_v74) : S1x128.Idx → EReal) (ix2 (0 : Fin 1) q) = a14 m c (ix1 q) :=
  ((congrFun (stretch10_1_brow (W21 m ρ c)) (ix2 (0 : Fin 1) q)).trans
    (shapeCast_a_1a_apply _ shapeCasts_S128_S1x128 0 q)).trans (congrFun (at21_arg14 m c ρ) (ix1 q))

/-- Region 10 leaves the reconstruction: the last bias row added. -/
theorem at23_d (hs : InRange m c) (h : At16 m c ρ) :
    (W23 m ρ c (Proc.devRef .tc main_v75) : Cert.ReferenceIdeal.S50000x128.Idx → EReal) = d m c := by
  refine (W23_arr m ρ c 2).trans ?_
  refine (RegBias10.arr (V22 m ρ) c).trans ?_
  have hx : (V22 m ρ c (Pipeline.arrRef spec10 0) : S50000x128.Idx → EReal)
      = Gcn.agg128 (F := Ideal) (a1 m c) (Gcn.dot128x128 (d1 m c) (a13 m c)) := at22_agg m c ρ hs h
  rw [hx, Bridge.addb128_eq _ (a14 m c) _ (at22_brow m c ρ)]
  rfl

end Seg3

/-- From the end of region 7 to the end of the run. -/
theorem seg3 (hs : InRange m c) (h : At16 m c ρ) : At23 m c ρ := by
  exact
    { recon := Seg3.at23_d m c ρ hs h
      mean := (Seg3.carry_mean m c ρ).trans h.mean
      logvar := (Seg3.carry_logvar m c ρ).trans h.logvar }

end Cert.Gcn.Chain

end
-- ==== Proof.lean ====
/-
  A graph autoencoder computed two ways ends with the same reconstruction, mean and log-variance.

  The network: every node gets a self loop; an edge's weight is deg^(-1/2) at its source times deg^(-1/2) at its
  destination; a graph convolution multiplies the node features by a weight matrix, sends each edge's source row scaled
  by the edge's weight to the edge's destination, sums what arrives, and adds a bias. Two convolutions (the first followed
  by the positive part) encode; two matrix products with biases give the mean and the log-variance; the sample is
  mean + noise * exp (logvar / 2); two more convolutions decode.

  The kernel's program computes the six matrix products in blocks of 5000 rows, the bias adds and the sample in blocks
  too, and gathers source rows with a gather that FILLS rows whose node number is out of range, where the reference
  clamps the number. Under the precondition every source node number names a node, so the two gathers agree; block by
  block each region leaves exactly the whole-array product, bias add or sample; and boundary by boundary the kernel's
  run holds the reference's own composed terms. The three frames are the generated frames (the reference's is its
  generated run with the results dropped), and no operation was rewritten by the idealization, so nothing is owed there.
-/
import proofs.«411271_j79216376808060_2_alg».proof.Defs
import proofs.«411271_j79216376808060_2_alg».proof.Proof.Gen.Kernel
import proofs.«411271_j79216376808060_2_alg».proof.Proof.Gen.Kernel.Skeleton
import proofs.«411271_j79216376808060_2_alg».proof.Proof.Gen.Kernel.Launch
import proofs.«411271_j79216376808060_2_alg».proof.Proof.Gen.Kernel.Points
import proofs.«411271_j79216376808060_2_alg».proof.Proof.Gen.Kernel.Frame
import proofs.«411271_j79216376808060_2_alg».proof.Proof.Gen.KernelIdeal
import proofs.«411271_j79216376808060_2_alg».proof.Proof.Gen.KernelIdeal.Skeleton
import proofs.«411271_j79216376808060_2_alg».proof.Proof.Gen.KernelIdeal.Launch
import proofs.«411271_j79216376808060_2_alg».proof.Proof.Gen.KernelIdeal.Points
import proofs.«411271_j79216376808060_2_alg».proof.Proof.Gen.KernelIdeal.Frame
import proofs.«411271_j79216376808060_2_alg».proof.Proof.Gen.ReferenceIdeal
import proofs.«411271_j79216376808060_2_alg».proof.Proof.Gen.Pre_finite_inputs
import proofs.«411271_j79216376808060_2_alg».proof.Proof.RefRun
import proofs.«411271_j79216376808060_2_alg».proof.Proof.RunFinal
import proofs.«411271_j79216376808060_2_alg».proof.Proof.SrcRange
import proofs.«411271_j79216376808060_2_alg».proof.Proof.ModelRun
import proofs.«411271_j79216376808060_2_alg».proof.Proof.Seg1
import proofs.«411271_j79216376808060_2_alg».proof.Proof.Seg2
import proofs.«411271_j79216376808060_2_alg».proof.Proof.Seg3
import Idealize.ShloMosaic.Adequacy
import Idealize.ShloMosaic.Init

noncomputable section

namespace Cert.Proof

open Idealize.ShloMosaic Idealize.SL.Sem

/-- The word-level kernel's frame: the generated one. -/
theorem frame_p : Cert.frame_Kernel := fun m ρ _ => Cert.Kernel.Gen.frame m ρ

/-- The idealized kernel's frame: the generated one. -/
theorem frame_pi : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)

/-- Both idealized programs end with the model's reconstruction, mean and log-variance of the arguments: the kernel's
    run boundary by boundary under the range of the source node numbers, the reference's run by unfolding the model. -/
theorem algebraic : Cert.algebraic_KernelIdeal_ReferenceIdeal := by
  intro m ρ m' ρ' hpre hagree
  refine ⟨fun c => Cert.Gcn.Chain.d m c, fun c => Cert.Gcn.Chain.mu m c, fun c => Cert.Gcn.Chain.logvar m c, ?_, ?_⟩
  · refine (θ_run Cert.KernelIdeal.defs _ _).mono (fun r h c => ?_) (Cert.KernelIdeal.Final.run_final (F := Ideal) m ρ)
    have hs : Cert.Gcn.Chain.InRange m c := fun j => Cert.Gcn.src_lt m hpre c j
    have h23 := Cert.Gcn.Chain.seg3 m c ρ hs (Cert.Gcn.Chain.seg2 m c ρ hs (Cert.Gcn.Chain.seg1 m c ρ hs))
    obtain ⟨e0, e1, e2, rest⟩ := h c
    exact ⟨e0.trans h23.recon, e1.trans h23.mean, e2.trans h23.logvar, rest⟩
  · refine (θ_run Cert.ReferenceIdeal.defs _ _).mono (fun r h c => ?_) (Cert.ReferenceIdeal.RefRun.run (F := Ideal) m' ρ')
    obtain ⟨e0, e1, e2, rest⟩ := h c
    obtain ⟨g0, g1, g2, g3, g4, g5, g6, g7, g8, g9, g10, g11, g12, g13, g14⟩ := hagree c
    refine ⟨e0.trans ?_, e1.trans ?_, e2.trans ?_, rest⟩
    · rw [Cert.Gcn.res_recon_eq, g0, g1, g2, g3, g4, g5, g6, g7, g8, g9, g10, g11, g12, g13, g14]
    · rw [Cert.Gcn.res_mean_eq, g0, g1, g3, g4, g5, g6, g7, g8]
    · rw [Cert.Gcn.res_logvar_eq, g0, g1, g3, g4, g5, g6, g9, g10]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
